-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S32000x100 : Shape := ⟨2, ![32000, 100]⟩
abbrev S8192 : Shape := ⟨1, ![8192]⟩
abbrev S8192x5 : Shape := ⟨2, ![8192, 5]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S32000x100 : S_.BroadcastsInDim S32000x100 (![] : Fin 0 → Fin S32000x100.rank)
  reducesTo_S32000x100_S_d0_1 : S32000x100.ReducesTo [0, 1] S_
  bcast_S_S8192x5 : S_.BroadcastsInDim S8192x5 (![] : Fin 0 → Fin S8192x5.rank)
  reducesTo_S8192x5_S_d0_1 : S8192x5.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x32000 .f32) (main_arg1 : FVec F S32000x100 .f32) (main_arg2 : IVec S8192 32) (main_arg3 : IVec S8192x5 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_v4 : FVec F S32000x100 .f32 := Host.absf main_arg1
  let main_cst_0 : FVec F S_ .f32 := constant S_ .f32 0x7F800000#32
  let main_v5 : FVec F S32000x100 .f32 := broadcastInDim S32000x100 ![] bcast_S_S32000x100 main_cst_0
  let main_v6 : IVec S32000x100 1 := cmpf .olt main_v4 main_v5
  let main_c_1 : IVec S_ 1 := constantI S_ 1 1#1
  let main_v7 : IVec S_ 1 := (fun x v => Host.reduce IntOp.andi x v reducesTo_S32000x100_S_d0_1 h_S_) main_v6 main_c_1
  let main_v8 : IVec S_ 1 := andi main_v3 main_v7
  let main_c_2 : IVec S_ 32 := constantI S_ 32 0#32
  let main_v9 : IVec S8192x5 32 := broadcastInDim S8192x5 ![] bcast_S_S8192x5 main_c_2
  let main_v10 : IVec S8192x5 1 := cmpi .sge main_arg3 main_v9
  let main_c_3 : IVec S_ 1 := constantI S_ 1 1#1
  let main_v11 : IVec S_ 1 := (fun x v => Host.reduce IntOp.andi x v reducesTo_S8192x5_S_d0_1 h_S_) main_v10 main_c_3
  let main_v12 : IVec S_ 1 := andi main_v8 main_v11
  let main_c_4 : IVec S_ 32 := constantI S_ 32 100#32
  let main_v13 : IVec S8192x5 32 := broadcastInDim S8192x5 ![] bcast_S_S8192x5 main_c_4
  let main_v14 : IVec S8192x5 1 := cmpi .slt main_arg3 main_v13
  let main_c_5 : IVec S_ 1 := constantI S_ 1 1#1
  let main_v15 : IVec S_ 1 := (fun x v => Host.reduce IntOp.andi x v reducesTo_S8192x5_S_d0_1 h_S_) main_v14 main_c_5
  fn_part1 (F := F) main_v12 main_v15
-- ==== Kernel.lean ====
abbrev S8192x32000 : Shape := ⟨2, ![8192, 32000]⟩
abbrev S32000x100 : Shape := ⟨2, ![32000, 100]⟩
abbrev S8192 : Shape := ⟨1, ![8192]⟩
abbrev S8192x5 : Shape := ⟨2, ![8192, 5]⟩
abbrev S8192x1 : Shape := ⟨2, ![8192, 1]⟩
abbrev S512x3200 : Shape := ⟨2, ![512, 3200]⟩
abbrev S512x1 : Shape := ⟨2, ![512, 1]⟩
abbrev S512 : Shape := ⟨1, ![512]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S8192x128 : Shape := ⟨2, ![8192, 128]⟩
abbrev S8192x5x1 : Shape := ⟨3, ![8192, 5, 1]⟩
abbrev S8192x100 : Shape := ⟨2, ![8192, 100]⟩
abbrev S8192x6 : Shape := ⟨2, ![8192, 6]⟩
abbrev S1x6 : Shape := ⟨2, ![1, 6]⟩
abbrev S2 : Shape := ⟨1, ![2]⟩

abbrev nBuf : Space → Nat
  | .hbm => 134
  | .vmem => 4
  | .smem => 0
  | _ => 0

abbrev hbmTy0_0 (i : Nat) : BufTy := match i % 128 with
  | 0 => ⟨S8192x32000, .f32⟩
  | 1 => ⟨S32000x100, .f32⟩
  | 2 => ⟨S8192, .i32⟩
  | 3 => ⟨S8192x5, .i32⟩
  | 4 => ⟨S8192x1, .f32⟩
  | 5 => ⟨S8192x1, .i32⟩
  | 6 => ⟨S_, .i32⟩
  | 7 => ⟨S8192x1, .i32⟩
  | 8 => ⟨S8192x1, .i1⟩
  | 9 => ⟨S_, .i32⟩
  | 10 => ⟨S8192x1, .i32⟩
  | 11 => ⟨S8192x1, .i32⟩
  | 12 => ⟨S8192x1, .i32⟩
  | 13 => ⟨S8192x1x1, .i32⟩
  | 14 => ⟨S1, .i32⟩
  | 15 => ⟨S_, .i32⟩
  | 16 => ⟨S8192x1x1, .i32⟩
  | 17 => ⟨S8192x1x1, .i1⟩
  | 18 => ⟨S1x1x1, .i32⟩
  | 19 => ⟨S8192x1x1, .i32⟩
  | 20 => ⟨S8192x1x1, .i1⟩
  | 21 => ⟨S8192x1x1, .i1⟩
  | 22 => ⟨S_, .i1⟩
  | 23 => ⟨S8192x1, .i1⟩
  | 24 => ⟨S8192x1, .f32⟩
  | 25 => ⟨S_, .f32⟩
  | 26 => ⟨S8192x1, .f32⟩
  | 27 => ⟨S8192x1, .f32⟩
  | 28 => ⟨S8192x128, .f32⟩
  | 29 => ⟨S_, .i32⟩
  | 30 => ⟨S8192x5, .i32⟩
  | 31 => ⟨S8192x5, .i1⟩
  | 32 => ⟨S_, .i32⟩
  | 33 => ⟨S8192x5, .i32⟩
  | 34 => ⟨S8192x5, .i32⟩
  | 35 => ⟨S8192x5, .i32⟩
  | 36 => ⟨S8192x5x1, .i32⟩
  | 37 => ⟨S1, .i32⟩
  | 38 => ⟨S_, .i32⟩
  | 39 => ⟨S8192x5x1, .i32⟩
  | 40 => ⟨S8192x5x1, .i1⟩
  | 41 => ⟨S1x1x1, .i32⟩
  | 42 => ⟨S8192x5x1, .i32⟩
  | 43 => ⟨S8192x5x1, .i1⟩
  | 44 => ⟨S8192x5x1, .i1⟩
  | 45 => ⟨S_, .i1⟩
  | 46 => ⟨S8192x5, .i1⟩
  | 47 => ⟨S8192x5, .f32⟩
  | 48 => ⟨S_, .f32⟩
  | 49 => ⟨S8192x5, .f32⟩
  | 50 => ⟨S8192x5, .f32⟩
  | 51 => ⟨S8192x1, .f32⟩
  | 52 => ⟨S8192x5, .f32⟩
  | 53 => ⟨S8192x5, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192x100, .f32⟩
  | 63 => ⟨S_, .i32⟩
  | 64 => ⟨S8192x5, .i32⟩
  | 65 => ⟨S8192x5, .i1⟩
  | 66 => ⟨S_, .i32⟩
  | 67 => ⟨S8192x5, .i32⟩
  | 68 => ⟨S8192x5, .i32⟩
  | 69 => ⟨S8192x5, .i32⟩
  | 70 => ⟨S8192x5x1, .i32⟩
  | 71 => ⟨S1, .i32⟩
  | 72 => ⟨S_, .i32⟩
  | 73 => ⟨S8192x5x1, .i32⟩
  | 74 => ⟨S8192x5x1, .i1⟩
  | 75 => ⟨S1x1x1, .i32⟩
  | 76 => ⟨S8192x5x1, .i32⟩
  | 77 => ⟨S8192x5x1, .i1⟩
  | 78 => ⟨S8192x5x1, .i1⟩
  | 79 => ⟨S_, .i1⟩
  | 80 => ⟨S8192x5, .i1⟩
  | 81 => ⟨S8192x5, .f32⟩
  | 82 => ⟨S_, .f32⟩
  | 83 => ⟨S8192x5, .f32⟩
  | 84 => ⟨S8192x5, .f32⟩
  | 85 => ⟨S_, .f32⟩
  | 86 => ⟨S8192x5, .f32⟩
  | 87 => ⟨S8192x5, .f32⟩
  | 88 => ⟨S8192x5, .f32⟩
  | 89 => ⟨S8192x5, .f32⟩
  | 90 => ⟨S_, .f32⟩
  | 91 => ⟨S8192, .f32⟩
  | 92 => ⟨S8192x1, .f32⟩
  | 93 => ⟨S8192x1, .f32⟩
  | 94 => ⟨S8192x1, .f32⟩
  | 95 => ⟨S8192x6, .f32⟩
  | 96 => ⟨S_, .f32⟩
  | 97 => ⟨S8192, .f32⟩
  | 98 => ⟨S8192x1, .f32⟩
  | 99 => ⟨S8192x6, .f32⟩
  | 100 => ⟨S8192x6, .f32⟩
  | 101 => ⟨S_, .f32⟩
  | 102 => ⟨S8192x6, .f32⟩
  | 103 => ⟨S8192x6, .f32⟩
  | 104 => ⟨S_, .f32⟩
  | 105 => ⟨S1x6, .f32⟩
  | 106 => ⟨S_, .i32⟩
  | 107 => ⟨S1, .i32⟩
  | 108 => ⟨S_, .i32⟩
  | 109 => ⟨S1, .i32⟩
  | 110 => ⟨S2, .i32⟩
  | 111 => ⟨S_, .f32⟩
  | 112 => ⟨S1x6, .f32⟩
  | 113 => ⟨S_, .f32⟩
  | 114 => ⟨S8192x6, .f32⟩
  | 115 => ⟨S8192x6, .f32⟩
  | 116 => ⟨S8192x6, .f32⟩
  | 117 => ⟨S8192x6, .f32⟩
  | 118 => ⟨S8192x6, .f32⟩
  | 119 => ⟨S_, .f32⟩
  | 120 => ⟨S8192x6, .f32⟩
  | 121 => ⟨S8192x6, .f32⟩
  | 122 => ⟨S8192x6, .f32⟩
  | 123 => ⟨S_, .f32⟩
  | 124 => ⟨S1x6, .f32⟩
  | 125 => ⟨S1x6, .f32⟩
  | 126 => ⟨S8192x6, .f32⟩
  | 127 => ⟨S8192x6, .f32⟩
  | _ => ⟨S8192x32000, .f32⟩

abbrev hbmTy0_1 (i : Nat) : BufTy := match i % 128 with
  | 0 => ⟨S8192x6, .f32⟩
  | 1 => ⟨S_, .f32⟩
  | 2 => ⟨S_, .f32⟩
  | 3 => ⟨S_, .f32⟩
  | 4 => ⟨S_, .f32⟩
  | 5 => ⟨S_, .f32⟩
  | _ => ⟨S8192x32000, .f32⟩

abbrev hbmTy (i : Nat) : BufTy := match i / 128 with
  | 0 => hbmTy0_0 i
  | 1 => hbmTy0_1 i
  | _ => ⟨S8192x32000, .f32⟩

abbrev bufTy : (tb : Table) → Fin (tcTables nBuf tb) → BufTy
  | .hbm, ⟨i, _⟩ => hbmTy i
  | .local _ .vmem, ⟨0, _⟩ => ⟨S512x3200, .f32⟩
  | .local _ .vmem, ⟨1, _⟩ => ⟨S512x3200, .f32⟩
  | .local _ .vmem, ⟨2, _⟩ => ⟨S512x1, .f32⟩
  | .local _ .vmem, ⟨3, _⟩ => ⟨S512x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_c : Ref sig .tc := ⟨.hbm, 54, rfl⟩
abbrev main_v8 : Ref sig .tc := ⟨.hbm, 55, rfl⟩
abbrev main_v9 : Ref sig .tc := ⟨.hbm, 56, rfl⟩
abbrev main_c_0 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_cst : Ref sig .tc := ⟨.hbm, 82, rfl⟩
abbrev main_call2_v14 : Ref sig .tc := ⟨.hbm, 83, rfl⟩
abbrev main_v15 : Ref sig .tc := ⟨.hbm, 84, rfl⟩
abbrev main_cst : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_cst_1 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_cst_2 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_cst_3 : Ref sig .tc := ⟨.hbm, 101, rfl⟩
abbrev main_v29 : Ref sig .tc := ⟨.hbm, 102, rfl⟩
abbrev main_v30 : Ref sig .tc := ⟨.hbm, 103, rfl⟩
abbrev main_cst_4 : Ref sig .tc := ⟨.hbm, 104, rfl⟩
abbrev main_v31 : Ref sig .tc := ⟨.hbm, 105, rfl⟩
abbrev main_c_5 : Ref sig .tc := ⟨.hbm, 106, rfl⟩
abbrev main_v32 : Ref sig .tc := ⟨.hbm, 107, rfl⟩
abbrev main_c_6 : Ref sig .tc := ⟨.hbm, 108, rfl⟩
abbrev main_v33 : Ref sig .tc := ⟨.hbm, 109, rfl⟩
abbrev main_v34 : Ref sig .tc := ⟨.hbm, 110, rfl⟩
abbrev main_cst_7 : Ref sig .tc := ⟨.hbm, 111, rfl⟩
abbrev main_v35 : Ref sig .tc := ⟨.hbm, 112, rfl⟩
abbrev main_cst_8 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_cst_9 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_cst_10 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_cst_11 : Ref sig .tc := ⟨.hbm, 129, rfl⟩
abbrev main_v49 : Ref sig .tc := ⟨.hbm, 130, rfl⟩
abbrev main_cst_12 : Ref sig .tc := ⟨.hbm, 131, rfl⟩
abbrev main_v50 : Ref sig .tc := ⟨.hbm, 132, rfl⟩
abbrev main_v51 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S512x1_S512x1_0_0 : ∀ a, (![0, 0] : Fin 2 → Nat) a + S512x1.size a ≤ S512x1.size a
  h_S512x1 : 0 < S512x1.numel
  inb_S512x3200_S512x3200_0_0 : ∀ a, (![0, 0] : Fin 2 → Nat) a + S512x3200.size a ≤ S512x3200.size a
  h_S512x3200 : 0 < S512x3200.numel
  reduces_S512x3200_S512 : S512x3200.Reduces [1] S512
  shapeCasts_S512_S512x1 : S512.ShapeCasts S512x1
  shapeCasts_S512x1_S512x1 : S512x1.ShapeCasts S512x1
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  slices_S8192x32000_S8192x128_0_0 : S8192x32000.Slices ![0, 0] S8192x128
  bcast_S_S8192x5 : S_.BroadcastsInDim S8192x5 (![] : Fin 0 → Fin S8192x5.rank)
  shapeCasts_S8192x5_S8192x5x1 : S8192x5.ShapeCasts S8192x5x1
  bcast_S_S8192x5x1 : S_.BroadcastsInDim S8192x5x1 (![] : Fin 0 → Fin S8192x5x1.rank)
  bcast_S1x1x1_S8192x5x1_0_1_2 : S1x1x1.BroadcastsInDim S8192x5x1 (![0, 1, 2] : Fin 3 → Fin S8192x5x1.rank)
  reducesTo_S8192x5x1_S8192x5_d2 : S8192x5x1.ReducesTo [2] S8192x5
  bcast_S8192x1_S8192x5_0_1 : S8192x1.BroadcastsInDim S8192x5 (![0, 1] : Fin 2 → Fin S8192x5.rank)
  bcast_S_S8192 : S_.BroadcastsInDim S8192 (![] : Fin 0 → Fin S8192.rank)
  reducesTo_S8192x5_S8192_d1 : S8192x5.ReducesTo [1] S8192
  concatenates_S8192x1_S8192x5_S8192x6_d1 : Shape.Concatenates [S8192x1, S8192x5] S8192x6 1
  reducesTo_S8192x6_S8192_d1 : S8192x6.ReducesTo [1] S8192
  bcast_S8192x1_S8192x6_0_1 : S8192x1.BroadcastsInDim S8192x6 (![0, 1] : Fin 2 → Fin S8192x6.rank)
  bcast_S_S8192x6 : S_.BroadcastsInDim S8192x6 (![] : Fin 0 → Fin S8192x6.rank)
  bcast_S_S1x6 : S_.BroadcastsInDim S1x6 (![] : Fin 0 → Fin S1x6.rank)
  bcast_S_S1 : S_.BroadcastsInDim S1 (![] : Fin 0 → Fin S1.rank)
  concatenates_S1_S1_S2_d0 : Shape.Concatenates [S1, S1] S2 0
  bcast_S1x6_S8192x6_0_1 : S1x6.BroadcastsInDim S8192x6 (![0, 1] : Fin 2 → Fin S8192x6.rank)
  reducesTo_S8192x6_S_d0_1 : S8192x6.ReducesTo [0, 1] S_
  gather_S8192x32000_S8192x1x1_S8192x1_n_1_0_0_1_2_11_wf : GatherDims.WF S8192x32000 S8192x1x1 S8192x1 [] [1] [0] [1] [0] 2 ![1, 1]
  gather_S8192x128_S8192x5x1_S8192x5_n_1_0_0_1_2_11_wf : GatherDims.WF S8192x128 S8192x5x1 S8192x5 [] [1] [0] [1] [0] 2 ![1, 1]
  gather_S32000x100_S8192x1_S8192x100_1_0_n_n_0_1_1100_wf : GatherDims.WF S32000x100 S8192x1 S8192x100 [1] [0] [] [0] [] 1 ![1, 100]
  gather_S8192x100_S8192x5x1_S8192x5_n_1_0_0_1_2_11_wf : GatherDims.WF S8192x100 S8192x5x1 S8192x5 [] [1] [0] [1] [0] 2 ![1, 1]
  scatter_S1x6_S2_S__n_01_01_0_wf : ScatterDims.WF S1x6 S2 S_ [] [0, 1] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S8192x32000.size a
  hwx0_0 : ∀ i : grid0.Coords, EltTy.bits .f32 = 32 ∨ (Rect.block (s := S8192x32000) S512x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf
def gather_S8192x128_S8192x5x1_S8192x5_n_1_0_0_1_2_11 : GatherDims S8192x128 S8192x5x1 S8192x5 where
  offsetDims := []
  collapsedSliceDims := [1]
  operandBatchingDims := [0]
  startIndicesBatchingDims := [0]
  startIndexMap := [1]
  indexVectorDim := 2
  sliceSizes := ![1, 1]
  wf := gather_S8192x128_S8192x5x1_S8192x5_n_1_0_0_1_2_11_wf
def gather_S32000x100_S8192x1_S8192x100_1_0_n_n_0_1_1100 : GatherDims S32000x100 S8192x1 S8192x100 where
  offsetDims := [1]
  collapsedSliceDims := [0]
  operandBatchingDims := []
  startIndicesBatchingDims := []
  startIndexMap := [0]
  indexVectorDim := 1
  sliceSizes := ![1, 100]
  wf := gather_S32000x100_S8192x1_S8192x100_1_0_n_n_0_1_1100_wf
def gather_S8192x100_S8192x5x1_S8192x5_n_1_0_0_1_2_11 : GatherDims S8192x100 S8192x5x1 S8192x5 where
  offsetDims := []
  collapsedSliceDims := [1]
  operandBatchingDims := [0]
  startIndicesBatchingDims := [0]
  startIndexMap := [1]
  indexVectorDim := 2
  sliceSizes := ![1, 1]
  wf := gather_S8192x100_S8192x5x1_S8192x5_n_1_0_0_1_2_11_wf
def scatter_S1x6_S2_S__n_01_01_0 : ScatterDims S1x6 S2 S_ where
  updateWindowDims := []
  insertedWindowDims := [0, 1]
  scatterDimsToOperandDims := [0, 1]
  indexVectorDim := 0
  wf := scatter_S1x6_S2_S__n_01_01_0_wf

abbrev win0_0 : Pipeline.Window sig grid0 :=
  Pipeline.Window.ofSpec (Memref.whole main_arg0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x32000 : Shape := ⟨2, ![8192, 32000]⟩
abbrev S32000x100 : Shape := ⟨2, ![32000, 100]⟩
abbrev S8192 : Shape := ⟨1, ![8192]⟩
abbrev S8192x5 : Shape := ⟨2, ![8192, 5]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S8192x5x1 : Shape := ⟨3, ![8192, 5, 1]⟩
abbrev S8192x100 : Shape := ⟨2, ![8192, 100]⟩
abbrev S8192x6 : Shape := ⟨2, ![8192, 6]⟩
abbrev S1x6 : Shape := ⟨2, ![1, 6]⟩
abbrev S2 : Shape := ⟨1, ![2]⟩

abbrev nBuf : Space → Nat
  | .hbm => 134
  | .vmem => 0
  | .smem => 0
  | _ => 0

abbrev hbmTy0_0 (i : Nat) : BufTy := match i % 128 with
  | 0 => ⟨S8192x32000, .f32⟩
  | 1 => ⟨S32000x100, .f32⟩
  | 2 => ⟨S8192, .i32⟩
  | 3 => ⟨S8192x5, .i32⟩
  | 4 => ⟨S_, .f32⟩
  | 5 => ⟨S8192, .f32⟩
  | 6 => ⟨S8192x1, .f32⟩
  | 7 => ⟨S8192x32000, .f32⟩
  | 8 => ⟨S8192x32000, .f32⟩
  | 9 => ⟨S8192x1, .i32⟩
  | 10 => ⟨S_, .i32⟩
  | 11 => ⟨S8192x1, .i32⟩
  | 12 => ⟨S8192x1, .i1⟩
  | 13 => ⟨S_, .i32⟩
  | 14 => ⟨S8192x1, .i32⟩
  | 15 => ⟨S8192x1, .i32⟩
  | 16 => ⟨S8192x1, .i32⟩
  | 17 => ⟨S8192x1x1, .i32⟩
  | 18 => ⟨S1, .i32⟩
  | 19 => ⟨S_, .i32⟩
  | 20 => ⟨S8192x1x1, .i32⟩
  | 21 => ⟨S8192x1x1, .i1⟩
  | 22 => ⟨S1x1x1, .i32⟩
  | 23 => ⟨S8192x1x1, .i32⟩
  | 24 => ⟨S8192x1x1, .i1⟩
  | 25 => ⟨S8192x1x1, .i1⟩
  | 26 => ⟨S_, .i1⟩
  | 27 => ⟨S8192x1, .i1⟩
  | 28 => ⟨S8192x1, .f32⟩
  | 29 => ⟨S_, .f32⟩
  | 30 => ⟨S8192x1, .f32⟩
  | 31 => ⟨S8192x1, .f32⟩
  | 32 => ⟨S_, .i32⟩
  | 33 => ⟨S8192x5, .i32⟩
  | 34 => ⟨S8192x5, .i1⟩
  | 35 => ⟨S_, .i32⟩
  | 36 => ⟨S8192x5, .i32⟩
  | 37 => ⟨S8192x5, .i32⟩
  | 38 => ⟨S8192x5, .i32⟩
  | 39 => ⟨S8192x5x1, .i32⟩
  | 40 => ⟨S1, .i32⟩
  | 41 => ⟨S_, .i32⟩
  | 42 => ⟨S8192x5x1, .i32⟩
  | 43 => ⟨S8192x5x1, .i1⟩
  | 44 => ⟨S1x1x1, .i32⟩
  | 45 => ⟨S8192x5x1, .i32⟩
  | 46 => ⟨S8192x5x1, .i1⟩
  | 47 => ⟨S8192x5x1, .i1⟩
  | 48 => ⟨S_, .i1⟩
  | 49 => ⟨S8192x5, .i1⟩
  | 50 => ⟨S8192x5, .f32⟩
  | 51 => ⟨S_, .f32⟩
  | 52 => ⟨S8192x5, .f32⟩
  | 53 => ⟨S8192x5, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192x100, .f32⟩
  | 63 => ⟨S_, .i32⟩
  | 64 => ⟨S8192x5, .i32⟩
  | 65 => ⟨S8192x5, .i1⟩
  | 66 => ⟨S_, .i32⟩
  | 67 => ⟨S8192x5, .i32⟩
  | 68 => ⟨S8192x5, .i32⟩
  | 69 => ⟨S8192x5, .i32⟩
  | 70 => ⟨S8192x5x1, .i32⟩
  | 71 => ⟨S1, .i32⟩
  | 72 => ⟨S_, .i32⟩
  | 73 => ⟨S8192x5x1, .i32⟩
  | 74 => ⟨S8192x5x1, .i1⟩
  | 75 => ⟨S1x1x1, .i32⟩
  | 76 => ⟨S8192x5x1, .i32⟩
  | 77 => ⟨S8192x5x1, .i1⟩
  | 78 => ⟨S8192x5x1, .i1⟩
  | 79 => ⟨S_, .i1⟩
  | 80 => ⟨S8192x5, .i1⟩
  | 81 => ⟨S8192x5, .f32⟩
  | 82 => ⟨S_, .f32⟩
  | 83 => ⟨S8192x5, .f32⟩
  | 84 => ⟨S8192x5, .f32⟩
  | 85 => ⟨S_, .f32⟩
  | 86 => ⟨S8192x5, .f32⟩
  | 87 => ⟨S8192x5, .f32⟩
  | 88 => ⟨S8192x5, .f32⟩
  | 89 => ⟨S8192x5, .f32⟩
  | 90 => ⟨S_, .f32⟩
  | 91 => ⟨S8192, .f32⟩
  | 92 => ⟨S8192x1, .f32⟩
  | 93 => ⟨S8192x1, .f32⟩
  | 94 => ⟨S8192x1, .f32⟩
  | 95 => ⟨S8192x6, .f32⟩
  | 96 => ⟨S_, .f32⟩
  | 97 => ⟨S8192, .f32⟩
  | 98 => ⟨S8192x1, .f32⟩
  | 99 => ⟨S8192x6, .f32⟩
  | 100 => ⟨S8192x6, .f32⟩
  | 101 => ⟨S_, .f32⟩
  | 102 => ⟨S8192x6, .f32⟩
  | 103 => ⟨S8192x6, .f32⟩
  | 104 => ⟨S_, .f32⟩
  | 105 => ⟨S1x6, .f32⟩
  | 106 => ⟨S_, .i32⟩
  | 107 => ⟨S1, .i32⟩
  | 108 => ⟨S_, .i32⟩
  | 109 => ⟨S1, .i32⟩
  | 110 => ⟨S2, .i32⟩
  | 111 => ⟨S_, .f32⟩
  | 112 => ⟨S1x6, .f32⟩
  | 113 => ⟨S_, .f32⟩
  | 114 => ⟨S8192x6, .f32⟩
  | 115 => ⟨S8192x6, .f32⟩
  | 116 => ⟨S8192x6, .f32⟩
  | 117 => ⟨S8192x6, .f32⟩
  | 118 => ⟨S8192x6, .f32⟩
  | 119 => ⟨S_, .f32⟩
  | 120 => ⟨S8192x6, .f32⟩
  | 121 => ⟨S8192x6, .f32⟩
  | 122 => ⟨S8192x6, .f32⟩
  | 123 => ⟨S_, .f32⟩
  | 124 => ⟨S1x6, .f32⟩
  | 125 => ⟨S1x6, .f32⟩
  | 126 => ⟨S8192x6, .f32⟩
  | 127 => ⟨S8192x6, .f32⟩
  | _ => ⟨S8192x32000, .f32⟩

abbrev hbmTy0_1 (i : Nat) : BufTy := match i % 128 with
  | 0 => ⟨S8192x6, .f32⟩
  | 1 => ⟨S_, .f32⟩
  | 2 => ⟨S_, .f32⟩
  | 3 => ⟨S_, .f32⟩
  | 4 => ⟨S_, .f32⟩
  | 5 => ⟨S_, .f32⟩
  | _ => ⟨S8192x32000, .f32⟩

abbrev hbmTy (i : Nat) : BufTy := match i / 128 with
  | 0 => hbmTy0_0 i
  | 1 => hbmTy0_1 i
  | _ => ⟨S8192x32000, .f32⟩

abbrev bufTy : (tb : Table) → Fin (tcTables nBuf tb) → BufTy
  | .hbm, ⟨i, _⟩ => hbmTy i
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v5 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v6 : Ref sig .tc := ⟨.hbm, 53, rfl⟩
abbrev main_c : Ref sig .tc := ⟨.hbm, 54, rfl⟩
abbrev main_v7 : Ref sig .tc := ⟨.hbm, 55, rfl⟩
abbrev main_v8 : Ref sig .tc := ⟨.hbm, 56, rfl⟩
abbrev main_c_0 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_cst : Ref sig .tc := ⟨.hbm, 82, rfl⟩
abbrev main_call2_v14 : Ref sig .tc := ⟨.hbm, 83, rfl⟩
abbrev main_v14 : Ref sig .tc := ⟨.hbm, 84, rfl⟩
abbrev main_cst_1 : Ref sig .tc := ⟨.hbm, 85, rfl⟩
abbrev main_v15 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_cst_2 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_cst_3 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_cst_4 : Ref sig .tc := ⟨.hbm, 101, rfl⟩
abbrev main_v28 : Ref sig .tc := ⟨.hbm, 102, rfl⟩
abbrev main_v29 : Ref sig .tc := ⟨.hbm, 103, rfl⟩
abbrev main_cst_5 : Ref sig .tc := ⟨.hbm, 104, rfl⟩
abbrev main_v30 : Ref sig .tc := ⟨.hbm, 105, rfl⟩
abbrev main_c_6 : Ref sig .tc := ⟨.hbm, 106, rfl⟩
abbrev main_v31 : Ref sig .tc := ⟨.hbm, 107, rfl⟩
abbrev main_c_7 : Ref sig .tc := ⟨.hbm, 108, rfl⟩
abbrev main_v32 : Ref sig .tc := ⟨.hbm, 109, rfl⟩
abbrev main_v33 : Ref sig .tc := ⟨.hbm, 110, rfl⟩
abbrev main_cst_8 : Ref sig .tc := ⟨.hbm, 111, rfl⟩
abbrev main_v34 : Ref sig .tc := ⟨.hbm, 112, rfl⟩
abbrev main_cst_9 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_cst_10 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_cst_11 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_cst_12 : Ref sig .tc := ⟨.hbm, 129, rfl⟩
abbrev main_v48 : Ref sig .tc := ⟨.hbm, 130, rfl⟩
abbrev main_cst_13 : Ref sig .tc := ⟨.hbm, 131, rfl⟩
abbrev main_v49 : Ref sig .tc := ⟨.hbm, 132, rfl⟩
abbrev main_v50 : Ref sig .tc := ⟨.hbm, 133, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  bcast_S_S8192x5 : S_.BroadcastsInDim S8192x5 (![] : Fin 0 → Fin S8192x5.rank)
  shapeCasts_S8192x5_S8192x5x1 : S8192x5.ShapeCasts S8192x5x1
  bcast_S_S8192x5x1 : S_.BroadcastsInDim S8192x5x1 (![] : Fin 0 → Fin S8192x5x1.rank)
  bcast_S1x1x1_S8192x5x1_0_1_2 : S1x1x1.BroadcastsInDim S8192x5x1 (![0, 1, 2] : Fin 3 → Fin S8192x5x1.rank)
  reducesTo_S8192x5x1_S8192x5_d2 : S8192x5x1.ReducesTo [2] S8192x5
  bcast_S_S8192 : S_.BroadcastsInDim S8192 (![] : Fin 0 → Fin S8192.rank)
  reducesTo_S8192x5_S8192_d1 : S8192x5.ReducesTo [1] S8192
  concatenates_S8192x1_S8192x5_S8192x6_d1 : Shape.Concatenates [S8192x1, S8192x5] S8192x6 1
  reducesTo_S8192x6_S8192_d1 : S8192x6.ReducesTo [1] S8192
  bcast_S8192x1_S8192x6_0_1 : S8192x1.BroadcastsInDim S8192x6 (![0, 1] : Fin 2 → Fin S8192x6.rank)
  bcast_S_S8192x6 : S_.BroadcastsInDim S8192x6 (![] : Fin 0 → Fin S8192x6.rank)
  bcast_S_S1x6 : S_.BroadcastsInDim S1x6 (![] : Fin 0 → Fin S1x6.rank)
  bcast_S_S1 : S_.BroadcastsInDim S1 (![] : Fin 0 → Fin S1.rank)
  concatenates_S1_S1_S2_d0 : Shape.Concatenates [S1, S1] S2 0
  bcast_S1x6_S8192x6_0_1 : S1x6.BroadcastsInDim S8192x6 (![0, 1] : Fin 2 → Fin S8192x6.rank)
  reducesTo_S8192x6_S_d0_1 : S8192x6.ReducesTo [0, 1] S_
  gather_S8192x32000_S8192x1x1_S8192x1_n_1_0_0_1_2_11_wf : GatherDims.WF S8192x32000 S8192x1x1 S8192x1 [] [1] [0] [1] [0] 2 ![1, 1]
  gather_S8192x32000_S8192x5x1_S8192x5_n_1_0_0_1_2_11_wf : GatherDims.WF S8192x32000 S8192x5x1 S8192x5 [] [1] [0] [1] [0] 2 ![1, 1]
  gather_S32000x100_S8192x1_S8192x100_1_0_n_n_0_1_1100_wf : GatherDims.WF S32000x100 S8192x1 S8192x100 [1] [0] [] [0] [] 1 ![1, 100]
  gather_S8192x100_S8192x5x1_S8192x5_n_1_0_0_1_2_11_wf : GatherDims.WF S8192x100 S8192x5x1 S8192x5 [] [1] [0] [1] [0] 2 ![1, 1]
  scatter_S1x6_S2_S__n_01_01_0_wf : ScatterDims.WF S1x6 S2 S_ [] [0, 1] [0, 1] 0

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf
def gather_S8192x32000_S8192x5x1_S8192x5_n_1_0_0_1_2_11 : GatherDims S8192x32000 S8192x5x1 S8192x5 where
  offsetDims := []
  collapsedSliceDims := [1]
  operandBatchingDims := [0]
  startIndicesBatchingDims := [0]
  startIndexMap := [1]
  indexVectorDim := 2
  sliceSizes := ![1, 1]
  wf := gather_S8192x32000_S8192x5x1_S8192x5_n_1_0_0_1_2_11_wf
def gather_S32000x100_S8192x1_S8192x100_1_0_n_n_0_1_1100 : GatherDims S32000x100 S8192x1 S8192x100 where
  offsetDims := [1]
  collapsedSliceDims := [0]
  operandBatchingDims := []
  startIndicesBatchingDims := []
  startIndexMap := [0]
  indexVectorDim := 1
  sliceSizes := ![1, 100]
  wf := gather_S32000x100_S8192x1_S8192x100_1_0_n_n_0_1_1100_wf
def gather_S8192x100_S8192x5x1_S8192x5_n_1_0_0_1_2_11 : GatherDims S8192x100 S8192x5x1 S8192x5 where
  offsetDims := []
  collapsedSliceDims := [1]
  operandBatchingDims := [0]
  startIndicesBatchingDims := [0]
  startIndexMap := [1]
  indexVectorDim := 2
  sliceSizes := ![1, 1]
  wf := gather_S8192x100_S8192x5x1_S8192x5_n_1_0_0_1_2_11_wf
def scatter_S1x6_S2_S__n_01_01_0 : ScatterDims S1x6 S2 S_ where
  updateWindowDims := []
  insertedWindowDims := [0, 1]
  scatterDimsToOperandDims := [0, 1]
  indexVectorDim := 0
  wf := scatter_S1x6_S2_S__n_01_01_0_wf

class Facts : Prop extends Facts₀ where

variable [Facts]
-- ==== Proof.BitsLaunch.lean ====
/-
  The row-maximum kernel's launch: the program is one pipelined region over a 16 x 10 grid of [512, 3200] blocks of the
  logits, followed by 129 host operations that read the region's [8192, 1] result. This module names what the region
  finds in memory, states that the program is the region continued by those operations, and records about the
  operations what the run around a region needs: they touch only unscoped device buffers, allocate nothing, and
  write neither the logits nor the region's result. It also names a window's block at a grid point and the one
  condition the body branches on (the first column block of a row block).
-/
import proofs.«429815_j3599182594545_3_alg».proof.Proof.Gen.Kernel.Launch
import proofs.«429815_j3599182594545_3_alg».proof.Proof.Gen.Kernel.Skeleton
import proofs.«429815_j3599182594545_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region -/

/-- The seven stretches of host operations that follow the region, in program order. -/
abbrev tailOps : List (List (HloOp τ sig (Elt F))) :=
  [hostOps1, hostOps1_1, hostOps1_2, hostOps1_3, hostOps1_4, hostOps1_5, hostOps1_6]

/-- The device's buffer contents when the region is entered: the launch contents (nothing runs before the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The buffers the host operations after the region must leave alone: the four arguments and the region's result. -/
abbrev keepSet : List (Ref sig .tc) := [main_arg0, main_arg1, main_arg2, main_arg3, main_v0]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- No operation of this stretch writes an argument array or the region's result: each writes its own result buffer. -/
theorem hostOps1_kept : (hostOps1 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No operation of this stretch writes an argument array or the region's result: each writes its own result buffer. -/
theorem hostOps1_1_kept : (hostOps1_1 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No operation of this stretch writes an argument array or the region's result: each writes its own result buffer. -/
theorem hostOps1_2_kept : (hostOps1_2 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No operation of this stretch writes an argument array or the region's result: each writes its own result buffer. -/
theorem hostOps1_3_kept : (hostOps1_3 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No operation of this stretch writes an argument array or the region's result: each writes its own result buffer. -/
theorem hostOps1_4_kept : (hostOps1_4 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No operation of this stretch writes an argument array or the region's result: each writes its own result buffer. -/
theorem hostOps1_5_kept : (hostOps1_5 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No operation of this stretch writes an argument array or the region's result: each writes its own result buffer. -/
theorem hostOps1_6_kept : (hostOps1_6 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

/-- The program is the region continued by the seven stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) (fun c => (main_chain c).trans rfl)

/-- The stretches touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- They write no argument array and not the region's result. -/
theorem tail_kept : ∀ ops ∈ (tailOps : List (List (HloOp τ sig (Elt F)))), ∀ op ∈ ops,
    ∀ b ∈ keepSet, Proc.devRef .tc b ∉ op.writes := by
  intro ops hops op hop
  simp only [List.mem_cons, List.mem_nil_iff, or_false] at hops
  rcases hops with rfl | rfl | rfl | rfl | rfl | rfl | rfl
  · exact (List.forall_iff_forall_mem.mp hostOps1_kept) op hop
  · exact (List.forall_iff_forall_mem.mp hostOps1_1_kept) op hop
  · exact (List.forall_iff_forall_mem.mp hostOps1_2_kept) op hop
  · exact (List.forall_iff_forall_mem.mp hostOps1_3_kept) op hop
  · exact (List.forall_iff_forall_mem.mp hostOps1_4_kept) op hop
  · exact (List.forall_iff_forall_mem.mp hostOps1_5_kept) op hop
  · exact (List.forall_iff_forall_mem.mp hostOps1_6_kept) op hop

/-- In particular they write neither array of the pipeline (the logits and the region's result). -/
theorem tail_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_kept ops hops op hop main_arg0 (by simp [keepSet])
  · exact tail_kept ops hops op hop main_v0 (by simp [keepSet])

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The logits' staging buffer holds the point's block at every point, for any proof data whose array is the
    region-entry contents and whose body leaves the block in place: the window is fetched at every point, never
    clipped and never idle. -/
theorem logits_block_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body resets the running maximum exactly when the column-block coordinate is zero. -/
abbrev firstCol (i : grid0.Coords) : Prop := (Scalar.cmpi .ne (Scalar.extui (Scalar.cmpi .eq (BitVec.ofNat 32 (i 1).val) 0#32)) 0#32) = 1#1
/-- Over the 160 points, in row-major order of (row block, column block): at the points divisible by ten. -/
theorem firstCol_iff : ∀ t : Fin cfg0.N, firstCol (grid0.coords t) ↔ t.val % 10 = 0 :=
  (by decide +kernel : ∀ t : Fin grid0.N, firstCol (grid0.coords t) ↔ t.val % 10 = 0)

/-- One staging buffer of the result window, through which its contents are stated. -/
abbrev VOut : View sig .tc .vmem S512x1 .f32 := (Memref.whole cc0_stg1_0 : Memref sig .tc .vmem S512x1 .f32).view
/-- Each window's current staging memref at a point, as the pipeline passes it to the body, and its wholeness. -/
abbrev msIn (t : Fin cfg0.N) : Memref sig .tc .vmem S512x3200 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S512x1 .f32 := win0_1.stage (cfg0.slots t 1)
abbrev hsOut (t : Fin cfg0.N) : (msOut t).IsWhole := hstage0_1 ((cfg0.slots t 1).cast nbuf0_1)

end Cert.Kernel.Hand

end
-- ==== Proof.BitsBodyFirst.lean ====
/-
  The body at the first column block of a row block: the running maximum is reset to minus infinity, then replaced by
  its maximum with the block's row maxima.
-/
import proofs.«429815_j3599182594545_3_alg».proof.Proof.BitsLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- What the body's stores leave in the result window's staging buffer, as pieces (last first), together with the proof
    that on whole staging buffers the body runs to its continuation with the logits' block as it was and the
    result buffer at those pieces written. The pieces are found by running the body's memory operations symbolically. -/
noncomputable def bodyFirst (c : Dev nD) (i : grid0.Coords) (arg2 : Memref sig .tc .vmem S512x3200 .f32) (harg2 : arg2.IsWhole) (arg3 : Memref sig .tc .vmem S512x1 .f32) (harg3 : arg3.IsWhole) (hc0 : firstCol i)
    (x0 : Vec F S512x3200 .f32) :
    { L1 : List (View.Piece (Elt F) S512x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__max_kernel i arg2 harg2 arg3 harg3) K } := by
  refine ⟨?_, fun E K => ?run⟩
  case run =>
    simp only [cc0__max_kernel_eq_skeleton]; unfold cc0__max_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.Kernel.Hand

end
-- ==== Proof.BitsBodyNext.lean ====
/-
  The body at a later column block of a row block: the running maximum left by the block before is replaced by its
  maximum with this block's row maxima.
-/
import proofs.«429815_j3599182594545_3_alg».proof.Proof.BitsBodyFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- What the body's stores leave in the result window's staging buffer, as pieces (last first), together with the proof
    that on whole staging buffers the body runs to its continuation with the logits' block as it was and the
    result buffer at those pieces written. The pieces are found by running the body's memory operations symbolically. -/
noncomputable def bodyNext (c : Dev nD) (i : grid0.Coords) (arg2 : Memref sig .tc .vmem S512x3200 .f32) (harg2 : arg2.IsWhole) (arg3 : Memref sig .tc .vmem S512x1 .f32) (harg3 : arg3.IsWhole) (hc0 : ¬firstCol i)
    (x0 : Vec F S512x3200 .f32) (xo1 : Vec F S512x1 .f32) :
    { L1 : List (View.Piece (Elt F) S512x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__max_kernel i arg2 harg2 arg3 harg3) K } := by
  refine ⟨?_, fun E K => ?run⟩
  case run =>
    simp only [cc0__max_kernel_eq_skeleton]; unfold cc0__max_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.Hand

end
-- ==== Proof.BitsFrame.lean ====
/-
  The row-maximum kernel's run. After grid point (row block r, column block j) the result window's staging buffer holds,
  for the 512 rows of block r, the maximum of minus infinity and the logits' columns of blocks 0 … j: the first column
  block resets it, each later one takes the maximum with what the block before left (the buffer is written back only
  after the last column block, so it is still there). With these contents as proof data the body meets its obligation
  at every point, the region runs, the host operations after it run from its exit, and every array ends where the
  pipeline's write-backs put it; in particular the four argument arrays end unchanged.
-/
import proofs.«429815_j3599182594545_3_alg».proof.Proof.BitsBodyNext

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first block's stores tile the result block, so they cover it. -/
theorem coverFirst (c : Dev nD) (i : grid0.Coords) (arg2 : Memref sig .tc .vmem S512x3200 .f32) (harg2 : arg2.IsWhole) (arg3 : Memref sig .tc .vmem S512x1 .f32) (harg3 : arg3.IsWhole) (hc0 : firstCol i)
    (x0 : Vec F S512x3200 .f32) (y : S512x1.Idx) :
    ∃ pc ∈ (bodyFirst c i arg2 harg2 arg3 harg3 hc0 x0).1, y ∈ pc.1.set :=
  View.cover_of_tiledL (bodyFirst c i arg2 harg2 arg3 harg3 hc0 x0).1 S512x1.size (by sl_kernel_rfl) y

/-- What the first column block leaves in the result's staging buffer: its stores read back. -/
def outFirst (c : Dev nD) (i : grid0.Coords) (arg2 : Memref sig .tc .vmem S512x3200 .f32) (harg2 : arg2.IsWhole) (arg3 : Memref sig .tc .vmem S512x1 .f32) (harg3 : arg3.IsWhole) (hc0 : firstCol i)
    (x0 : Vec F S512x3200 .f32) : Vec F S512x1 .f32 :=
  VOut.read (Elt F) (VOut.writes (Elt F) VOut.junk (bodyFirst c i arg2 harg2 arg3 harg3 hc0 x0).1)

/-- A later block's one store covers the result block. -/
theorem coverNext (c : Dev nD) (i : grid0.Coords) (arg2 : Memref sig .tc .vmem S512x3200 .f32) (harg2 : arg2.IsWhole) (arg3 : Memref sig .tc .vmem S512x1 .f32) (harg3 : arg3.IsWhole) (hc0 : ¬firstCol i)
    (x0 : Vec F S512x3200 .f32) (xo1 : Vec F S512x1 .f32) (y : S512x1.Idx) :
    ∃ pc ∈ (bodyNext c i arg2 harg2 arg3 harg3 hc0 x0 xo1).1, y ∈ pc.1.set :=
  View.cover_of_tiledL (bodyNext c i arg2 harg2 arg3 harg3 hc0 x0 xo1).1 S512x1.size (by sl_kernel_rfl) y

/-- What a later column block leaves, over what the block before left. -/
def outNext (c : Dev nD) (i : grid0.Coords) (arg2 : Memref sig .tc .vmem S512x3200 .f32) (harg2 : arg2.IsWhole) (arg3 : Memref sig .tc .vmem S512x1 .f32) (harg3 : arg3.IsWhole) (hc0 : ¬firstCol i)
    (x0 : Vec F S512x3200 .f32) (xo1 : Vec F S512x1 .f32) : Vec F S512x1 .f32 :=
  VOut.read (Elt F) (VOut.writes (Elt F) VOut.junk (bodyNext c i arg2 harg2 arg3 harg3 hc0 x0 xo1).1)

/-! ## The running maximum, point by point -/

/-- What the result's staging buffer holds after the body at the `n`-th grid point (row-major over row blocks and
    column blocks): reset at the points divisible by ten, accumulated over the point before otherwise. -/
def outsAt (c : Dev nD) : (n : ℕ) → n < cfg0.N → Vec F S512x1 .f32
  | 0, hn => outFirst c (grid0.coords ⟨0, hn⟩) (msIn ⟨0, hn⟩) (hsIn ⟨0, hn⟩) (msOut ⟨0, hn⟩) (hsOut ⟨0, hn⟩) ((firstCol_iff ⟨0, hn⟩).mpr (Nat.zero_mod _)) (iblk m c 0 ⟨0, hn⟩)
  | n + 1, hn =>
    if h0 : (n + 1) % 10 = 0 then
      outFirst c (grid0.coords ⟨n + 1, hn⟩) (msIn ⟨n + 1, hn⟩) (hsIn ⟨n + 1, hn⟩) (msOut ⟨n + 1, hn⟩) (hsOut ⟨n + 1, hn⟩) ((firstCol_iff ⟨n + 1, hn⟩).mpr h0) (iblk m c 0 ⟨n + 1, hn⟩)
    else
      outNext c (grid0.coords ⟨n + 1, hn⟩) (msIn ⟨n + 1, hn⟩) (hsIn ⟨n + 1, hn⟩) (msOut ⟨n + 1, hn⟩) (hsOut ⟨n + 1, hn⟩) (fun h => h0 ((firstCol_iff ⟨n + 1, hn⟩).mp h)) (iblk m c 0 ⟨n + 1, hn⟩) (outsAt c n (Nat.lt_of_succ_lt hn))

theorem outsAt_first (c : Dev nD) (t : Fin cfg0.N) (h0 : t.val % 10 = 0) :
    outsAt m c t.val t.isLt = outFirst c (grid0.coords t) (msIn t) (hsIn t) (msOut t) (hsOut t) ((firstCol_iff t).mpr h0) (iblk m c 0 t) := by
  obtain ⟨n, hn⟩ := t
  cases n with
  | zero => exact rfl
  | succ n => exact (dif_pos h0).trans rfl

theorem outsAt_next (c : Dev nD) (t : Fin cfg0.N) (h0 : ¬t.val % 10 = 0) :
    outsAt m c t.val t.isLt = outNext c (grid0.coords t) (msIn t) (hsIn t) (msOut t) (hsOut t) (fun h => h0 ((firstCol_iff t).mp h)) (iblk m c 0 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point the logits' buffer at its block and the result's
    at the running maximum; the region's invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_logits (c : Dev nD) (t : Fin cfg0.N) : (dats m 0 c).after 0 t = iblk m c 0 t := by dsimp only [dats]
theorem after_result (c : Dev nD) (t : Fin cfg0.N) : (dats m 0 c).after 1 t = (outsAt m c t.val t.isLt) := by dsimp only [dats]

theorem before_logits (c : Dev nD) (t : Fin cfg0.N) (d) : (dats m 0 c).before 0 t d = iblk m c 0 t :=
  logits_block_of m (dats m 0 c) (A_eq m c 0) (after_logits m c) t d

/-- At a later column block the result's staging buffer still holds what the block before left: it is written back
    only after the last column block of a row block. -/
theorem before_result_next (c : Dev nD) (t : Fin cfg0.N) (h0 : ¬t.val % 10 = 0) (d) :
    (dats m 0 c).before 1 t d = (outsAt m c (t.val - 1) (Nat.lt_of_le_of_lt (Nat.sub_le _ _) t.isLt)) := by
  have hN : t.val < 160 := lt_of_lt_of_eq t.isLt (show cfg0.N = 160 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msIn t) fullShare ((dats m 0 c).before 0 t d))
    ∗ (∃ d, owns (c : Thread nD τ) (msOut t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (msIn t) fullShare ((dats m 0 c).after 0 t)
    ∗ owns (c : Thread nD τ) (msOut t) fullShare ((dats m 0 c).after 1 t))

set_option maxHeartbeats 800000 in
/-- The body at any point: the logits' buffer holds the point's block; by the point's column block the reset or the
    accumulation applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_logits]
  rw [show (dats m 0 c).Φ t.succ = (dats m 0 c).Φ t.castSucc from rfl,
    show (dats m 0 c).owesAt () t.succ = (dats m 0 c).owesAt () t.castSucc from rfl,
    after_logits, after_result]
  by_cases h0 : t.val % 10 = 0
  · rw [outsAt_first m c t h0]
    unfold outFirst
    iintro ⟨HΦ, Ho, ⟨%d0, H0⟩, ⟨%d1, H1⟩⟩
    iapply ((bodyFirst c (grid0.coords t) _ _ _ _ ((firstCol_iff t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _)
  · rw [outsAt_next m c t h0]
    simp only [before_result_next m c t h0]
    unfold outNext
    iintro ⟨HΦ, Ho, ⟨%d0, H0⟩, ⟨%d1, H1⟩⟩
    iapply ((bodyNext c (grid0.coords t) _ _ _ _ (fun h => h0 ((firstCol_iff t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverNext c _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; each array of the pipeline ends at what the
    write-backs leave, every other unscoped buffer at what the host operations after the region compute. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- An argument the region does not stage and no later operation writes ends as launched. -/
theorem tail_arg (c : Dev nD) (b : Ref sig .tc) (hb : ∀ w, Pipeline.arrRef spec0 w ≠ b)
    (hw : ∀ ops ∈ (tailOps : List (List (HloOp τ sig (Elt F)))), ∀ op ∈ ops, Proc.devRef .tc b ∉ op.writes) :
    Pipeline.afterTail₀ cfgs (dats m) 0 (V0 m) tailOps c b = m ((c : Thread nD τ).loc b) := by
  unfold Pipeline.afterTail₀
  rw [StableHlo.after_of_forall_not_mem _ _ fun op hop => by
    obtain ⟨ops, hops, hop'⟩ := List.mem_flatten.mp hop
    exact hw ops hops op hop']
  exact Pipeline.withArrays_of_ne _ c (V0 m c) _ b hb

/-- The loss buffer and the four argument arrays at the end of every execution: the loss at what the host operations
    after the region compute from the region's exit contents, the arguments as launched. -/
theorem run_result : θ_run defs (onTc (τ := τ) (main (F := F))) ⟨m, fun _ => 0, ρ⟩ (fun r => ∀ c : Dev nD,
      r.2.mem ((c.tc : Thread nD τ).loc main_v51) = Pipeline.afterTail₀ cfgs (dats m) 0 (V0 m) tailOps c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_v51 (Pipeline.mem_restRefs_of main_v51 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans
        (tail_arg m c main_arg1 (by decide) fun ops ho op hop => tail_kept ops ho op hop main_arg1 (by simp [keepSet])),
      ((h c).2 main_arg2 (Pipeline.mem_restRefs_of main_arg2 (by decide) (by decide))).trans
        (tail_arg m c main_arg2 (by decide) fun ops ho op hop => tail_kept ops ho op hop main_arg2 (by simp [keepSet])),
      ((h c).2 main_arg3 (Pipeline.mem_restRefs_of main_arg3 (by decide) (by decide))).trans
        (tail_arg m c main_arg3 (by decide) fun ops ho op hop => tail_kept ops ho op hop main_arg3 (by simp [keepSet]))⟩)
    (run_main m ρ)

/-- The frame: the program runs to the end without a fault and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.Kernel.Hand

end
-- ==== Proof.IdealLaunch.lean ====
/-
  The row-maximum kernel's launch: the program is one pipelined region over a 16 x 10 grid of [512, 3200] blocks of the
  logits, followed by 129 host operations that read the region's [8192, 1] result. This module names what the region
  finds in memory, states that the program is the region continued by those operations, and records about the
  operations what the run around a region needs: they touch only unscoped device buffers, allocate nothing, and
  write neither the logits nor the region's result. It also names a window's block at a grid point and the one
  condition the body branches on (the first column block of a row block).
-/
import proofs.«429815_j3599182594545_3_alg».proof.Proof.Gen.KernelIdeal.Launch
import proofs.«429815_j3599182594545_3_alg».proof.Proof.Gen.KernelIdeal.Skeleton
import proofs.«429815_j3599182594545_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region -/

/-- The seven stretches of host operations that follow the region, in program order. -/
abbrev tailOps : List (List (HloOp τ sig (Elt F))) :=
  [hostOps1, hostOps1_1, hostOps1_2, hostOps1_3, hostOps1_4, hostOps1_5, hostOps1_6]

/-- The device's buffer contents when the region is entered: the launch contents (nothing runs before the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The buffers the host operations after the region must leave alone: the four arguments and the region's result. -/
abbrev keepSet : List (Ref sig .tc) := [main_arg0, main_arg1, main_arg2, main_arg3, main_v0]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- No operation of this stretch writes an argument array or the region's result: each writes its own result buffer. -/
theorem hostOps1_kept : (hostOps1 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No operation of this stretch writes an argument array or the region's result: each writes its own result buffer. -/
theorem hostOps1_1_kept : (hostOps1_1 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No operation of this stretch writes an argument array or the region's result: each writes its own result buffer. -/
theorem hostOps1_2_kept : (hostOps1_2 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No operation of this stretch writes an argument array or the region's result: each writes its own result buffer. -/
theorem hostOps1_3_kept : (hostOps1_3 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No operation of this stretch writes an argument array or the region's result: each writes its own result buffer. -/
theorem hostOps1_4_kept : (hostOps1_4 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No operation of this stretch writes an argument array or the region's result: each writes its own result buffer. -/
theorem hostOps1_5_kept : (hostOps1_5 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No operation of this stretch writes an argument array or the region's result: each writes its own result buffer. -/
theorem hostOps1_6_kept : (hostOps1_6 : List (HloOp τ sig (Elt F))).Forall fun op =>
    ∀ b ∈ keepSet, Proc.devRef .tc b ∉ op.writes := by
  simp only [List.Forall]
  repeat' apply And.intro
  all_goals (intro b hb; simp only [keepSet, List.mem_cons, List.mem_nil_iff, or_false] at hb; rcases hb with rfl | rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

/-- The program is the region continued by the seven stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) (fun c => (main_chain c).trans rfl)

/-- The stretches touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- They write no argument array and not the region's result. -/
theorem tail_kept : ∀ ops ∈ (tailOps : List (List (HloOp τ sig (Elt F)))), ∀ op ∈ ops,
    ∀ b ∈ keepSet, Proc.devRef .tc b ∉ op.writes := by
  intro ops hops op hop
  simp only [List.mem_cons, List.mem_nil_iff, or_false] at hops
  rcases hops with rfl | rfl | rfl | rfl | rfl | rfl | rfl
  · exact (List.forall_iff_forall_mem.mp hostOps1_kept) op hop
  · exact (List.forall_iff_forall_mem.mp hostOps1_1_kept) op hop
  · exact (List.forall_iff_forall_mem.mp hostOps1_2_kept) op hop
  · exact (List.forall_iff_forall_mem.mp hostOps1_3_kept) op hop
  · exact (List.forall_iff_forall_mem.mp hostOps1_4_kept) op hop
  · exact (List.forall_iff_forall_mem.mp hostOps1_5_kept) op hop
  · exact (List.forall_iff_forall_mem.mp hostOps1_6_kept) op hop

/-- In particular they write neither array of the pipeline (the logits and the region's result). -/
theorem tail_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_kept ops hops op hop main_arg0 (by simp [keepSet])
  · exact tail_kept ops hops op hop main_v0 (by simp [keepSet])

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The logits' staging buffer holds the point's block at every point, for any proof data whose array is the
    region-entry contents and whose body leaves the block in place: the window is fetched at every point, never
    clipped and never idle. -/
theorem logits_block_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body resets the running maximum exactly when the column-block coordinate is zero. -/
abbrev firstCol (i : grid0.Coords) : Prop := (Scalar.cmpi .ne (Scalar.extui (Scalar.cmpi .eq (BitVec.ofNat 32 (i 1).val) 0#32)) 0#32) = 1#1
/-- Over the 160 points, in row-major order of (row block, column block): at the points divisible by ten. -/
theorem firstCol_iff : ∀ t : Fin cfg0.N, firstCol (grid0.coords t) ↔ t.val % 10 = 0 :=
  (by decide +kernel : ∀ t : Fin grid0.N, firstCol (grid0.coords t) ↔ t.val % 10 = 0)

/-- One staging buffer of the result window, through which its contents are stated. -/
abbrev VOut : View sig .tc .vmem S512x1 .f32 := (Memref.whole cc0_stg1_0 : Memref sig .tc .vmem S512x1 .f32).view
/-- Each window's current staging memref at a point, as the pipeline passes it to the body, and its wholeness. -/
abbrev msIn (t : Fin cfg0.N) : Memref sig .tc .vmem S512x3200 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S512x1 .f32 := win0_1.stage (cfg0.slots t 1)
abbrev hsOut (t : Fin cfg0.N) : (msOut t).IsWhole := hstage0_1 ((cfg0.slots t 1).cast nbuf0_1)

end Cert.KernelIdeal.Hand

end
-- ==== Proof.IdealBodyFirst.lean ====
/-
  The body at the first column block of a row block: the running maximum is reset to minus infinity, then replaced by
  its maximum with the block's row maxima.
-/
import proofs.«429815_j3599182594545_3_alg».proof.Proof.IdealLaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- What the body's stores leave in the result window's staging buffer, as pieces (last first), together with the proof
    that on whole staging buffers the body runs to its continuation with the logits' block as it was and the
    result buffer at those pieces written. The pieces are found by running the body's memory operations symbolically. -/
noncomputable def bodyFirst (c : Dev nD) (i : grid0.Coords) (arg2 : Memref sig .tc .vmem S512x3200 .f32) (harg2 : arg2.IsWhole) (arg3 : Memref sig .tc .vmem S512x1 .f32) (harg3 : arg3.IsWhole) (hc0 : firstCol i)
    (x0 : Vec F S512x3200 .f32) :
    { L1 : List (View.Piece (Elt F) S512x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__max_kernel i arg2 harg2 arg3 harg3) K } := by
  refine ⟨?_, fun E K => ?run⟩
  case run =>
    simp only [cc0__max_kernel_eq_skeleton]; unfold cc0__max_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.KernelIdeal.Hand

end
-- ==== Proof.IdealBodyNext.lean ====
/-
  The body at a later column block of a row block: the running maximum left by the block before is replaced by its
  maximum with this block's row maxima.
-/
import proofs.«429815_j3599182594545_3_alg».proof.Proof.IdealBodyFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- What the body's stores leave in the result window's staging buffer, as pieces (last first), together with the proof
    that on whole staging buffers the body runs to its continuation with the logits' block as it was and the
    result buffer at those pieces written. The pieces are found by running the body's memory operations symbolically. -/
noncomputable def bodyNext (c : Dev nD) (i : grid0.Coords) (arg2 : Memref sig .tc .vmem S512x3200 .f32) (harg2 : arg2.IsWhole) (arg3 : Memref sig .tc .vmem S512x1 .f32) (harg3 : arg3.IsWhole) (hc0 : ¬firstCol i)
    (x0 : Vec F S512x3200 .f32) (xo1 : Vec F S512x1 .f32) :
    { L1 : List (View.Piece (Elt F) S512x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__max_kernel i arg2 harg2 arg3 harg3) K } := by
  refine ⟨?_, fun E K => ?run⟩
  case run =>
    simp only [cc0__max_kernel_eq_skeleton]; unfold cc0__max_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.Hand

end
-- ==== Proof.IdealFrame.lean ====
/-
  The row-maximum kernel's run. After grid point (row block r, column block j) the result window's staging buffer holds,
  for the 512 rows of block r, the maximum of minus infinity and the logits' columns of blocks 0 … j: the first column
  block resets it, each later one takes the maximum with what the block before left (the buffer is written back only
  after the last column block, so it is still there). With these contents as proof data the body meets its obligation
  at every point, the region runs, the host operations after it run from its exit, and every array ends where the
  pipeline's write-backs put it; in particular the four argument arrays end unchanged.
-/
import proofs.«429815_j3599182594545_3_alg».proof.Proof.IdealBodyNext

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first block's stores tile the result block, so they cover it. -/
theorem coverFirst (c : Dev nD) (i : grid0.Coords) (arg2 : Memref sig .tc .vmem S512x3200 .f32) (harg2 : arg2.IsWhole) (arg3 : Memref sig .tc .vmem S512x1 .f32) (harg3 : arg3.IsWhole) (hc0 : firstCol i)
    (x0 : Vec F S512x3200 .f32) (y : S512x1.Idx) :
    ∃ pc ∈ (bodyFirst c i arg2 harg2 arg3 harg3 hc0 x0).1, y ∈ pc.1.set :=
  View.cover_of_tiledL (bodyFirst c i arg2 harg2 arg3 harg3 hc0 x0).1 S512x1.size (by sl_kernel_rfl) y

/-- What the first column block leaves in the result's staging buffer: its stores read back. -/
def outFirst (c : Dev nD) (i : grid0.Coords) (arg2 : Memref sig .tc .vmem S512x3200 .f32) (harg2 : arg2.IsWhole) (arg3 : Memref sig .tc .vmem S512x1 .f32) (harg3 : arg3.IsWhole) (hc0 : firstCol i)
    (x0 : Vec F S512x3200 .f32) : Vec F S512x1 .f32 :=
  VOut.read (Elt F) (VOut.writes (Elt F) VOut.junk (bodyFirst c i arg2 harg2 arg3 harg3 hc0 x0).1)

/-- A later block's one store covers the result block. -/
theorem coverNext (c : Dev nD) (i : grid0.Coords) (arg2 : Memref sig .tc .vmem S512x3200 .f32) (harg2 : arg2.IsWhole) (arg3 : Memref sig .tc .vmem S512x1 .f32) (harg3 : arg3.IsWhole) (hc0 : ¬firstCol i)
    (x0 : Vec F S512x3200 .f32) (xo1 : Vec F S512x1 .f32) (y : S512x1.Idx) :
    ∃ pc ∈ (bodyNext c i arg2 harg2 arg3 harg3 hc0 x0 xo1).1, y ∈ pc.1.set :=
  View.cover_of_tiledL (bodyNext c i arg2 harg2 arg3 harg3 hc0 x0 xo1).1 S512x1.size (by sl_kernel_rfl) y

/-- What a later column block leaves, over what the block before left. -/
def outNext (c : Dev nD) (i : grid0.Coords) (arg2 : Memref sig .tc .vmem S512x3200 .f32) (harg2 : arg2.IsWhole) (arg3 : Memref sig .tc .vmem S512x1 .f32) (harg3 : arg3.IsWhole) (hc0 : ¬firstCol i)
    (x0 : Vec F S512x3200 .f32) (xo1 : Vec F S512x1 .f32) : Vec F S512x1 .f32 :=
  VOut.read (Elt F) (VOut.writes (Elt F) VOut.junk (bodyNext c i arg2 harg2 arg3 harg3 hc0 x0 xo1).1)

/-! ## The running maximum, point by point -/

/-- What the result's staging buffer holds after the body at the `n`-th grid point (row-major over row blocks and
    column blocks): reset at the points divisible by ten, accumulated over the point before otherwise. -/
def outsAt (c : Dev nD) : (n : ℕ) → n < cfg0.N → Vec F S512x1 .f32
  | 0, hn => outFirst c (grid0.coords ⟨0, hn⟩) (msIn ⟨0, hn⟩) (hsIn ⟨0, hn⟩) (msOut ⟨0, hn⟩) (hsOut ⟨0, hn⟩) ((firstCol_iff ⟨0, hn⟩).mpr (Nat.zero_mod _)) (iblk m c 0 ⟨0, hn⟩)
  | n + 1, hn =>
    if h0 : (n + 1) % 10 = 0 then
      outFirst c (grid0.coords ⟨n + 1, hn⟩) (msIn ⟨n + 1, hn⟩) (hsIn ⟨n + 1, hn⟩) (msOut ⟨n + 1, hn⟩) (hsOut ⟨n + 1, hn⟩) ((firstCol_iff ⟨n + 1, hn⟩).mpr h0) (iblk m c 0 ⟨n + 1, hn⟩)
    else
      outNext c (grid0.coords ⟨n + 1, hn⟩) (msIn ⟨n + 1, hn⟩) (hsIn ⟨n + 1, hn⟩) (msOut ⟨n + 1, hn⟩) (hsOut ⟨n + 1, hn⟩) (fun h => h0 ((firstCol_iff ⟨n + 1, hn⟩).mp h)) (iblk m c 0 ⟨n + 1, hn⟩) (outsAt c n (Nat.lt_of_succ_lt hn))

theorem outsAt_first (c : Dev nD) (t : Fin cfg0.N) (h0 : t.val % 10 = 0) :
    outsAt m c t.val t.isLt = outFirst c (grid0.coords t) (msIn t) (hsIn t) (msOut t) (hsOut t) ((firstCol_iff t).mpr h0) (iblk m c 0 t) := by
  obtain ⟨n, hn⟩ := t
  cases n with
  | zero => exact rfl
  | succ n => exact (dif_pos h0).trans rfl

theorem outsAt_next (c : Dev nD) (t : Fin cfg0.N) (h0 : ¬t.val % 10 = 0) :
    outsAt m c t.val t.isLt = outNext c (grid0.coords t) (msIn t) (hsIn t) (msOut t) (hsOut t) (fun h => h0 ((firstCol_iff t).mp h)) (iblk m c 0 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point the logits' buffer at its block and the result's
    at the running maximum; the region's invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_logits (c : Dev nD) (t : Fin cfg0.N) : (dats m 0 c).after 0 t = iblk m c 0 t := by dsimp only [dats]
theorem after_result (c : Dev nD) (t : Fin cfg0.N) : (dats m 0 c).after 1 t = (outsAt m c t.val t.isLt) := by dsimp only [dats]

theorem before_logits (c : Dev nD) (t : Fin cfg0.N) (d) : (dats m 0 c).before 0 t d = iblk m c 0 t :=
  logits_block_of m (dats m 0 c) (A_eq m c 0) (after_logits m c) t d

/-- At a later column block the result's staging buffer still holds what the block before left: it is written back
    only after the last column block of a row block. -/
theorem before_result_next (c : Dev nD) (t : Fin cfg0.N) (h0 : ¬t.val % 10 = 0) (d) :
    (dats m 0 c).before 1 t d = (outsAt m c (t.val - 1) (Nat.lt_of_le_of_lt (Nat.sub_le _ _) t.isLt)) := by
  have hN : t.val < 160 := lt_of_lt_of_eq t.isLt (show cfg0.N = 160 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msIn t) fullShare ((dats m 0 c).before 0 t d))
    ∗ (∃ d, owns (c : Thread nD τ) (msOut t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (msIn t) fullShare ((dats m 0 c).after 0 t)
    ∗ owns (c : Thread nD τ) (msOut t) fullShare ((dats m 0 c).after 1 t))

set_option maxHeartbeats 800000 in
/-- The body at any point: the logits' buffer holds the point's block; by the point's column block the reset or the
    accumulation applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_logits]
  rw [show (dats m 0 c).Φ t.succ = (dats m 0 c).Φ t.castSucc from rfl,
    show (dats m 0 c).owesAt () t.succ = (dats m 0 c).owesAt () t.castSucc from rfl,
    after_logits, after_result]
  by_cases h0 : t.val % 10 = 0
  · rw [outsAt_first m c t h0]
    unfold outFirst
    iintro ⟨HΦ, Ho, ⟨%d0, H0⟩, ⟨%d1, H1⟩⟩
    iapply ((bodyFirst c (grid0.coords t) _ _ _ _ ((firstCol_iff t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _)
  · rw [outsAt_next m c t h0]
    simp only [before_result_next m c t h0]
    unfold outNext
    iintro ⟨HΦ, Ho, ⟨%d0, H0⟩, ⟨%d1, H1⟩⟩
    iapply ((bodyNext c (grid0.coords t) _ _ _ _ (fun h => h0 ((firstCol_iff t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverNext c _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; each array of the pipeline ends at what the
    write-backs leave, every other unscoped buffer at what the host operations after the region compute. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- An argument the region does not stage and no later operation writes ends as launched. -/
theorem tail_arg (c : Dev nD) (b : Ref sig .tc) (hb : ∀ w, Pipeline.arrRef spec0 w ≠ b)
    (hw : ∀ ops ∈ (tailOps : List (List (HloOp τ sig (Elt F)))), ∀ op ∈ ops, Proc.devRef .tc b ∉ op.writes) :
    Pipeline.afterTail₀ cfgs (dats m) 0 (V0 m) tailOps c b = m ((c : Thread nD τ).loc b) := by
  unfold Pipeline.afterTail₀
  rw [StableHlo.after_of_forall_not_mem _ _ fun op hop => by
    obtain ⟨ops, hops, hop'⟩ := List.mem_flatten.mp hop
    exact hw ops hops op hop']
  exact Pipeline.withArrays_of_ne _ c (V0 m c) _ b hb

/-- The loss buffer and the four argument arrays at the end of every execution: the loss at what the host operations
    after the region compute from the region's exit contents, the arguments as launched. -/
theorem run_result : θ_run defs (onTc (τ := τ) (main (F := F))) ⟨m, fun _ => 0, ρ⟩ (fun r => ∀ c : Dev nD,
      r.2.mem ((c.tc : Thread nD τ).loc main_v51) = Pipeline.afterTail₀ cfgs (dats m) 0 (V0 m) tailOps c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_v51 (Pipeline.mem_restRefs_of main_v51 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans
        (tail_arg m c main_arg1 (by decide) fun ops ho op hop => tail_kept ops ho op hop main_arg1 (by simp [keepSet])),
      ((h c).2 main_arg2 (Pipeline.mem_restRefs_of main_arg2 (by decide) (by decide))).trans
        (tail_arg m c main_arg2 (by decide) fun ops ho op hop => tail_kept ops ho op hop main_arg2 (by simp [keepSet])),
      ((h c).2 main_arg3 (Pipeline.mem_restRefs_of main_arg3 (by decide) (by decide))).trans
        (tail_arg m c main_arg3 (by decide) fun ops ho op hop => tail_kept ops ho op hop main_arg3 (by simp [keepSet]))⟩)
    (run_main m ρ)

/-- The frame: the program runs to the end without a fault and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.KernelIdeal.Hand

end
-- ==== Proof.RowMaxSpec.lean ====
/-
  A row maximum taken in ten column blocks, at the extended reals. `rowSup x r` is the supremum of row `r` of an
  [8192, 32000] array; `rowSupUpTo x r n` the supremum of its first `n` columns. The partial suprema start at ⊥, end at
  the row's supremum, and advance by one block of 3200 columns as the maximum with that block's supremum. The
  reference's row maximum (a reduce by `maximum` from −∞ over axis 1, kept as a column) is `rowSup`; the kernel's two
  stored values are ⊥ and the running maximum joined with a block's lane maximum.
-/
import proofs.«429815_j3599182594545_3_alg».proof.Proof.Gen.KernelIdeal.Skeleton
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import Mathlib.Data.Finset.Lattice.Fold

noncomputable section

namespace Cert.RowMaxSpec

open Idealize.ShloMosaic Idealize.ShloMosaic.ValueIdx

/-- The supremum of row `r`. -/
def rowSup (x : (⟨2, ![8192, 32000]⟩ : Shape).Idx → EReal) (r : Fin 8192) : EReal :=
  Finset.univ.sup fun k : Fin 32000 => x (ix2 r k)

/-- The supremum of the first `n` columns of row `r`. -/
def rowSupUpTo (x : (⟨2, ![8192, 32000]⟩ : Shape).Idx → EReal) (r : Fin 8192) (n : ℕ) : EReal :=
  (Finset.univ.filter fun k : Fin 32000 => k.val < n).sup fun k => x (ix2 r k)

variable (x : (⟨2, ![8192, 32000]⟩ : Shape).Idx → EReal) (r : Fin 8192)

/-- No columns: the empty supremum. -/
theorem rowSupUpTo_zero : rowSupUpTo x r 0 = ⊥ := by
  unfold rowSupUpTo
  rw [Finset.filter_false_of_mem (fun k _ => Nat.not_lt_zero _), Finset.sup_empty]

/-- All columns: the row's supremum. -/
theorem rowSupUpTo_all : rowSupUpTo x r 32000 = rowSup x r := by
  unfold rowSupUpTo rowSup
  rw [Finset.filter_true_of_mem (fun k _ => k.isLt)]

/-- One more block of 3200 columns: the columns below `n + 3200` are those below `n` together with the block's, and a
    supremum over a union is the maximum of the two suprema. -/
theorem rowSupUpTo_step (n : ℕ) (hn : n + 3200 ≤ 32000) :
    rowSupUpTo x r (n + 3200)
      = max (rowSupUpTo x r n) (Finset.univ.sup fun q : Fin 3200 => x (ix2 r ⟨n + q.val, by omega⟩)) := by
  classical
  have hset : (Finset.univ.filter fun k : Fin 32000 => k.val < n + 3200)
      = (Finset.univ.filter fun k : Fin 32000 => k.val < n)
          ∪ Finset.univ.image (fun q : Fin 3200 => (⟨n + q.val, by omega⟩ : Fin 32000)) := by
    ext k
    simp only [Finset.mem_filter, Finset.mem_univ, true_and, Finset.mem_union, Finset.mem_image]
    constructor
    · intro hk
      by_cases h : k.val < n
      · exact Or.inl h
      · exact Or.inr ⟨⟨k.val - n, by omega⟩, Fin.ext (by simp only; omega)⟩
    · rintro (h | ⟨q, rfl⟩)
      · omega
      · have := q.isLt
        simp only
        omega
  unfold rowSupUpTo
  rw [hset, Finset.sup_union, Finset.sup_image]
  rfl

/-- A fold of `max` from ⊥ is the supremum. -/
theorem fold_max_bot {ι : Type} (s : Finset ι) (f : ι → EReal) : s.fold max ⊥ f = s.sup f := by
  classical
  induction s using Finset.induction_on with
  | empty => rfl
  | insert a s ha ih => rw [Finset.fold_insert ha, Finset.sup_insert, ih]

/-- The word of −∞ reads ⊥. -/
theorem ofBits_neg_inf : Ideal.ofBits .f32 0xFF800000#32 = ⊥ := by
  simp [Ideal.ofBits, Ideal.ieee]

/-- A vector broadcast to a column (`[a] → [a, 1]`, the operand's axis the result's axis 0) reads, at a column index,
    the vector at the index's row coordinate. -/
theorem broadcast_col_apply {α : Type} (hb : (⟨1, ![8192]⟩ : Shape).BroadcastsInDim ⟨2, ![8192, 1]⟩ ![0])
    (v : (⟨1, ![8192]⟩ : Shape).Idx → α) (j : (⟨2, ![8192, 1]⟩ : Shape).Idx) :
    broadcastInDim ⟨2, ![8192, 1]⟩ ![0] hb v j = v (ix1 ⟨(j 0).val, (j 0).isLt⟩) := by
  unfold broadcastInDim
  refine congrArg v (funext fun a => ?_)
  match a with
  | ⟨0, _⟩ => exact (dif_neg (show ¬ (8192 : ℕ) = 1 by decide)).trans (Fin.ext rfl)

/-- Row `r` with column `k` inserted on the reduced axis 1 is the index `(r, k)`. -/
theorem lift_row (hR : (⟨2, ![8192, 32000]⟩ : Shape).Reduces [1] ⟨1, ![8192]⟩) (r : Fin 8192) (k : Fin 32000) :
    hR.lift (ix1 r) k = ix2 r k := by
  funext c
  match c with
  | ⟨0, _⟩ => exact Fin.ext rfl
  | ⟨1, _⟩ => exact Fin.ext rfl

/-- The reference's row maximum: the reduce by `maximum` from −∞ over axis 1, broadcast to a column, reads at row `j 0`
    the supremum of that row. The column index reads the reduced vector at its row coordinate; the reduce at that row is
    the fold of `max` from the initial value, ⊥, over the row's columns. -/
theorem ref_rowMax (hb : (⟨1, ![8192]⟩ : Shape).BroadcastsInDim ⟨2, ![8192, 1]⟩ ![0])
    (hr : (⟨2, ![8192, 32000]⟩ : Shape).ReducesTo [1] ⟨1, ![8192]⟩) (hS : 0 < (⟨0, ![]⟩ : Shape).numel)
    (x : FVec Ideal ⟨2, ![8192, 32000]⟩ .f32) (j : (⟨2, ![8192, 1]⟩ : Shape).Idx) :
    broadcastInDim ⟨2, ![8192, 1]⟩ ![0] hb
        (Host.reduce (FloatOps.maximumf (F := Ideal)) x (constant (F := Ideal) ⟨0, ![]⟩ .f32 0xFF800000#32) hr hS) j
      = rowSup x ⟨(j 0).val, (j 0).isLt⟩ := by
  have hR : (⟨2, ![8192, 32000]⟩ : Shape).Reduces [1] ⟨1, ![8192]⟩ := by decide
  have hinit : constant (F := Ideal) ⟨0, ![]⟩ .f32 0xFF800000#32 (Shape.Idx.first hS) = (⊥ : EReal) := ofBits_neg_inf
  have hfun : (x ∘ hR.lift (ix1 ⟨(j 0).val, (j 0).isLt⟩))
      = fun k : Fin 32000 => x (ix2 ⟨(j 0).val, (j 0).isLt⟩ k) :=
    funext fun k => congrArg x (lift_row hR _ k)
  refine (broadcast_col_apply hb _ j).trans ?_
  refine (Host.reduce_eq_fold_single (FloatOps.maximumf (F := Ideal)) x _ hr hR hS _).trans ?_
  exact (congrArg₂ (fun (i : EReal) (f : Fin 32000 → EReal) => (Finset.univ : Finset (Fin 32000)).fold max i f) hinit hfun).trans
    (fold_max_bot _ _)

/-- A vector cast to a column (`[512] → [512, 1]`) reads, at `(p, u)`, the vector at `p`: the two indices have the same
    row-major position. -/
theorem shapeCast_col_apply {α : Type} (h : (⟨1, ![512]⟩ : Shape).ShapeCasts ⟨2, ![512, 1]⟩)
    (v : (⟨1, ![512]⟩ : Shape).Idx → α) (p : Fin 512) (u : Fin 1) :
    shapeCast ⟨2, ![512, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- Row `p` of a block with lane `q` inserted on the reduced axis 1 is the index `(p, q)`. -/
theorem lift_lane (hR : (⟨2, ![512, 3200]⟩ : Shape).Reduces [1] ⟨1, ![512]⟩) (p : Fin 512) (q : Fin 3200) :
    hR.lift (ix1 p) q = ix2 p q := by
  funext c
  match c with
  | ⟨0, _⟩ => exact Fin.ext rfl
  | ⟨1, _⟩ => exact Fin.ext rfl

/-- The lane maximum of a [512, 3200] block from −∞, at row `p`: the supremum of the row's 3200 lanes. -/
theorem lane_max_apply (hR : (⟨2, ![512, 3200]⟩ : Shape).Reduces [1] ⟨1, ![512]⟩) (hφ : FKind.Formats .f32)
    (hacc : (0xFF800000#32 : BitVec FTy.f32.bits) = FKind.maximumf.neutral .f32 hφ)
    (v3 : FVec Ideal ⟨2, ![512, 3200]⟩ .f32) (p : Fin 512) :
    multiReduction .maximumf [1] ⟨1, ![512]⟩ v3 0xFF800000#32 hR hφ hacc (ix1 p)
      = Finset.univ.sup fun q : Fin 3200 => v3 (ix2 p q) := by
  have hfun : (v3 ∘ hR.lift (ix1 p)) = fun q : Fin 3200 => v3 (ix2 p q) :=
    funext fun q => congrArg v3 (lift_lane hR p q)
  refine (Ideal.multiReduction_maximumf_single v3 _ hR hφ hacc (ix1 p)).trans ?_
  exact (congrArg₂ (fun (i : EReal) (f : Fin 3200 → EReal) => (Finset.univ : Finset (Fin 3200)).fold max i f)
    ofBits_neg_inf hfun).trans (fold_max_bot _ _)

open Cert.KernelIdeal in
/-- The kernel's first stored value is −∞ at every index. -/
theorem pay1_apply (j : S512x1.Idx) : Gen.k0_pay1 (F := Ideal) j = (⊥ : EReal) :=
  ofBits_neg_inf

open Cert.KernelIdeal in
/-- The kernel's second stored value, at row `p`: the running maximum joined with the block's lane maximum. -/
theorem pay2_apply (v3 : Vec Ideal S512x3200 .f32) (v6 : Vec Ideal S512x1 .f32) (p : Fin 512) :
    Gen.k0_pay2 v3 v6 (ix2 p 0) = max (v6 (ix2 p 0)) (Finset.univ.sup fun q : Fin 3200 => v3 (ix2 p q)) := by
  unfold Gen.k0_pay2
  exact congrArg₂ max (congrFun (shapeCast_self v6 _) _)
    ((shapeCast_col_apply _ _ p 0).trans (lane_max_apply _ _ _ v3 p))

end Cert.RowMaxSpec

end
-- ==== Proof.IdealRowMax.lean ====
/-
  What the region's result array ends holding, over the extended reals: entry (r, 0) is the supremum of row r of the
  logits. The result window's staging buffer after the point of row block R and column block J holds, at its row p, the
  supremum of the first 3200 (J + 1) entries of row 512 R + p: the first column block starts from minus infinity (the
  bottom of the order), each later block takes the maximum with what the block before left, and a supremum over a
  longer prefix is the maximum of the supremum over the shorter one and the supremum over the added block. After the
  tenth column block the prefix is the whole row; that point writes the buffer back to rows 512 R … 512 R + 511 of the
  array, and the sixteen such points cover it.
-/
import proofs.«429815_j3599182594545_3_alg».proof.Proof.IdealFrame
import proofs.«429815_j3599182594545_3_alg».proof.Proof.RowMaxSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.RowMaxSpec Idealize.ShloMosaic.ValueIdx

theorem hz : (![0, 0] : Fin 2 → Nat) = fun _ => 0 := funext fun a => by fin_cases a <;> rfl

/-- A later column block leaves the block's payload of the logits' block and the running maximum it found. -/
theorem outNext_eq (c : Dev nD) (i : grid0.Coords) (a2 : Memref sig .tc .vmem S512x3200 .f32) (h2 : a2.IsWhole) (a3 : Memref sig .tc .vmem S512x1 .f32) (h3 : a3.IsWhole) (hc : ¬firstCol i)
    (x : Vec F S512x3200 .f32) (xo : Vec F S512x1 .f32) : outNext c i a2 h2 a3 h3 hc x xo = k0_pay2 x xo := by
  unfold outNext
  rw [View.read_writes_eq_canon _ _ _ (coverNext c i a2 h2 a3 h3 hc x xo)]
  unfold bodyNext
  dsimp only
  sl_unfold_words
  rw [View.canon_unit_zero hz]
  simp only [View.readAt_eq_ld, h2.read_unread, h3.read_unread, View.ld_unit_zero (S := S512x3200) hz, View.ld_unit_zero (S := S512x1) hz]

/-- The first column block leaves the same payload over the reset value it has just stored. -/
theorem outFirst_eq (c : Dev nD) (i : grid0.Coords) (a2 : Memref sig .tc .vmem S512x3200 .f32) (h2 : a2.IsWhole) (a3 : Memref sig .tc .vmem S512x1 .f32) (h3 : a3.IsWhole) (hc : firstCol i)
    (x : Vec F S512x3200 .f32) : outFirst c i a2 h2 a3 h3 hc x = k0_pay2 x k0_pay1 := by
  unfold outFirst
  rw [View.read_writes_eq_canon _ _ _ (coverFirst c i a2 h2 a3 h3 hc x)]
  unfold bodyFirst
  dsimp only
  sl_unfold_words
  rw [View.canon_cons_unit_zero (S := S512x1) hz, View.readCov_unit_zero (S := S512x1) _ hz]
  simp only [View.readAt_eq_ld, h2.read_unread, View.ld_unit_zero (S := S512x3200) hz, View.ld_unit_zero (S := S512x1) hz]

/-! ## Over the extended reals -/

variable (m : (ℓ : Loc nD τ sig) → Buf (Elt Ideal) ℓ)

/-- The logits as launched, as a function of (row, column). -/
abbrev logits (c : Dev nD) : (⟨2, ![8192, 32000]⟩ : Shape).Idx → EReal := m ((c : Thread nD τ).loc main_arg0)

/-- The logits' block at a point, as a [512, 3200] array. -/
abbrev lblk (c : Dev nD) (t : Fin cfg0.N) : Vec Ideal S512x3200 .f32 := iblk m c 0 t

/-- The block indices of the two windows in row-major order of the grid: point t is row block t / 10, column block t % 10. -/
theorem idx_facts : ∀ t : Fin cfg0.N, win0_0.index t (0 : Fin 2) = t.val / 10 ∧ win0_0.index t (1 : Fin 2) = t.val % 10
    ∧ win0_1.index t (0 : Fin 2) = t.val / 10 ∧ win0_1.index t (1 : Fin 2) = 0 :=
  (by decide +kernel : ∀ t : Fin grid0.N, win0_0.index t (0 : Fin 2) = t.val / 10 ∧ win0_0.index t (1 : Fin 2) = t.val % 10
    ∧ win0_1.index t (0 : Fin 2) = t.val / 10 ∧ win0_1.index t (1 : Fin 2) = 0)

/-- Entry (p, q) of the block at point t is the logit at row 512 (t / 10) + p, column 3200 (t % 10) + q. -/
theorem lblk_apply (c : Dev nD) (t : Fin cfg0.N) (p : Fin 512) (q : Fin 3200) (r : Fin 8192) (k : Fin 32000)
    (hr : r.val = 512 * (t.val / 10) + p.val) (hk : k.val = 3200 * (t.val % 10) + q.val) :
    lblk m c t (ix2 p q) = logits m c (ix2 r k) := by
  obtain ⟨e0, e1, -, -⟩ := idx_facts t
  unfold lblk iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 512 + 1 * p.val = r.val; rw [e0, hr]; omega
  | ⟨1, _⟩ => show win0_0.index t (1 : Fin 2) * 3200 + 1 * q.val = k.val; rw [e1, hk]; omega

/-- One step of the running maximum: if the buffer's row p holds the supremum of the first n0 entries of row r, the
    body leaves the supremum of the first n0 + 3200. -/
theorem step_apply (c : Dev nD) (t : Fin cfg0.N) (p : Fin 512) (r : Fin 8192) (hr : r.val = 512 * (t.val / 10) + p.val)
    (acc : Vec Ideal S512x1 .f32) (n0 : ℕ) (hn0 : n0 = 3200 * (t.val % 10)) (hacc : acc (ix2 p 0) = rowSupUpTo (logits m c) r n0) :
    k0_pay2 (lblk m c t) acc (ix2 p 0) = rowSupUpTo (logits m c) r (n0 + 3200) := by
  have hle : n0 + 3200 ≤ 32000 := by have := Nat.mod_lt t.val (by decide : 0 < 10); omega
  rw [rowSupUpTo_step _ _ n0 hle, ← hacc]
  refine (pay2_apply _ _ p).trans ?_
  congr 1
  exact Finset.sup_congr rfl fun q _ => lblk_apply m c t p q r ⟨n0 + q.val, by have := q.isLt; omega⟩ hr (by show n0 + q.val = _; rw [hn0])

/-- After the first column block of a row block the buffer holds the payload over the reset value. -/
theorem outsAt_first_eq (c : Dev nD) (n : ℕ) (h : n < cfg0.N) (h0 : n % 10 = 0) :
    outsAt m c n h = k0_pay2 (lblk m c ⟨n, h⟩) (k0_pay1 (F := Ideal)) :=
  (outsAt_first m c ⟨n, h⟩ h0).trans (outFirst_eq ..)

/-- After a later column block it holds the payload over what the point before left. -/
theorem outsAt_next_eq (c : Dev nD) (n : ℕ) (h : n + 1 < cfg0.N) (h0 : ¬(n + 1) % 10 = 0) :
    outsAt m c (n + 1) h = k0_pay2 (lblk m c ⟨n + 1, h⟩) (outsAt m c n (Nat.lt_of_succ_lt h)) :=
  (outsAt_next m c ⟨n + 1, h⟩ h0).trans (outNext_eq ..)

/-- The running maximum after the n-th point. -/
theorem outsAt_apply (c : Dev nD) : ∀ (n : ℕ) (h : n < cfg0.N) (p : Fin 512) (r : Fin 8192) (hr : r.val = 512 * (n / 10) + p.val),
    outsAt m c n h (ix2 p 0) = rowSupUpTo (logits m c) r (3200 * (n % 10 + 1))
  | 0, h, p, r, hr =>
    (congrFun (outsAt_first_eq m c 0 h rfl) (ix2 p 0)).trans
      (step_apply m c ⟨0, h⟩ p r hr (k0_pay1 (F := Ideal)) 0 rfl ((pay1_apply _).trans (rowSupUpTo_zero _ _).symm))
  | n + 1, h, p, r, hr => by
    by_cases h0 : (n + 1) % 10 = 0
    · refine (congrFun (outsAt_first_eq m c (n + 1) h h0) (ix2 p 0)).trans ?_
      refine (step_apply m c ⟨n + 1, h⟩ p r hr (k0_pay1 (F := Ideal)) 0 (by show 0 = 3200 * ((n + 1) % 10); rw [h0]) ((pay1_apply _).trans (rowSupUpTo_zero _ _).symm)).trans ?_
      exact congrArg _ (by omega)
    · refine (congrFun (outsAt_next_eq m c n h h0) (ix2 p 0)).trans ?_
      have ih := outsAt_apply c n (Nat.lt_of_succ_lt h) p r (by rw [hr]; omega)
      refine (step_apply m c ⟨n + 1, h⟩ p r hr _ (3200 * (n % 10 + 1)) (by show _ = 3200 * ((n + 1) % 10); omega) ih).trans ?_
      exact congrArg _ (by omega)

/-- The array of row suprema, as contents of the region's result buffer. -/
def rowMaxArr (c : Dev nD) : Buf (Elt Ideal) ((c : Thread nD τ).loc main_v0) :=
  fun j => rowSup (logits m c) ⟨(j 0).val, (j 0).isLt⟩

theorem rowMaxArr_apply (c : Dev nD) (j : S8192x1.Idx) : rowMaxArr m c j = rowSup (logits m c) ⟨(j 0).val, (j 0).isLt⟩ := rfl

/-- What a write-back writes: after the tenth column block of row block R, rows 512 R … 512 R + 511 of the row suprema. -/
theorem flushed_eq (c : Dev nD) (t : Fin cfg0.N) (hf : (cfg0.win 1).flush t = true) :
    (dats m 0 c).flushed 1 t = ((cfg0.win 1).blk t).view.read (Elt Ideal) (rowMaxArr m c) := by
  have h9 : t.val % 10 = 9 := (flush0_1 t).mp hf
  have hN : t.val < 160 := lt_of_lt_of_eq t.isLt (show cfg0.N = 160 from N_0)
  obtain ⟨-, -, e2, -⟩ := idx_facts t
  funext y
  rw [View.read_apply]
  have hl : (dats m 0 c).flushed 1 t y = outsAt m c t.val t.isLt ((cfg0.win 1).xinj (grid0.coords t) y) := by
    show (dats m 0 c).after 1 t _ = _
    rw [after_result]
  rw [hl]
  have he : ((((cfg0.win 1).blk t).view.emb y) 0 : ℕ) = win0_1.index t (0 : Fin 2) * 512 + (y 0 : ℕ) :=
    Pipeline.Window.rect_emb_val win0_1 t y (0 : Fin 2)
  have hjy : (((cfg0.win 1).xinj (grid0.coords t) y) 0 : ℕ) = (y 0 : ℕ) := rfl
  generalize ((cfg0.win 1).blk t).view.emb y = i at he ⊢
  generalize (cfg0.win 1).xinj (grid0.coords t) y = j at hjy ⊢
  have hj0 : (j 0).val < 512 := (j 0).isLt
  have hj1 : (j 1).val < 1 := (j 1).isLt
  have hje : j = ix2 (n0 := 512) (n1 := 1) ⟨(j 0).val, hj0⟩ 0 := by
    funext a; apply Fin.ext
    match a with
    | ⟨0, _⟩ => rfl
    | ⟨1, _⟩ => show (j 1).val = 0; omega
  rw [hje, outsAt_apply m c t.val t.isLt ⟨(j 0).val, hj0⟩ ⟨512 * (t.val / 10) + (j 0).val, by omega⟩ rfl,
    show 3200 * (t.val % 10 + 1) = 32000 from by omega, rowSupUpTo_all, rowMaxArr_apply]
  have hrow : 512 * (t.val / 10) + (j 0).val = (i 0).val := by rw [he, e2, hjy]; omega
  simp only [hrow, cast_eq]

/-- The region's result array ends holding the row suprema. -/
theorem rowmax_arr (c : Dev nD) : (dats m 0 c).arrAt 1 cfg0.N = rowMaxArr m c :=
  (dats m 0 c).arrAt_eq_of_cover 1 (rowMaxArr m c) (flushed_eq m c) fun i => by
    have hi0 : (i 0).val < 8192 := (i 0).isLt
    have hi1 : (i 1).val < 1 := (i 1).isLt
    have hN : cfg0.N = 160 := N_0
    obtain ⟨t0, ht0⟩ : ∃ t0 : Fin cfg0.N, t0.val = 10 * ((i 0).val / 512) + 9 := ⟨⟨10 * ((i 0).val / 512) + 9, by rw [hN]; omega⟩, rfl⟩
    obtain ⟨-, -, e2, e3⟩ := idx_facts t0
    refine ⟨t0, (flush0_1 t0).mpr (by rw [ht0]; omega), ?_⟩
    show i ∈ ((View.whole main_v0).slice (win0_1.rect t0)).set
    rw [View.set_slice_whole, Rect.mem_set_unit]
    intro a
    match a with
    | ⟨0, _⟩ =>
      show win0_1.index t0 (0 : Fin 2) * 512 ≤ (i 0 : Nat) ∧ (i 0 : Nat) < win0_1.index t0 (0 : Fin 2) * 512 + 512
      rw [e2, ht0]; omega
    | ⟨1, _⟩ =>
      show win0_1.index t0 (1 : Fin 2) * 1 ≤ (i 1 : Nat) ∧ (i 1 : Nat) < win0_1.index t0 (1 : Fin 2) * 1 + 1
      rw [e3]; omega

end Cert.KernelIdeal.Hand

end
-- ==== Proof.LossSpec.lean ====
/-
  The loss of the two programs as pure functions of the argument arrays.

  Both programs end in the same chain of elementwise operations, reductions and a concatenation
  (`lossTail`) applied to three small arrays: the target logit shifted by the row maximum, the five
  sampled logits shifted by the row maximum, and the five sampling probabilities.  They differ in how
  the shifted logits are produced: the kernel's program gathers from the raw logits (the sampled ones
  from the first 128 columns only) and subtracts a row maximum it is handed, the reference subtracts
  the row maximum from the whole matrix and gathers from the result.  Each definition below is the
  composition, operation by operation, of the operations the printed programs list for that stage.
-/
import proofs.«429815_j3599182594545_3_alg».proof.KernelIdeal
import proofs.«429815_j3599182594545_3_alg».proof.ReferenceIdeal

noncomputable section

namespace Cert.LossSpec

open Idealize.ShloMosaic
open Cert.KernelIdeal
open Cert.KernelIdeal.Facts₀ Cert.KernelIdeal.Facts

variable {F : FTy → Type} [FloatOps F] [Cert.KernelIdeal.Facts] [Cert.ReferenceIdeal.Facts]

/-! ## Gathering along the last axis

`jnp.take_along_axis` prints as: negative indices wrapped by the axis length, the index array given a
trailing unit axis, an in-range mask `0 ≤ · ≤ length - 1` folded over that unit axis, the gather, and
the not-a-number pattern wherever the mask is clear. -/

/-- A column index per row, negative ones wrapped by 32000, with a trailing unit axis. -/
def wrapIdx1 (y1 : IVec S8192x1 32) : IVec S8192x1x1 32 :=
  shapeCast _ (select (cmpi .slt y1 (broadcastInDim S8192x1 ![] bcast_S_S8192x1 (constantI S_ 32 0#32)))
      (addi y1 (broadcastInDim S8192x1 ![] bcast_S_S8192x1 (constantI S_ 32 32000#32))) y1)
    shapeCasts_S8192x1_S8192x1x1

/-- Where a wrapped column index lies in `[0, 31999]`. -/
def inRange1 (j : IVec S8192x1x1 32) : IVec S8192x1 1 :=
  Host.reduce IntOp.andi
    (andi (cmpi .sge j (broadcastInDim S8192x1x1 ![] bcast_S_S8192x1x1 (constantI S_ 32 0#32)))
      (cmpi .sle j (broadcastInDim S8192x1x1 ![0, 1, 2] bcast_S1x1x1_S8192x1x1_0_1_2
        (broadcastInDim S1x1x1 ![2] bcast_S1_S1x1x1_2 (constantI S1 32 31999#32)))))
    (constantI S_ 1 1#1) reducesTo_S8192x1x1_S8192x1_d2 h_S_

/-- One entry per row of a `8192 × 32000` matrix, at that row's column index. -/
def takeY (x : FVec F S8192x32000 .f32) (y1 : IVec S8192x1 32) : FVec F S8192x1 .f32 :=
  select (inRange1 (wrapIdx1 y1))
    (Host.gather gather_S8192x32000_S8192x1x1_S8192x1_n_1_0_0_1_2_11 x (wrapIdx1 y1))
    (broadcastInDim S8192x1 ![] bcast_S_S8192x1 (constant (F := F) S_ .f32 0x7FC00000#32))

/-- Five column indices per row, negative ones wrapped by the axis length `n`, with a trailing unit axis. -/
def wrapIdx5 (n : BitVec 32) (ind : IVec S8192x5 32) : IVec S8192x5x1 32 :=
  shapeCast _ (select (cmpi .slt ind (broadcastInDim S8192x5 ![] bcast_S_S8192x5 (constantI S_ 32 0#32)))
      (addi ind (broadcastInDim S8192x5 ![] bcast_S_S8192x5 (constantI S_ 32 n))) ind)
    shapeCasts_S8192x5_S8192x5x1

/-- Where a wrapped column index lies in `[0, b]`. -/
def inRange5 (b : BitVec 32) (j : IVec S8192x5x1 32) : IVec S8192x5 1 :=
  Host.reduce IntOp.andi
    (andi (cmpi .sge j (broadcastInDim S8192x5x1 ![] bcast_S_S8192x5x1 (constantI S_ 32 0#32)))
      (cmpi .sle j (broadcastInDim S8192x5x1 ![0, 1, 2] bcast_S1x1x1_S8192x5x1_0_1_2
        (broadcastInDim S1x1x1 ![2] bcast_S1_S1x1x1_2 (constantI S1 32 b)))))
    (constantI S_ 1 1#1) reducesTo_S8192x5x1_S8192x5_d2 h_S_

/-- The not-a-number pattern at every entry of a `8192 × 5` array. -/
def nan5 : FVec F S8192x5 .f32 :=
  broadcastInDim S8192x5 ![] bcast_S_S8192x5 (constant (F := F) S_ .f32 0x7FC00000#32)

/-- Five entries per row of a `8192 × 128` matrix, at that row's five column indices. -/
def take128 (x : FVec F S8192x128 .f32) (ind : IVec S8192x5 32) : FVec F S8192x5 .f32 :=
  select (inRange5 127#32 (wrapIdx5 128#32 ind))
    (Host.gather gather_S8192x128_S8192x5x1_S8192x5_n_1_0_0_1_2_11 x (wrapIdx5 128#32 ind))
    (nan5 (F := F))

/-- Five entries per row of a `8192 × 100` matrix, at that row's five column indices. -/
def take100 (x : FVec F S8192x100 .f32) (ind : IVec S8192x5 32) : FVec F S8192x5 .f32 :=
  select (inRange5 99#32 (wrapIdx5 100#32 ind))
    (Host.gather gather_S8192x100_S8192x5x1_S8192x5_n_1_0_0_1_2_11 x (wrapIdx5 100#32 ind))
    (nan5 (F := F))

/-- Five entries per row of a `8192 × 32000` matrix, at that row's five column indices (the reference's gather of
    the sampled logits). -/
def take32000 (x : FVec F S8192x32000 .f32) (ind : IVec S8192x5 32) : FVec F S8192x5 .f32 :=
  select (inRange5 31999#32 (wrapIdx5 32000#32 ind))
    (Host.gather Cert.ReferenceIdeal.gather_S8192x32000_S8192x5x1_S8192x5_n_1_0_0_1_2_11 x (wrapIdx5 32000#32 ind))
    (nan5 (F := F))

/-- The rows of the sampling table picked by the targets: row `y r` of `prob` (negative targets wrapped by 32000). -/
def probRows (prob : FVec F S32000x100 .f32) (y : IVec S8192 32) : FVec F S8192x100 .f32 :=
  Host.gather gather_S32000x100_S8192x1_S8192x100_1_0_n_n_0_1_1100 prob
    (broadcastInDim S8192x1 ![0] bcast_S8192_S8192x1_0
      (select (cmpi .slt y (broadcastInDim S8192 ![] bcast_S_S8192 (constantI S_ 32 0#32)))
        (addi y (broadcastInDim S8192 ![] bcast_S_S8192 (constantI S_ 32 32000#32))) y))

/-! ## The shared tail -/

/-- The importance weights `1 / p`. -/
def invProb (pr : FVec F S8192x5 .f32) : FVec F S8192x5 .f32 :=
  Host.divf (broadcastInDim S8192x5 ![] bcast_S_S8192x5 (constant (F := F) S_ .f32 0x3F800000#32)) pr

/-- The six unnormalised scores of a row: the target's, weighted by the least importance weight of the row, then the
    five samples', each weighted by its own. -/
def scores (yg : FVec F S8192x1 .f32) (comp : FVec F S8192x5 .f32) (pr : FVec F S8192x5 .f32) : FVec F S8192x6 .f32 :=
  concatenate S8192x6 1
    [⟨S8192x1, mulf (broadcastInDim S8192x1 ![0] bcast_S8192_S8192x1_0
        (Host.reduce FloatOps.minimumf (invProb pr) (constant (F := F) S_ .f32 0x7F800000#32) reducesTo_S8192x5_S8192_d1 h_S_))
        (Host.exp yg)⟩,
     ⟨S8192x5, mulf (invProb pr) (Host.exp comp)⟩]
    concatenates_S8192x1_S8192x5_S8192x6_d1

/-- The scores of a row divided by their sum. -/
def normed (yg : FVec F S8192x1 .f32) (comp : FVec F S8192x5 .f32) (pr : FVec F S8192x5 .f32) : FVec F S8192x6 .f32 :=
  Host.divf (scores yg comp pr)
    (broadcastInDim S8192x6 ![0, 1] bcast_S8192x1_S8192x6_0_1
      (broadcastInDim S8192x1 ![0] bcast_S8192_S8192x1_0
        (Host.reduceAdd (scores yg comp pr) (constant (F := F) S_ .f32 0x00000000#32) reducesTo_S8192x6_S8192_d1 h_S_)))

/-- The row `(1, 0, 0, 0, 0, 0)` marking the target's column: zeros with a one scattered at `(0, 0)`. -/
def hot : FVec F S1x6 .f32 :=
  Host.scatter scatter_S1x6_S2_S__n_01_01_0 (fun _ b => b)
    (broadcastInDim S1x6 ![] bcast_S_S1x6 (constant (F := F) S_ .f32 0x00000000#32))
    (concatenate S2 0 [⟨S1, broadcastInDim S1 ![] bcast_S_S1 (constantI S_ 32 0#32)⟩,
        ⟨S1, broadcastInDim S1 ![] bcast_S_S1 (constantI S_ 32 0#32)⟩] concatenates_S1_S1_S2_d0)
    (constant (F := F) S_ .f32 0x3F800000#32)

/-- The loss from the shifted target logit `yg`, the shifted sampled logits `comp` and the sampling probabilities
    `pr`: minus the mean over all `8192 · 6` entries of `log (out + ε)` in the target's column and `log (1 - out + ε)`
    in the others, `out` the normalised scores. -/
def lossTail (yg : FVec F S8192x1 .f32) (comp : FVec F S8192x5 .f32) (pr : FVec F S8192x5 .f32) : FVec F S_ .f32 :=
  Host.negf (Host.divf
    (Host.reduceAdd
      (addf
        (mulf (Host.log (addf (normed yg comp pr)
            (broadcastInDim S8192x6 ![] bcast_S_S8192x6 (constant (F := F) S_ .f32 0x2EDBE6FF#32))))
          (broadcastInDim S8192x6 ![0, 1] bcast_S1x6_S8192x6_0_1 (hot (F := F))))
        (mulf (Host.log (addf
            (subf (broadcastInDim S8192x6 ![] bcast_S_S8192x6 (constant (F := F) S_ .f32 0x3F800000#32)) (normed yg comp pr))
            (broadcastInDim S8192x6 ![] bcast_S_S8192x6 (constant (F := F) S_ .f32 0x2EDBE6FF#32))))
          (broadcastInDim S8192x6 ![0, 1] bcast_S1x6_S8192x6_0_1
            (subf (broadcastInDim S1x6 ![] bcast_S_S1x6 (constant (F := F) S_ .f32 0x3F800000#32)) (hot (F := F))))))
      (constant (F := F) S_ .f32 0x00000000#32) reducesTo_S8192x6_S_d0_1 h_S_)
    (constant (F := F) S_ .f32 0x47400000#32))

/-! ## The two programs' losses -/

/-- The kernel's program: gather from the raw logits, then subtract the row maximum `rm` it was handed. -/
def kernelLoss (x : FVec F S8192x32000 .f32) (prob : FVec F S32000x100 .f32) (y : IVec S8192 32) (ind : IVec S8192x5 32)
    (rm : FVec F S8192x1 .f32) : FVec F S_ .f32 :=
  lossTail
    (subf (takeY x (broadcastInDim S8192x1 ![0] bcast_S8192_S8192x1_0 y)) rm)
    (subf (take128 (extractStridedSlice S8192x128 ![0, 0] x slices_S8192x32000_S8192x128_0_0) ind)
      (broadcastInDim S8192x5 ![0, 1] bcast_S8192x1_S8192x5_0_1 rm))
    (take100 (probRows prob y) ind)

/-- The reference's row maximum, as a column. -/
def rowMaxRef (x : FVec F S8192x32000 .f32) : FVec F S8192x1 .f32 :=
  broadcastInDim S8192x1 ![0] bcast_S8192_S8192x1_0
    (Host.reduce FloatOps.maximumf x (constant (F := F) S_ .f32 0xFF800000#32)
      Cert.ReferenceIdeal.Facts₀.reducesTo_S8192x32000_S8192_d1 h_S_)

/-- The logits shifted by their row maximum. -/
def shifted (x : FVec F S8192x32000 .f32) : FVec F S8192x32000 .f32 :=
  subf x (broadcastInDim S8192x32000 ![0, 1] Cert.ReferenceIdeal.Facts₀.bcast_S8192x1_S8192x32000_0_1 (rowMaxRef x))

/-- The reference: shift the whole matrix by its row maxima, then gather. -/
def refLoss (x : FVec F S8192x32000 .f32) (prob : FVec F S32000x100 .f32) (y : IVec S8192 32) (ind : IVec S8192x5 32) :
    FVec F S_ .f32 :=
  lossTail
    (takeY (shifted x) (broadcastInDim S8192x1 ![0] bcast_S8192_S8192x1_0 y))
    (take32000 (shifted x) ind)
    (take100 (probRows prob y) ind)

end Cert.LossSpec

end
-- ==== Proof.KernelTail.lean ====
/-
  What the kernel program's host operations after its pallas_call compute.

  After the region that writes the row maxima (buffer `main_v0`), the program runs 129 host operations in seven
  stretches: a broadcast of the targets, the gather of the target logit, a slice of the first 128 columns, the gather
  of the sampled logits from that slice, the two subtractions of the row maximum together with the gather of the
  sampling table's rows, the gather of the sampling probabilities, and the shared tail.  For an arbitrary valuation
  `W` of the buffers before these operations, the last buffer `main_v51` ends at `Cert.LossSpec.kernelLoss` of the
  four arguments and of `main_v0` as `W` holds them, and the arguments and `main_v0` are left as they were.

  Each stretch is evaluated on its own: its result buffer as the specification's function of the buffers it reads
  (`res0` … `res6`), and every buffer it does not write unchanged (`keep0` … `keep6`).  The whole is their
  composition, the valuation threaded through the stretches.
-/
import proofs.«429815_j3599182594545_3_alg».proof.Proof.LossSpec
import proofs.«429815_j3599182594545_3_alg».proof.Proof.Gen.KernelIdeal.Launch
import Idealize.ShloMosaic.Lib.StableHlo.Run
import Idealize.ShloMosaic.Lib.Pipeline.Frame

noncomputable section

namespace Cert.KernelTail

open Idealize.ShloMosaic Idealize.ShloMosaic.StableHlo
open Cert.KernelIdeal Cert.KernelIdeal.Gen Cert.LossSpec

variable {F : FTy → Type} [FloatOps F] [Cert.KernelIdeal.Facts]

/-- The seven stretches of host operations after the kernel's region. -/
abbrev tailOps : List (List (HloOp Cert.KernelIdeal.τ Cert.KernelIdeal.sig (Elt F))) :=
  [Gen.hostOps1, Gen.hostOps1_1, Gen.hostOps1_2, Gen.hostOps1_3, Gen.hostOps1_4, Gen.hostOps1_5, Gen.hostOps1_6]

/-! ## Each stretch's result, as a function of the buffers it reads -/

/-- Stretch 0: the targets as a column. -/
theorem res0 (V : Valuation τ sig (Elt F)) :
    after (hostOps1 (F := F)) V (Proc.devRef .tc main_v1)
      = broadcastInDim S8192x1 ![0] Facts₀.bcast_S8192_S8192x1_0 (V (Proc.devRef .tc main_arg2)) := by
  after_results

set_option maxRecDepth 65536 in
/-- Stretch 1: the target logit of each row. -/
theorem res1 (V : Valuation τ sig (Elt F)) :
    after (hostOps1_1 (F := F)) V (Proc.devRef .tc main_v2)
      = takeY (V (Proc.devRef .tc main_arg0)) (V (Proc.devRef .tc main_v1)) := by
  after_results_simp
  rfl

/-- Stretch 2: the first 128 columns. -/
theorem res2 (V : Valuation τ sig (Elt F)) :
    after (hostOps1_2 (F := F)) V (Proc.devRef .tc main_v3)
      = extractStridedSlice S8192x128 ![0, 0] (V (Proc.devRef .tc main_arg0)) Facts₀.slices_S8192x32000_S8192x128_0_0 := by
  after_results

set_option maxRecDepth 65536 in
/-- Stretch 3: the five sampled logits of each row, read from the first 128 columns. -/
theorem res3 (V : Valuation τ sig (Elt F)) :
    after (hostOps1_3 (F := F)) V (Proc.devRef .tc main_v4)
      = take128 (V (Proc.devRef .tc main_v3)) (V (Proc.devRef .tc main_arg3)) := by
  after_results_simp
  rfl

/-- Stretch 4: the target logit less the row maximum, -/
theorem res4_v5 (V : Valuation τ sig (Elt F)) :
    after (hostOps1_4 (F := F)) V (Proc.devRef .tc main_v5)
      = subf (V (Proc.devRef .tc main_v2)) (V (Proc.devRef .tc main_v0)) := by
  after_results_simp

/-- the sampled logits less the row maximum, -/
theorem res4_v7 (V : Valuation τ sig (Elt F)) :
    after (hostOps1_4 (F := F)) V (Proc.devRef .tc main_v7)
      = subf (V (Proc.devRef .tc main_v4))
          (broadcastInDim S8192x5 ![0, 1] Facts₀.bcast_S8192x1_S8192x5_0_1 (V (Proc.devRef .tc main_v0))) := by
  after_results_simp

set_option maxRecDepth 65536 in
/-- and the sampling table's rows at the targets. -/
theorem res4_v14 (V : Valuation τ sig (Elt F)) :
    after (hostOps1_4 (F := F)) V (Proc.devRef .tc main_v14)
      = probRows (V (Proc.devRef .tc main_arg1)) (V (Proc.devRef .tc main_arg2)) := by
  after_results_simp
  rfl

set_option maxRecDepth 65536 in
/-- Stretch 5: the five sampling probabilities of each row. -/
theorem res5 (V : Valuation τ sig (Elt F)) :
    after (hostOps1_5 (F := F)) V (Proc.devRef .tc main_v15)
      = take100 (V (Proc.devRef .tc main_v14)) (V (Proc.devRef .tc main_arg3)) := by
  after_results_simp
  rfl

set_option maxRecDepth 65536 in
set_option maxHeartbeats 4000000 in
/-- Stretch 6: the shared tail, from the two shifted logit arrays and the sampling probabilities. -/
theorem res6 (V : Valuation τ sig (Elt F)) :
    after (hostOps1_6 (F := F)) V (Proc.devRef .tc main_v51)
      = lossTail (V (Proc.devRef .tc main_v5)) (V (Proc.devRef .tc main_v7)) (V (Proc.devRef .tc main_v15)) := by
  after_results
  rfl

/-! ## What each stretch writes, and that it leaves every other buffer alone -/

/-- The buffers stretch 0 writes. -/
abbrev W0 : List (Ref sig .tc) := [main_v1]
theorem writes0 : (hostOps1 : List (HloOp τ sig (Elt F))).Forall fun op => op.writes ⊆ (W0.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))
/-- Stretch 0 leaves a buffer it does not write as it was. -/
theorem keep0 (V : Valuation τ sig (Elt F)) (r : Ref sig .tc) (h : r ∉ W0) :
    after (hostOps1 (F := F)) V (Proc.devRef .tc r) = V (Proc.devRef .tc r) :=
  after_of_writes_sub hostOps1 V writes0 h

/-- The buffers stretch 1 writes. -/
abbrev W1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v2]
theorem writes1 : (hostOps1_1 : List (HloOp τ sig (Elt F))).Forall fun op => op.writes ⊆ (W1.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- Stretch 1 leaves a buffer it does not write as it was. -/
theorem keep1 (V : Valuation τ sig (Elt F)) (r : Ref sig .tc) (h : r ∉ W1) :
    after (hostOps1_1 (F := F)) V (Proc.devRef .tc r) = V (Proc.devRef .tc r) :=
  after_of_writes_sub hostOps1_1 V writes1 h

/-- The buffers stretch 2 writes. -/
abbrev W2 : List (Ref sig .tc) := [main_v3]
theorem writes2 : (hostOps1_2 : List (HloOp τ sig (Elt F))).Forall fun op => op.writes ⊆ (W2.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))
/-- Stretch 2 leaves a buffer it does not write as it was. -/
theorem keep2 (V : Valuation τ sig (Elt F)) (r : Ref sig .tc) (h : r ∉ W2) :
    after (hostOps1_2 (F := F)) V (Proc.devRef .tc r) = V (Proc.devRef .tc r) :=
  after_of_writes_sub hostOps1_2 V writes2 h

/-- The buffers stretch 3 writes. -/
abbrev W3 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v4]
theorem writes3 : (hostOps1_3 : List (HloOp τ sig (Elt F))).Forall fun op => op.writes ⊆ (W3.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- Stretch 3 leaves a buffer it does not write as it was. -/
theorem keep3 (V : Valuation τ sig (Elt F)) (r : Ref sig .tc) (h : r ∉ W3) :
    after (hostOps1_3 (F := F)) V (Proc.devRef .tc r) = V (Proc.devRef .tc r) :=
  after_of_writes_sub hostOps1_3 V writes3 h

/-- The buffers stretch 4 writes. -/
abbrev W4 : List (Ref sig .tc) := [main_v5, main_v6, main_v7, main_c, main_v8, main_v9, main_c_0, main_v10, main_v11, main_v12, main_v13, main_v14]
theorem writes4 : (hostOps1_4 : List (HloOp τ sig (Elt F))).Forall fun op => op.writes ⊆ (W4.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- Stretch 4 leaves a buffer it does not write as it was. -/
theorem keep4 (V : Valuation τ sig (Elt F)) (r : Ref sig .tc) (h : r ∉ W4) :
    after (hostOps1_4 (F := F)) V (Proc.devRef .tc r) = V (Proc.devRef .tc r) :=
  after_of_writes_sub hostOps1_4 V writes4 h

/-- The buffers stretch 5 writes. -/
abbrev W5 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v15]
theorem writes5 : (hostOps1_5 : List (HloOp τ sig (Elt F))).Forall fun op => op.writes ⊆ (W5.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- Stretch 5 leaves a buffer it does not write as it was. -/
theorem keep5 (V : Valuation τ sig (Elt F)) (r : Ref sig .tc) (h : r ∉ W5) :
    after (hostOps1_5 (F := F)) V (Proc.devRef .tc r) = V (Proc.devRef .tc r) :=
  after_of_writes_sub hostOps1_5 V writes5 h

/-- The buffers stretch 6 writes. -/
abbrev W6 : List (Ref sig .tc) := [main_cst, main_v16, main_v17, main_v18, main_v19, main_cst_1, main_v20, main_v21, main_v22, main_v23, main_v24, main_cst_2, main_v25, main_v26, main_v27, main_v28, main_cst_3, main_v29, main_v30, main_cst_4, main_v31, main_c_5, main_v32, main_c_6, main_v33, main_v34, main_cst_7, main_v35, main_cst_8, main_v36, main_v37, main_v38, main_v39, main_v40, main_cst_9, main_v41, main_v42, main_v43, main_cst_10, main_v44, main_v45, main_v46, main_v47, main_v48, main_cst_11, main_v49, main_cst_12, main_v50, main_v51]
theorem writes6 : (hostOps1_6 : List (HloOp τ sig (Elt F))).Forall fun op => op.writes ⊆ (W6.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- Stretch 6 leaves a buffer it does not write as it was. -/
theorem keep6 (V : Valuation τ sig (Elt F)) (r : Ref sig .tc) (h : r ∉ W6) :
    after (hostOps1_6 (F := F)) V (Proc.devRef .tc r) = V (Proc.devRef .tc r) :=
  after_of_writes_sub hostOps1_6 V writes6 h

/-! ## The seven stretches composed -/

/-- After the seven stretches the last buffer holds the specification's loss of the arguments and of the row maxima
    as the valuation held them before. -/
theorem tail_eval (W : Valuation Cert.KernelIdeal.τ Cert.KernelIdeal.sig (Elt F)) :
    StableHlo.after (tailOps (F := F)).flatten W (Proc.devRef .tc main_v51)
      = Cert.LossSpec.kernelLoss (W (Proc.devRef .tc main_arg0)) (W (Proc.devRef .tc main_arg1))
          (W (Proc.devRef .tc main_arg2)) (W (Proc.devRef .tc main_arg3)) (W (Proc.devRef .tc main_v0)) := by
  simp only [tailOps, List.flatten_cons, List.flatten_nil, List.append_nil, StableHlo.after_append]
  rw [res6]
  rw [keep5 _ main_v5 (by decide), keep5 _ main_v7 (by decide), res5]
  rw [res4_v5, res4_v7, res4_v14, keep4 _ main_arg3 (by decide)]
  rw [keep3 _ main_v2 (by decide), keep3 _ main_v0 (by decide), res3, keep3 _ main_arg1 (by decide), keep3 _ main_arg2 (by decide), keep3 _ main_arg3 (by decide)]
  rw [keep2 _ main_v2 (by decide), keep2 _ main_v0 (by decide), res2, keep2 _ main_arg3 (by decide), keep2 _ main_arg1 (by decide), keep2 _ main_arg2 (by decide)]
  rw [res1, keep1 _ main_v0 (by decide), keep1 _ main_arg0 (by decide), keep1 _ main_arg3 (by decide), keep1 _ main_arg1 (by decide), keep1 _ main_arg2 (by decide)]
  rw [res0, keep0 _ main_arg0 (by decide), keep0 _ main_v0 (by decide), keep0 _ main_arg3 (by decide), keep0 _ main_arg1 (by decide), keep0 _ main_arg2 (by decide)]
  rfl

/-- The seven stretches write none of the four arguments and not the row maxima. -/
theorem tail_keeps_args (W : Valuation Cert.KernelIdeal.τ Cert.KernelIdeal.sig (Elt F)) :
    StableHlo.after (tailOps (F := F)).flatten W (Proc.devRef .tc main_arg0) = W (Proc.devRef .tc main_arg0)
    ∧ StableHlo.after (tailOps (F := F)).flatten W (Proc.devRef .tc main_arg1) = W (Proc.devRef .tc main_arg1)
    ∧ StableHlo.after (tailOps (F := F)).flatten W (Proc.devRef .tc main_arg2) = W (Proc.devRef .tc main_arg2)
    ∧ StableHlo.after (tailOps (F := F)).flatten W (Proc.devRef .tc main_arg3) = W (Proc.devRef .tc main_arg3)
    ∧ StableHlo.after (tailOps (F := F)).flatten W (Proc.devRef .tc main_v0) = W (Proc.devRef .tc main_v0) := by
  simp only [tailOps, List.flatten_cons, List.flatten_nil, List.append_nil, StableHlo.after_append]
  refine ⟨?_, ?_, ?_, ?_, ?_⟩
  · rw [keep6 _ main_arg0 (by decide), keep5 _ main_arg0 (by decide), keep4 _ main_arg0 (by decide), keep3 _ main_arg0 (by decide), keep2 _ main_arg0 (by decide), keep1 _ main_arg0 (by decide), keep0 _ main_arg0 (by decide)]
  · rw [keep6 _ main_arg1 (by decide), keep5 _ main_arg1 (by decide), keep4 _ main_arg1 (by decide), keep3 _ main_arg1 (by decide), keep2 _ main_arg1 (by decide), keep1 _ main_arg1 (by decide), keep0 _ main_arg1 (by decide)]
  · rw [keep6 _ main_arg2 (by decide), keep5 _ main_arg2 (by decide), keep4 _ main_arg2 (by decide), keep3 _ main_arg2 (by decide), keep2 _ main_arg2 (by decide), keep1 _ main_arg2 (by decide), keep0 _ main_arg2 (by decide)]
  · rw [keep6 _ main_arg3 (by decide), keep5 _ main_arg3 (by decide), keep4 _ main_arg3 (by decide), keep3 _ main_arg3 (by decide), keep2 _ main_arg3 (by decide), keep1 _ main_arg3 (by decide), keep0 _ main_arg3 (by decide)]
  · rw [keep6 _ main_v0 (by decide), keep5 _ main_v0 (by decide), keep4 _ main_v0 (by decide), keep3 _ main_v0 (by decide), keep2 _ main_v0 (by decide), keep1 _ main_v0 (by decide), keep0 _ main_v0 (by decide)]

end Cert.KernelTail

end
-- ==== Proof.IdealLoss.lean ====
/-
  The loss the kernel program ends with: the host operations after the region compute, from the argument arrays and
  the region's result, the loss of the raw gathers shifted by the row maxima; the region's result is the array of row
  suprema, which is what the reference's row-maximum reduction computes.
-/
import proofs.«429815_j3599182594545_3_alg».proof.Proof.IdealRowMax
import proofs.«429815_j3599182594545_3_alg».proof.Proof.LossSpec
import proofs.«429815_j3599182594545_3_alg».proof.Proof.Gen.ReferenceIdeal
import proofs.«429815_j3599182594545_3_alg».proof.Proof.KernelTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- The array of row suprema is the reference's row-maximum reduction of the logits, kept as a column. -/
theorem rowMaxArr_eq_ref (c : Dev nD) :
    rowMaxArr m c = Cert.LossSpec.rowMaxRef (F := Ideal) (m ((c : Thread nD τ).loc main_arg0)) := by
  funext j
  unfold Cert.LossSpec.rowMaxRef
  exact (rowMaxArr_apply m c j).trans (Cert.RowMaxSpec.ref_rowMax _ _ _ (m ((c : Thread nD τ).loc main_arg0)) j).symm

/-- The loss buffer at the end of the run. -/
theorem loss_value  (c : Dev nD) :
    Pipeline.afterTail₀ cfgs (dats m) 0 (V0 m) tailOps c main_v51
      = Cert.LossSpec.kernelLoss (F := Ideal) (m ((c : Thread nD τ).loc main_arg0)) (m ((c : Thread nD τ).loc main_arg1))
          (m ((c : Thread nD τ).loc main_arg2)) (m ((c : Thread nD τ).loc main_arg3)) (rowMaxArr m c) := by
  unfold Pipeline.afterTail₀
  refine (Cert.KernelTail.tail_eval _).trans ?_
  have h0 : Pipeline.withArrays (cfgs 0).spec c (V0 m c) (fun w => (dats m 0 c).arrAt w (cfgs 0).N) (Proc.devRef .tc main_arg0)
      = m ((c : Thread nD τ).loc main_arg0) :=
    (Pipeline.withArrays_arr spec0 launch0.win.arr_inj c (V0 m c) _ 0).trans
      (((dats m 0 c).arrAt_in 0 rfl _).trans ((A_eq m c 0).trans (V_main_arg0 m c)))
  have hv : Pipeline.withArrays (cfgs 0).spec c (V0 m c) (fun w => (dats m 0 c).arrAt w (cfgs 0).N) (Proc.devRef .tc main_v0)
      = rowMaxArr m c :=
    (Pipeline.withArrays_arr spec0 launch0.win.arr_inj c (V0 m c) _ 1).trans (rowmax_arr m c)
  have h1 : Pipeline.withArrays (cfgs 0).spec c (V0 m c) (fun w => (dats m 0 c).arrAt w (cfgs 0).N) (Proc.devRef .tc main_arg1)
      = m ((c : Thread nD τ).loc main_arg1) :=
    Pipeline.withArrays_of_ne spec0 c (V0 m c) _ main_arg1 (by decide)
  have h2 : Pipeline.withArrays (cfgs 0).spec c (V0 m c) (fun w => (dats m 0 c).arrAt w (cfgs 0).N) (Proc.devRef .tc main_arg2)
      = m ((c : Thread nD τ).loc main_arg2) :=
    Pipeline.withArrays_of_ne spec0 c (V0 m c) _ main_arg2 (by decide)
  have h3 : Pipeline.withArrays (cfgs 0).spec c (V0 m c) (fun w => (dats m 0 c).arrAt w (cfgs 0).N) (Proc.devRef .tc main_arg3)
      = m ((c : Thread nD τ).loc main_arg3) :=
    Pipeline.withArrays_of_ne spec0 c (V0 m c) _ main_arg3 (by decide)
  rw [h0, hv, h1, h2, h3]

end Cert.KernelIdeal.Hand

end
-- ==== Proof.RefRun.lean ====
/-
  The reference program's run, by hand: its @main as the list of its 130 host operations (a called function's
  operations standing in its call's place), cut into seven stretches along the program's structure, and the run read
  back over the concatenation: every weakly fair execution terminates with each buffer at the fold of the operations'
  results over its launch contents. The operations' text is the printed program's; the stretches' side conditions
  (every buffer touched is a TensorCore reference; no operation allocates) are proved per stretch and joined.
-/
import proofs.«429815_j3599182594545_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch 1 of 7 (6 operations): the row maximum, the shifted logits and the label column (before the first call). -/
abbrev opsA : List (HloOp τ sig (Elt F)) :=
  [ nullary main_cst (constant S_ .f32 0xFF800000#32),
    binary main_arg0 main_cst main_v0 ((fun x v => Host.reduce FloatOps.maximumf x v reducesTo_S8192x32000_S8192_d1 h_S_) : (⟨S8192x32000, .f32⟩ : BufTy).Contents (Elt F) → (⟨S_, .f32⟩ : BufTy).Contents (Elt F) → (⟨S8192, .f32⟩ : BufTy).Contents (Elt F)),
    unary main_v0 main_v1 (broadcastInDim S8192x1 ![0] bcast_S8192_S8192x1_0 : (⟨S8192, .f32⟩ : BufTy).Contents (Elt F) → (⟨S8192x1, .f32⟩ : BufTy).Contents (Elt F)),
    unary main_v1 main_v2 (broadcastInDim S8192x32000 ![0, 1] bcast_S8192x1_S8192x32000_0_1 : (⟨S8192x1, .f32⟩ : BufTy).Contents (Elt F) → (⟨S8192x32000, .f32⟩ : BufTy).Contents (Elt F)),
    binary main_arg0 main_v2 main_v3 (subf : (⟨S8192x32000, .f32⟩ : BufTy).Contents (Elt F) → (⟨S8192x32000, .f32⟩ : BufTy).Contents (Elt F) → (⟨S8192x32000, .f32⟩ : BufTy).Contents (Elt F)),
    unary main_arg2 main_v4 (broadcastInDim S8192x1 ![0] bcast_S8192_S8192x1_0 : (⟨S8192, .i32⟩ : BufTy).Contents (Elt F) → (⟨S8192x1, .i32⟩ : BufTy).Contents (Elt F)) ]

/-- Stretch 2 of 7 (22 operations): `take_along_axis` of the shifted logits at the label column, its operations inline (into `main_v5`). -/
abbrev opsB : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S8192x1, .i32⟩) main_call0_v0) (broadcastInDim S8192x1 ![] bcast_S_S8192x1),
    TRef.binary (TRef.of (T := ⟨S8192x1, .i32⟩) main_v4) (TRef.of (T := ⟨S8192x1, .i32⟩) main_call0_v0) (TRef.of (T := ⟨S8192x1, .i1⟩) main_call0_v1) (cmpi .slt),
    TRef.nullary (TRef.of (T := ⟨S_, .i32⟩) main_call0_c_0) (constantI S_ 32 32000#32),
    TRef.unary (TRef.of (T := ⟨S_, .i32⟩) main_call0_c_0) (TRef.of (T := ⟨S8192x1, .i32⟩) main_call0_v2) (broadcastInDim S8192x1 ![] bcast_S_S8192x1),
    TRef.binary (TRef.of (T := ⟨S8192x1, .i32⟩) main_v4) (TRef.of (T := ⟨S8192x1, .i32⟩) main_call0_v2) (TRef.of (T := ⟨S8192x1, .i32⟩) main_call0_v3) addi,
    TRef.ternary (TRef.of (T := ⟨S8192x1, .i1⟩) main_call0_v1) (TRef.of (T := ⟨S8192x1, .i32⟩) main_call0_v3) (TRef.of (T := ⟨S8192x1, .i32⟩) main_v4) (TRef.of (T := ⟨S8192x1, .i32⟩) main_call0_v4) select,
    TRef.reshape (TRef.of (T := ⟨S8192x1, .i32⟩) main_call0_v4) (TRef.of (T := ⟨S8192x1x1, .i32⟩) main_call0_v5) rfl shapeCasts_S8192x1_S8192x1x1,
    TRef.nullary (TRef.of (T := ⟨S1, .i32⟩) main_call0_c_1) (constantI S1 32 31999#32),
    TRef.nullary (TRef.of (T := ⟨S_, .i32⟩) main_call0_c_2) (constantI S_ 32 0#32),
    TRef.unary (TRef.of (T := ⟨S_, .i32⟩) main_call0_c_2) (TRef.of (T := ⟨S8192x1x1, .i32⟩) main_call0_v6) (broadcastInDim S8192x1x1 ![] bcast_S_S8192x1x1),
    TRef.binary (TRef.of (T := ⟨S8192x1x1, .i32⟩) main_call0_v5) (TRef.of (T := ⟨S8192x1x1, .i32⟩) main_call0_v6) (TRef.of (T := ⟨S8192x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S8192x1x1, .i32⟩) main_call0_v9) (broadcastInDim S8192x1x1 ![0, 1, 2] bcast_S1x1x1_S8192x1x1_0_1_2),
    TRef.binary (TRef.of (T := ⟨S8192x1x1, .i32⟩) main_call0_v5) (TRef.of (T := ⟨S8192x1x1, .i32⟩) main_call0_v9) (TRef.of (T := ⟨S8192x1x1, .i1⟩) main_call0_v10) (cmpi .sle),
    TRef.binary (TRef.of (T := ⟨S8192x1x1, .i1⟩) main_call0_v7) (TRef.of (T := ⟨S8192x1x1, .i1⟩) main_call0_v10) (TRef.of (T := ⟨S8192x1x1, .i1⟩) main_call0_v11) andi,
    TRef.nullary (TRef.of (T := ⟨S_, .i1⟩) main_call0_c_3) (constantI S_ 1 1#1),
    TRef.binary (TRef.of (T := ⟨S8192x1x1, .i1⟩) main_call0_v11) (TRef.of (T := ⟨S_, .i1⟩) main_call0_c_3) (TRef.of (T := ⟨S8192x1, .i1⟩) main_call0_v12) (fun x v => Host.reduce IntOp.andi x v reducesTo_S8192x1x1_S8192x1_d2 h_S_),
    TRef.binary (TRef.of (T := ⟨S8192x32000, .f32⟩) main_v3) (TRef.of (T := ⟨S8192x1x1, .i32⟩) main_call0_v5) (TRef.of (T := ⟨S8192x1, .f32⟩) main_call0_v13) (fun x i => Host.gather gather_S8192x32000_S8192x1x1_S8192x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S8192x1, .f32⟩) main_call0_v14) (broadcastInDim S8192x1 ![] bcast_S_S8192x1),
    TRef.ternary (TRef.of (T := ⟨S8192x1, .i1⟩) main_call0_v12) (TRef.of (T := ⟨S8192x1, .f32⟩) main_call0_v13) (TRef.of (T := ⟨S8192x1, .f32⟩) main_call0_v14) (TRef.of (T := ⟨S8192x1, .f32⟩) main_v5) select ]

/-- Stretch 3 of 7 (22 operations): `take_along_axis` of the shifted logits at the index array (into `main_v6`). -/
abbrev opsC : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S8192x5, .i32⟩) main_call1_v0) (broadcastInDim S8192x5 ![] bcast_S_S8192x5),
    TRef.binary (TRef.of (T := ⟨S8192x5, .i32⟩) main_arg3) (TRef.of (T := ⟨S8192x5, .i32⟩) main_call1_v0) (TRef.of (T := ⟨S8192x5, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S8192x5, .i32⟩) main_call1_v2) (broadcastInDim S8192x5 ![] bcast_S_S8192x5),
    TRef.binary (TRef.of (T := ⟨S8192x5, .i32⟩) main_arg3) (TRef.of (T := ⟨S8192x5, .i32⟩) main_call1_v2) (TRef.of (T := ⟨S8192x5, .i32⟩) main_call1_v3) addi,
    TRef.ternary (TRef.of (T := ⟨S8192x5, .i1⟩) main_call1_v1) (TRef.of (T := ⟨S8192x5, .i32⟩) main_call1_v3) (TRef.of (T := ⟨S8192x5, .i32⟩) main_arg3) (TRef.of (T := ⟨S8192x5, .i32⟩) main_call1_v4) select,
    TRef.reshape (TRef.of (T := ⟨S8192x5, .i32⟩) main_call1_v4) (TRef.of (T := ⟨S8192x5x1, .i32⟩) main_call1_v5) rfl shapeCasts_S8192x5_S8192x5x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S8192x5x1, .i32⟩) main_call1_v6) (broadcastInDim S8192x5x1 ![] bcast_S_S8192x5x1),
    TRef.binary (TRef.of (T := ⟨S8192x5x1, .i32⟩) main_call1_v5) (TRef.of (T := ⟨S8192x5x1, .i32⟩) main_call1_v6) (TRef.of (T := ⟨S8192x5x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x5x1, .i32⟩) main_call1_v9) (broadcastInDim S8192x5x1 ![0, 1, 2] bcast_S1x1x1_S8192x5x1_0_1_2),
    TRef.binary (TRef.of (T := ⟨S8192x5x1, .i32⟩) main_call1_v5) (TRef.of (T := ⟨S8192x5x1, .i32⟩) main_call1_v9) (TRef.of (T := ⟨S8192x5x1, .i1⟩) main_call1_v10) (cmpi .sle),
    TRef.binary (TRef.of (T := ⟨S8192x5x1, .i1⟩) main_call1_v7) (TRef.of (T := ⟨S8192x5x1, .i1⟩) main_call1_v10) (TRef.of (T := ⟨S8192x5x1, .i1⟩) main_call1_v11) andi,
    TRef.nullary (TRef.of (T := ⟨S_, .i1⟩) main_call1_c_3) (constantI S_ 1 1#1),
    TRef.binary (TRef.of (T := ⟨S8192x5x1, .i1⟩) main_call1_v11) (TRef.of (T := ⟨S_, .i1⟩) main_call1_c_3) (TRef.of (T := ⟨S8192x5, .i1⟩) main_call1_v12) (fun x v => Host.reduce IntOp.andi x v reducesTo_S8192x5x1_S8192x5_d2 h_S_),
    TRef.binary (TRef.of (T := ⟨S8192x32000, .f32⟩) main_v3) (TRef.of (T := ⟨S8192x5x1, .i32⟩) main_call1_v5) (TRef.of (T := ⟨S8192x5, .f32⟩) main_call1_v13) (fun x i => Host.gather gather_S8192x32000_S8192x5x1_S8192x5_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x5, .f32⟩) main_call1_v14) (broadcastInDim S8192x5 ![] bcast_S_S8192x5),
    TRef.ternary (TRef.of (T := ⟨S8192x5, .i1⟩) main_call1_v12) (TRef.of (T := ⟨S8192x5, .f32⟩) main_call1_v13) (TRef.of (T := ⟨S8192x5, .f32⟩) main_call1_v14) (TRef.of (T := ⟨S8192x5, .f32⟩) main_v6) select ]

/-- Stretch 4 of 7 (9 operations): the label wrapped and the probability table's rows gathered at it (into `main_v13`). -/
abbrev opsD : List (HloOp τ sig (Elt F)) :=
  [ nullary main_c (constantI S_ 32 0#32),
    unary main_c main_v7 (broadcastInDim S8192 ![] bcast_S_S8192 : (⟨S_, .i32⟩ : BufTy).Contents (Elt F) → (⟨S8192, .i32⟩ : BufTy).Contents (Elt F)),
    binary main_arg2 main_v7 main_v8 (cmpi .slt : (⟨S8192, .i32⟩ : BufTy).Contents (Elt F) → (⟨S8192, .i32⟩ : BufTy).Contents (Elt F) → (⟨S8192, .i1⟩ : BufTy).Contents (Elt F)),
    nullary main_c_0 (constantI S_ 32 32000#32),
    unary main_c_0 main_v9 (broadcastInDim S8192 ![] bcast_S_S8192 : (⟨S_, .i32⟩ : BufTy).Contents (Elt F) → (⟨S8192, .i32⟩ : BufTy).Contents (Elt F)),
    binary main_arg2 main_v9 main_v10 (addi : (⟨S8192, .i32⟩ : BufTy).Contents (Elt F) → (⟨S8192, .i32⟩ : BufTy).Contents (Elt F) → (⟨S8192, .i32⟩ : BufTy).Contents (Elt F)),
    ternary main_v8 main_v10 main_arg2 main_v11 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v11 main_v12 (broadcastInDim S8192x1 ![0] bcast_S8192_S8192x1_0 : (⟨S8192, .i32⟩ : BufTy).Contents (Elt F) → (⟨S8192x1, .i32⟩ : BufTy).Contents (Elt F)),
    binary main_arg1 main_v12 main_v13 ((fun x i => Host.gather gather_S32000x100_S8192x1_S8192x100_1_0_n_n_0_1_1100 x i) : (⟨S32000x100, .f32⟩ : BufTy).Contents (Elt F) → (⟨S8192x1, .i32⟩ : BufTy).Contents (Elt F) → (⟨S8192x100, .f32⟩ : BufTy).Contents (Elt F)) ]

/-- Stretch 5 of 7 (22 operations): `take_along_axis` of the gathered rows at the index array (into `main_v14`). -/
abbrev opsE : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S8192x5, .i32⟩) main_call2_v0) (broadcastInDim S8192x5 ![] bcast_S_S8192x5),
    TRef.binary (TRef.of (T := ⟨S8192x5, .i32⟩) main_arg3) (TRef.of (T := ⟨S8192x5, .i32⟩) main_call2_v0) (TRef.of (T := ⟨S8192x5, .i1⟩) main_call2_v1) (cmpi .slt),
    TRef.nullary (TRef.of (T := ⟨S_, .i32⟩) main_call2_c_0) (constantI S_ 32 100#32),
    TRef.unary (TRef.of (T := ⟨S_, .i32⟩) main_call2_c_0) (TRef.of (T := ⟨S8192x5, .i32⟩) main_call2_v2) (broadcastInDim S8192x5 ![] bcast_S_S8192x5),
    TRef.binary (TRef.of (T := ⟨S8192x5, .i32⟩) main_arg3) (TRef.of (T := ⟨S8192x5, .i32⟩) main_call2_v2) (TRef.of (T := ⟨S8192x5, .i32⟩) main_call2_v3) addi,
    TRef.ternary (TRef.of (T := ⟨S8192x5, .i1⟩) main_call2_v1) (TRef.of (T := ⟨S8192x5, .i32⟩) main_call2_v3) (TRef.of (T := ⟨S8192x5, .i32⟩) main_arg3) (TRef.of (T := ⟨S8192x5, .i32⟩) main_call2_v4) select,
    TRef.reshape (TRef.of (T := ⟨S8192x5, .i32⟩) main_call2_v4) (TRef.of (T := ⟨S8192x5x1, .i32⟩) main_call2_v5) rfl shapeCasts_S8192x5_S8192x5x1,
    TRef.nullary (TRef.of (T := ⟨S1, .i32⟩) main_call2_c_1) (constantI S1 32 99#32),
    TRef.nullary (TRef.of (T := ⟨S_, .i32⟩) main_call2_c_2) (constantI S_ 32 0#32),
    TRef.unary (TRef.of (T := ⟨S_, .i32⟩) main_call2_c_2) (TRef.of (T := ⟨S8192x5x1, .i32⟩) main_call2_v6) (broadcastInDim S8192x5x1 ![] bcast_S_S8192x5x1),
    TRef.binary (TRef.of (T := ⟨S8192x5x1, .i32⟩) main_call2_v5) (TRef.of (T := ⟨S8192x5x1, .i32⟩) main_call2_v6) (TRef.of (T := ⟨S8192x5x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8192x5x1, .i32⟩) main_call2_v9) (broadcastInDim S8192x5x1 ![0, 1, 2] bcast_S1x1x1_S8192x5x1_0_1_2),
    TRef.binary (TRef.of (T := ⟨S8192x5x1, .i32⟩) main_call2_v5) (TRef.of (T := ⟨S8192x5x1, .i32⟩) main_call2_v9) (TRef.of (T := ⟨S8192x5x1, .i1⟩) main_call2_v10) (cmpi .sle),
    TRef.binary (TRef.of (T := ⟨S8192x5x1, .i1⟩) main_call2_v7) (TRef.of (T := ⟨S8192x5x1, .i1⟩) main_call2_v10) (TRef.of (T := ⟨S8192x5x1, .i1⟩) main_call2_v11) andi,
    TRef.nullary (TRef.of (T := ⟨S_, .i1⟩) main_call2_c_3) (constantI S_ 1 1#1),
    TRef.binary (TRef.of (T := ⟨S8192x5x1, .i1⟩) main_call2_v11) (TRef.of (T := ⟨S_, .i1⟩) main_call2_c_3) (TRef.of (T := ⟨S8192x5, .i1⟩) main_call2_v12) (fun x v => Host.reduce IntOp.andi x v reducesTo_S8192x5x1_S8192x5_d2 h_S_),
    TRef.binary (TRef.of (T := ⟨S8192x100, .f32⟩) main_v13) (TRef.of (T := ⟨S8192x5x1, .i32⟩) main_call2_v5) (TRef.of (T := ⟨S8192x5, .f32⟩) main_call2_v13) (fun x i => Host.gather gather_S8192x100_S8192x5x1_S8192x5_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S8192x5, .f32⟩) main_call2_v14) (broadcastInDim S8192x5 ![] bcast_S_S8192x5),
    TRef.ternary (TRef.of (T := ⟨S8192x5, .i1⟩) main_call2_v12) (TRef.of (T := ⟨S8192x5, .f32⟩) main_call2_v13) (TRef.of (T := ⟨S8192x5, .f32⟩) main_call2_v14) (TRef.of (T := ⟨S8192x5, .f32⟩) main_v14) select ]

/-- Stretch 6 of 7 (10 operations): the weights, the exponentials and their products, up to the two operands of the concatenate. -/
abbrev opsF : List (HloOp τ sig (Elt F)) :=
  [ nullary main_cst_1 (constant S_ .f32 0x3F800000#32),
    unary main_cst_1 main_v15 (broadcastInDim S8192x5 ![] bcast_S_S8192x5 : (⟨S_, .f32⟩ : BufTy).Contents (Elt F) → (⟨S8192x5, .f32⟩ : BufTy).Contents (Elt F)),
    binary main_v15 main_v14 main_v16 (Host.divf : (⟨S8192x5, .f32⟩ : BufTy).Contents (Elt F) → (⟨S8192x5, .f32⟩ : BufTy).Contents (Elt F) → (⟨S8192x5, .f32⟩ : BufTy).Contents (Elt F)),
    unary main_v6 main_v17 (Host.exp : (⟨S8192x5, .f32⟩ : BufTy).Contents (Elt F) → (⟨S8192x5, .f32⟩ : BufTy).Contents (Elt F)),
    binary main_v16 main_v17 main_v18 (mulf : (⟨S8192x5, .f32⟩ : BufTy).Contents (Elt F) → (⟨S8192x5, .f32⟩ : BufTy).Contents (Elt F) → (⟨S8192x5, .f32⟩ : BufTy).Contents (Elt F)),
    nullary main_cst_2 (constant S_ .f32 0x7F800000#32),
    binary main_v16 main_cst_2 main_v19 ((fun x v => Host.reduce FloatOps.minimumf x v reducesTo_S8192x5_S8192_d1 h_S_) : (⟨S8192x5, .f32⟩ : BufTy).Contents (Elt F) → (⟨S_, .f32⟩ : BufTy).Contents (Elt F) → (⟨S8192, .f32⟩ : BufTy).Contents (Elt F)),
    unary main_v19 main_v20 (broadcastInDim S8192x1 ![0] bcast_S8192_S8192x1_0 : (⟨S8192, .f32⟩ : BufTy).Contents (Elt F) → (⟨S8192x1, .f32⟩ : BufTy).Contents (Elt F)),
    unary main_v5 main_v21 (Host.exp : (⟨S8192x1, .f32⟩ : BufTy).Contents (Elt F) → (⟨S8192x1, .f32⟩ : BufTy).Contents (Elt F)),
    binary main_v20 main_v21 main_v22 (mulf : (⟨S8192x1, .f32⟩ : BufTy).Contents (Elt F) → (⟨S8192x1, .f32⟩ : BufTy).Contents (Elt F) → (⟨S8192x1, .f32⟩ : BufTy).Contents (Elt F)) ]

/-- Stretch 7 of 7 (39 operations): the concatenate, the normalisation, the two logarithm terms and the mean (into `main_v50`). -/
abbrev opsG : List (HloOp τ sig (Elt F)) :=
  [ binary main_v22 main_v18 main_v23 ((fun a b => concatenate S8192x6 1 [⟨S8192x1, a⟩, ⟨S8192x5, b⟩] concatenates_S8192x1_S8192x5_S8192x6_d1) : (⟨S8192x1, .f32⟩ : BufTy).Contents (Elt F) → (⟨S8192x5, .f32⟩ : BufTy).Contents (Elt F) → (⟨S8192x6, .f32⟩ : BufTy).Contents (Elt F)),
    nullary main_cst_3 (constant S_ .f32 0x00000000#32),
    binary main_v23 main_cst_3 main_v24 ((fun x v => Host.reduceAdd x v reducesTo_S8192x6_S8192_d1 h_S_) : (⟨S8192x6, .f32⟩ : BufTy).Contents (Elt F) → (⟨S_, .f32⟩ : BufTy).Contents (Elt F) → (⟨S8192, .f32⟩ : BufTy).Contents (Elt F)),
    unary main_v24 main_v25 (broadcastInDim S8192x1 ![0] bcast_S8192_S8192x1_0 : (⟨S8192, .f32⟩ : BufTy).Contents (Elt F) → (⟨S8192x1, .f32⟩ : BufTy).Contents (Elt F)),
    unary main_v25 main_v26 (broadcastInDim S8192x6 ![0, 1] bcast_S8192x1_S8192x6_0_1 : (⟨S8192x1, .f32⟩ : BufTy).Contents (Elt F) → (⟨S8192x6, .f32⟩ : BufTy).Contents (Elt F)),
    binary main_v23 main_v26 main_v27 (Host.divf : (⟨S8192x6, .f32⟩ : BufTy).Contents (Elt F) → (⟨S8192x6, .f32⟩ : BufTy).Contents (Elt F) → (⟨S8192x6, .f32⟩ : BufTy).Contents (Elt F)),
    nullary main_cst_4 (constant S_ .f32 0x3F800000#32),
    unary main_cst_4 main_v28 (broadcastInDim S8192x6 ![] bcast_S_S8192x6 : (⟨S_, .f32⟩ : BufTy).Contents (Elt F) → (⟨S8192x6, .f32⟩ : BufTy).Contents (Elt F)),
    binary main_v28 main_v27 main_v29 (subf : (⟨S8192x6, .f32⟩ : BufTy).Contents (Elt F) → (⟨S8192x6, .f32⟩ : BufTy).Contents (Elt F) → (⟨S8192x6, .f32⟩ : BufTy).Contents (Elt F)),
    nullary main_cst_5 (constant S_ .f32 0x00000000#32),
    unary main_cst_5 main_v30 (broadcastInDim S1x6 ![] bcast_S_S1x6 : (⟨S_, .f32⟩ : BufTy).Contents (Elt F) → (⟨S1x6, .f32⟩ : BufTy).Contents (Elt F)),
    nullary main_c_6 (constantI S_ 32 0#32),
    unary main_c_6 main_v31 (broadcastInDim S1 ![] bcast_S_S1 : (⟨S_, .i32⟩ : BufTy).Contents (Elt F) → (⟨S1, .i32⟩ : BufTy).Contents (Elt F)),
    nullary main_c_7 (constantI S_ 32 0#32),
    unary main_c_7 main_v32 (broadcastInDim S1 ![] bcast_S_S1 : (⟨S_, .i32⟩ : BufTy).Contents (Elt F) → (⟨S1, .i32⟩ : BufTy).Contents (Elt F)),
    binary main_v31 main_v32 main_v33 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst_8 (constant S_ .f32 0x3F800000#32),
    ternary main_v30 main_v33 main_cst_8 main_v34 ((fun x i u => Host.scatter scatter_S1x6_S2_S__n_01_01_0 (fun _ b => b) x i u) : (⟨S1x6, .f32⟩ : BufTy).Contents (Elt F) → (⟨S2, .i32⟩ : BufTy).Contents (Elt F) → (⟨S_, .f32⟩ : BufTy).Contents (Elt F) → (⟨S1x6, .f32⟩ : BufTy).Contents (Elt F)),
    nullary main_cst_9 (constant S_ .f32 0x2EDBE6FF#32),
    unary main_cst_9 main_v35 (broadcastInDim S8192x6 ![] bcast_S_S8192x6 : (⟨S_, .f32⟩ : BufTy).Contents (Elt F) → (⟨S8192x6, .f32⟩ : BufTy).Contents (Elt F)),
    binary main_v27 main_v35 main_v36 (addf : (⟨S8192x6, .f32⟩ : BufTy).Contents (Elt F) → (⟨S8192x6, .f32⟩ : BufTy).Contents (Elt F) → (⟨S8192x6, .f32⟩ : BufTy).Contents (Elt F)),
    unary main_v36 main_v37 (Host.log : (⟨S8192x6, .f32⟩ : BufTy).Contents (Elt F) → (⟨S8192x6, .f32⟩ : BufTy).Contents (Elt F)),
    unary main_v34 main_v38 (broadcastInDim S8192x6 ![0, 1] bcast_S1x6_S8192x6_0_1 : (⟨S1x6, .f32⟩ : BufTy).Contents (Elt F) → (⟨S8192x6, .f32⟩ : BufTy).Contents (Elt F)),
    binary main_v37 main_v38 main_v39 (mulf : (⟨S8192x6, .f32⟩ : BufTy).Contents (Elt F) → (⟨S8192x6, .f32⟩ : BufTy).Contents (Elt F) → (⟨S8192x6, .f32⟩ : BufTy).Contents (Elt F)),
    nullary main_cst_10 (constant S_ .f32 0x2EDBE6FF#32),
    unary main_cst_10 main_v40 (broadcastInDim S8192x6 ![] bcast_S_S8192x6 : (⟨S_, .f32⟩ : BufTy).Contents (Elt F) → (⟨S8192x6, .f32⟩ : BufTy).Contents (Elt F)),
    binary main_v29 main_v40 main_v41 (addf : (⟨S8192x6, .f32⟩ : BufTy).Contents (Elt F) → (⟨S8192x6, .f32⟩ : BufTy).Contents (Elt F) → (⟨S8192x6, .f32⟩ : BufTy).Contents (Elt F)),
    unary main_v41 main_v42 (Host.log : (⟨S8192x6, .f32⟩ : BufTy).Contents (Elt F) → (⟨S8192x6, .f32⟩ : BufTy).Contents (Elt F)),
    nullary main_cst_11 (constant S_ .f32 0x3F800000#32),
    unary main_cst_11 main_v43 (broadcastInDim S1x6 ![] bcast_S_S1x6 : (⟨S_, .f32⟩ : BufTy).Contents (Elt F) → (⟨S1x6, .f32⟩ : BufTy).Contents (Elt F)),
    binary main_v43 main_v34 main_v44 (subf : (⟨S1x6, .f32⟩ : BufTy).Contents (Elt F) → (⟨S1x6, .f32⟩ : BufTy).Contents (Elt F) → (⟨S1x6, .f32⟩ : BufTy).Contents (Elt F)),
    unary main_v44 main_v45 (broadcastInDim S8192x6 ![0, 1] bcast_S1x6_S8192x6_0_1 : (⟨S1x6, .f32⟩ : BufTy).Contents (Elt F) → (⟨S8192x6, .f32⟩ : BufTy).Contents (Elt F)),
    binary main_v42 main_v45 main_v46 (mulf : (⟨S8192x6, .f32⟩ : BufTy).Contents (Elt F) → (⟨S8192x6, .f32⟩ : BufTy).Contents (Elt F) → (⟨S8192x6, .f32⟩ : BufTy).Contents (Elt F)),
    binary main_v39 main_v46 main_v47 (addf : (⟨S8192x6, .f32⟩ : BufTy).Contents (Elt F) → (⟨S8192x6, .f32⟩ : BufTy).Contents (Elt F) → (⟨S8192x6, .f32⟩ : BufTy).Contents (Elt F)),
    nullary main_cst_12 (constant S_ .f32 0x00000000#32),
    binary main_v47 main_cst_12 main_v48 ((fun x v => Host.reduceAdd x v reducesTo_S8192x6_S_d0_1 h_S_) : (⟨S8192x6, .f32⟩ : BufTy).Contents (Elt F) → (⟨S_, .f32⟩ : BufTy).Contents (Elt F) → (⟨S_, .f32⟩ : BufTy).Contents (Elt F)),
    nullary main_cst_13 (constant S_ .f32 0x47400000#32),
    binary main_v48 main_cst_13 main_v49 (Host.divf : (⟨S_, .f32⟩ : BufTy).Contents (Elt F) → (⟨S_, .f32⟩ : BufTy).Contents (Elt F) → (⟨S_, .f32⟩ : BufTy).Contents (Elt F)),
    unary main_v49 main_v50 (Host.negf : (⟨S_, .f32⟩ : BufTy).Contents (Elt F) → (⟨S_, .f32⟩ : BufTy).Contents (Elt F)) ]

/-- @main's 130 operations, in order: the seven stretches one after the other. -/
abbrev ops : List (HloOp τ sig (Elt F)) := opsA ++ (opsB ++ (opsC ++ (opsD ++ (opsE ++ (opsF ++ opsG)))))

set_option maxRecDepth 8192 in
set_option maxHeartbeats 4000000 in
/-- The printed @main is the straight line of these operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Every buffer an operation touches is a TensorCore reference -/

theorem opsA_sub : (opsA : List (HloOp τ sig (Elt F))).Forall fun op => op.bufs ⊆ tcRefs τ sig :=
  ⟨nullary_bufs_sub .., binary_bufs_sub .., unary_bufs_sub .., unary_bufs_sub .., binary_bufs_sub .., unary_bufs_sub ..⟩

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem opsF_sub : (opsF : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., unary_bufs_sub .., binary_bufs_sub ..⟩

theorem opsG_sub : (opsG : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., binary_bufs_sub .., nullary_bufs_sub .., ternary_bufs_sub .., nullary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., nullary_bufs_sub .., binary_bufs_sub .., nullary_bufs_sub .., binary_bufs_sub .., unary_bufs_sub ..⟩

theorem ops_sub : (ops : List (HloOp τ sig (Elt F))).Forall fun op => op.bufs ⊆ tcRefs τ sig :=
  List.forall_append.2 ⟨opsA_sub, List.forall_append.2 ⟨opsB_sub, List.forall_append.2 ⟨opsC_sub,
    List.forall_append.2 ⟨opsD_sub, List.forall_append.2 ⟨opsE_sub, List.forall_append.2 ⟨opsF_sub, opsG_sub⟩⟩⟩⟩⟩⟩

/-! ## No operation allocates: each determines its results -/

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

theorem opsC_fresh : ∀ op ∈ (opsC : List (HloOp τ sig (Elt F))), op.fresh = ∅ := by
  intro _ h; (repeat (cases h with | head => rfl | tail _ h => ?_)); exact nomatch h

theorem opsD_fresh : ∀ op ∈ (opsD : List (HloOp τ sig (Elt F))), op.fresh = ∅ := by
  intro _ h; (repeat (cases h with | head => rfl | tail _ h => ?_)); exact nomatch h

theorem opsE_fresh : ∀ op ∈ (opsE : List (HloOp τ sig (Elt F))), op.fresh = ∅ := by
  intro _ h; (repeat (cases h with | head => rfl | tail _ h => ?_)); exact nomatch h

theorem opsF_fresh : ∀ op ∈ (opsF : List (HloOp τ sig (Elt F))), op.fresh = ∅ := by
  intro _ h; (repeat (cases h with | head => rfl | tail _ h => ?_)); exact nomatch h

theorem opsG_fresh : ∀ op ∈ (opsG : List (HloOp τ sig (Elt F))), op.fresh = ∅ := by
  intro _ h; (repeat (cases h with | head => rfl | tail _ h => ?_)); exact nomatch h

/-- Two lines none of whose operations allocates, one after the other. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.1 h).elim (h₁ op) (h₂ op)

theorem ops_fresh : ∀ op ∈ (ops : List (HloOp τ sig (Elt F))), op.fresh = ∅ :=
  fresh_append opsA_fresh (fresh_append opsB_fresh (fresh_append opsC_fresh (fresh_append opsD_fresh
    (fresh_append opsE_fresh (fresh_append opsF_fresh opsG_fresh)))))

/-! ## The run -/

/-- The contents after two lines run one after the other: the second line's fold over the first's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- On every device, for any float values, from any memory with zero counters: every weakly fair execution of @main
    terminates with every TensorCore buffer at the fold of the 130 operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ
    (fun _ => ops_fresh)

end Cert.ReferenceIdeal.Hand

end
-- ==== Proof.RefLoss.lean ====
/-
  The reference program's value: after its 130 operations the loss buffer holds the reference's loss of the four
  arguments (the pure function of the loss specification) and no argument is written. Read stretch by stretch: each
  stretch's result as a function of the buffers it reads, the buffers it leaves alone, then the composition from the
  last stretch backwards; the run follows from the run over the operation list.
-/
import proofs.«429815_j3599182594545_3_alg».proof.Proof.RefRun
import proofs.«429815_j3599182594545_3_alg».proof.Proof.LossSpec
import proofs.«429815_j3599182594545_3_alg».proof.Proof.Gen.KernelIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## What each stretch writes, as a function of what it reads -/

section Stretches
variable (V : Valuation τ sig (Elt F))

/-- Stretch 1 writes the logits shifted by their row maximum … -/
theorem A_v3 : after opsA V (Proc.devRef .tc main_v3) = Cert.LossSpec.shifted (V (Proc.devRef .tc main_arg0)) := by
  after_results_simp <;> rfl

/-- … and the label as a column. -/
theorem A_v4 : after opsA V (Proc.devRef .tc main_v4)
    = broadcastInDim S8192x1 ![0] bcast_S8192_S8192x1_0 (V (Proc.devRef .tc main_arg2)) := by
  after_results_simp <;> rfl

/-- Stretch 2: the shifted logit at the label. -/
theorem B_v5 : after opsB V (Proc.devRef .tc main_v5)
    = Cert.LossSpec.takeY (V (Proc.devRef .tc main_v3)) (V (Proc.devRef .tc main_v4)) := by
  after_results_simp <;> (try simp only [TRef.ofBuf, TRef.toBuf, cast_eq]) <;> rfl

/-- Stretch 3: the shifted logits at the five sampled indices. -/
theorem C_v6 : after opsC V (Proc.devRef .tc main_v6)
    = Cert.LossSpec.take32000 (V (Proc.devRef .tc main_v3)) (V (Proc.devRef .tc main_arg3)) := by
  after_results_simp <;> (try simp only [TRef.ofBuf, TRef.toBuf, cast_eq]) <;> rfl

/-- Stretch 4: the probability table's rows at the labels. -/
theorem D_v13 : after opsD V (Proc.devRef .tc main_v13)
    = Cert.LossSpec.probRows (V (Proc.devRef .tc main_arg1)) (V (Proc.devRef .tc main_arg2)) := by
  after_results_simp <;> rfl

/-- Stretch 5: those rows at the five sampled indices. -/
theorem E_v14 : after opsE V (Proc.devRef .tc main_v14)
    = Cert.LossSpec.take100 (V (Proc.devRef .tc main_v13)) (V (Proc.devRef .tc main_arg3)) := by
  after_results_simp <;> (try simp only [TRef.ofBuf, TRef.toBuf, cast_eq]) <;> rfl

/-- Stretch 6: the target's score (the least importance weight of the row times the exponential) … -/
theorem F_v22 : after opsF V (Proc.devRef .tc main_v22)
    = mulf (broadcastInDim S8192x1 ![0] bcast_S8192_S8192x1_0
        (Host.reduce FloatOps.minimumf (Cert.LossSpec.invProb (V (Proc.devRef .tc main_v14)))
          (constant (F := F) S_ .f32 0x7F800000#32) reducesTo_S8192x5_S8192_d1 h_S_))
      (Host.exp (V (Proc.devRef .tc main_v5))) := by
  after_results_simp <;> rfl

/-- … and the five samples' scores. -/
theorem F_v18 : after opsF V (Proc.devRef .tc main_v18)
    = mulf (Cert.LossSpec.invProb (V (Proc.devRef .tc main_v14))) (Host.exp (V (Proc.devRef .tc main_v6))) := by
  after_results_simp <;> rfl

/-- Stretch 7: from the two groups of scores, the loss's tail. -/
theorem G_v50 (yg : FVec F S8192x1 .f32) (comp pr : FVec F S8192x5 .f32)
    (h22 : V (Proc.devRef .tc main_v22)
      = mulf (broadcastInDim S8192x1 ![0] bcast_S8192_S8192x1_0
          (Host.reduce FloatOps.minimumf (Cert.LossSpec.invProb pr)
            (constant (F := F) S_ .f32 0x7F800000#32) reducesTo_S8192x5_S8192_d1 h_S_))
        (Host.exp yg))
    (h18 : V (Proc.devRef .tc main_v18) = mulf (Cert.LossSpec.invProb pr) (Host.exp comp)) :
    after opsG V (Proc.devRef .tc main_v50) = Cert.LossSpec.lossTail yg comp pr := by
  after_results_simp
  rw [h22, h18]
  rfl

/-! ## What each stretch leaves alone -/

theorem A_arg0 : after opsA V (Proc.devRef .tc main_arg0) = V (Proc.devRef .tc main_arg0) := by after_results_simp
theorem A_arg1 : after opsA V (Proc.devRef .tc main_arg1) = V (Proc.devRef .tc main_arg1) := by after_results_simp
theorem A_arg2 : after opsA V (Proc.devRef .tc main_arg2) = V (Proc.devRef .tc main_arg2) := by after_results_simp
theorem A_arg3 : after opsA V (Proc.devRef .tc main_arg3) = V (Proc.devRef .tc main_arg3) := by after_results_simp
theorem B_v3 : after opsB V (Proc.devRef .tc main_v3) = V (Proc.devRef .tc main_v3) := by after_results_simp
theorem B_arg0 : after opsB V (Proc.devRef .tc main_arg0) = V (Proc.devRef .tc main_arg0) := by after_results_simp
theorem B_arg1 : after opsB V (Proc.devRef .tc main_arg1) = V (Proc.devRef .tc main_arg1) := by after_results_simp
theorem B_arg2 : after opsB V (Proc.devRef .tc main_arg2) = V (Proc.devRef .tc main_arg2) := by after_results_simp
theorem B_arg3 : after opsB V (Proc.devRef .tc main_arg3) = V (Proc.devRef .tc main_arg3) := by after_results_simp
theorem C_v5 : after opsC V (Proc.devRef .tc main_v5) = V (Proc.devRef .tc main_v5) := by after_results_simp
theorem C_arg0 : after opsC V (Proc.devRef .tc main_arg0) = V (Proc.devRef .tc main_arg0) := by after_results_simp
theorem C_arg1 : after opsC V (Proc.devRef .tc main_arg1) = V (Proc.devRef .tc main_arg1) := by after_results_simp
theorem C_arg2 : after opsC V (Proc.devRef .tc main_arg2) = V (Proc.devRef .tc main_arg2) := by after_results_simp
theorem C_arg3 : after opsC V (Proc.devRef .tc main_arg3) = V (Proc.devRef .tc main_arg3) := by after_results_simp
theorem D_v5 : after opsD V (Proc.devRef .tc main_v5) = V (Proc.devRef .tc main_v5) := by after_results_simp
theorem D_v6 : after opsD V (Proc.devRef .tc main_v6) = V (Proc.devRef .tc main_v6) := by after_results_simp
theorem D_arg0 : after opsD V (Proc.devRef .tc main_arg0) = V (Proc.devRef .tc main_arg0) := by after_results_simp
theorem D_arg1 : after opsD V (Proc.devRef .tc main_arg1) = V (Proc.devRef .tc main_arg1) := by after_results_simp
theorem D_arg2 : after opsD V (Proc.devRef .tc main_arg2) = V (Proc.devRef .tc main_arg2) := by after_results_simp
theorem D_arg3 : after opsD V (Proc.devRef .tc main_arg3) = V (Proc.devRef .tc main_arg3) := by after_results_simp
theorem E_v5 : after opsE V (Proc.devRef .tc main_v5) = V (Proc.devRef .tc main_v5) := by after_results_simp
theorem E_v6 : after opsE V (Proc.devRef .tc main_v6) = V (Proc.devRef .tc main_v6) := by after_results_simp
theorem E_arg0 : after opsE V (Proc.devRef .tc main_arg0) = V (Proc.devRef .tc main_arg0) := by after_results_simp
theorem E_arg1 : after opsE V (Proc.devRef .tc main_arg1) = V (Proc.devRef .tc main_arg1) := by after_results_simp
theorem E_arg2 : after opsE V (Proc.devRef .tc main_arg2) = V (Proc.devRef .tc main_arg2) := by after_results_simp
theorem E_arg3 : after opsE V (Proc.devRef .tc main_arg3) = V (Proc.devRef .tc main_arg3) := by after_results_simp
theorem F_arg0 : after opsF V (Proc.devRef .tc main_arg0) = V (Proc.devRef .tc main_arg0) := by after_results_simp
theorem F_arg1 : after opsF V (Proc.devRef .tc main_arg1) = V (Proc.devRef .tc main_arg1) := by after_results_simp
theorem F_arg2 : after opsF V (Proc.devRef .tc main_arg2) = V (Proc.devRef .tc main_arg2) := by after_results_simp
theorem F_arg3 : after opsF V (Proc.devRef .tc main_arg3) = V (Proc.devRef .tc main_arg3) := by after_results_simp
theorem G_arg0 : after opsG V (Proc.devRef .tc main_arg0) = V (Proc.devRef .tc main_arg0) := by after_results_simp
theorem G_arg1 : after opsG V (Proc.devRef .tc main_arg1) = V (Proc.devRef .tc main_arg1) := by after_results_simp
theorem G_arg2 : after opsG V (Proc.devRef .tc main_arg2) = V (Proc.devRef .tc main_arg2) := by after_results_simp
theorem G_arg3 : after opsG V (Proc.devRef .tc main_arg3) = V (Proc.devRef .tc main_arg3) := by after_results_simp

end Stretches

/-! ## The whole line -/

section Whole
variable (W : Valuation τ sig (Elt F))

/-- The loss buffer after the 130 operations: the reference's loss of the four arguments. -/
theorem after_ops_loss : StableHlo.after ops W (Proc.devRef .tc main_v50)
    = Cert.LossSpec.refLoss (W (Proc.devRef .tc main_arg0)) (W (Proc.devRef .tc main_arg1))
        (W (Proc.devRef .tc main_arg2)) (W (Proc.devRef .tc main_arg3)) := by
  simp only [ops, after_append]
  rw [G_v50 _ _ _ _ (F_v22 _) (F_v18 _)]
  rw [E_v5, D_v5, C_v5, B_v5, A_v3, A_v4]
  rw [E_v6, D_v6, C_v6, B_v3, B_arg3, A_v3, A_arg3]
  rw [E_v14, D_v13, D_arg3, C_arg1, C_arg2, C_arg3, B_arg1, B_arg2, B_arg3, A_arg1, A_arg2, A_arg3]
  rfl

/-- No operation writes argument 0. -/
theorem after_ops_arg0 : StableHlo.after ops W (Proc.devRef .tc main_arg0) = W (Proc.devRef .tc main_arg0) := by
  simp only [ops, after_append]
  rw [G_arg0, F_arg0, E_arg0, D_arg0, C_arg0, B_arg0, A_arg0]

/-- No operation writes argument 1. -/
theorem after_ops_arg1 : StableHlo.after ops W (Proc.devRef .tc main_arg1) = W (Proc.devRef .tc main_arg1) := by
  simp only [ops, after_append]
  rw [G_arg1, F_arg1, E_arg1, D_arg1, C_arg1, B_arg1, A_arg1]

/-- No operation writes argument 2. -/
theorem after_ops_arg2 : StableHlo.after ops W (Proc.devRef .tc main_arg2) = W (Proc.devRef .tc main_arg2) := by
  simp only [ops, after_append]
  rw [G_arg2, F_arg2, E_arg2, D_arg2, C_arg2, B_arg2, A_arg2]

/-- No operation writes argument 3. -/
theorem after_ops_arg3 : StableHlo.after ops W (Proc.devRef .tc main_arg3) = W (Proc.devRef .tc main_arg3) := by
  simp only [ops, after_append]
  rw [G_arg3, F_arg3, E_arg3, D_arg3, C_arg3, B_arg3, A_arg3]

end Whole

/-- On every device, for any float values, from any memory with zero counters: every weakly fair execution of @main
    terminates with the loss buffer at the reference's loss of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
        = Cert.LossSpec.refLoss (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v50).trans (after_ops_loss (StableHlo.launchContents m c)),
       (h c main_arg0).trans (after_ops_arg0 (StableHlo.launchContents m c)),
       (h c main_arg1).trans (after_ops_arg1 (StableHlo.launchContents m c)),
       (h c main_arg2).trans (after_ops_arg2 (StableHlo.launchContents m c)),
       (h c main_arg3).trans (after_ops_arg3 (StableHlo.launchContents m c))⟩)
    (run_after m ρ)

end Cert.ReferenceIdeal.Hand

end
-- ==== Proof.LibTakeAlong.lean ====
/-
  TAKE-ALONG-AXIS. jnp's take_along_axis(x, idx, axis = 1) on a rank-2 operand x : [A, N], with the index array
  reshaped to [A, B, 1], is a stablehlo.gather whose operand axis 0 is a BATCHING axis (paired with the start
  indices' axis 0) and whose operand axis 1 is collapsed and start-indexed, the index vector on axis 2, no offset
  axes. Result element (a, b) is x at row a and at the column idx[a, b, 0], read signed and clamped into [0, N − 1].

  The lemmas take the dimension numbers by hypotheses on their fields (each closes by rfl on a literal instance):
    * operandIdx_row / operandIdx_col : the two coordinates of the operand index that result index j reads;
    * gather_apply / gather_apply_ix : the gather read at a result index;
    * gather_map₂ / gather_subf / gather_subf_apply : a gather of an elementwise binary operation is the operation of
      the gathers (any dimension numbers);
    * gather_rowconst / gather_rowfn : a gather of an operand that depends on its row only reads the result's row.
-/
import Idealize.ShloMosaic.PureOps
import Idealize.ShloMosaic.Lib.ValueIdx

namespace Idealize.ShloMosaic.TakeAlong

open Idealize.ShloMosaic Idealize.ShloMosaic.ValueIdx

/-- The start-indices index [a, b, 0] that result index (a, b) of a take-along-axis reads. -/
abbrev ix3' {A B : Nat} (j : (⟨2, ![A, B]⟩ : Shape).Idx) : (⟨3, ![A, B, 1]⟩ : Shape).Idx :=
  ix3 (n0 := A) (n1 := B) (n2 := 1) (j 0) (j 1) (0 : Fin 1)

/-- At a result index given by its coordinates, the start-indices index is the coordinates followed by 0. -/
theorem ix3'_ix2 {A B : Nat} (a : Fin A) (b : Fin B) : ix3' (ix2 a b) = ix3 a b (0 : Fin 1) := rfl

section Coordinates
variable {A N B w : Nat}

/-- THE ROW. The operand index that result index j reads has, on the batching axis 0, j's own row: the start
    indices do not enter (axis 0 is not in the start index map) and there is no offset on a batching axis. -/
theorem operandIdx_row (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (j : (⟨2, ![A, B]⟩ : Shape).Idx) (idx : IVec ⟨3, ![A, B, 1]⟩ w) :
    ((d.operandIdx j idx) (0 : Fin 2)).val = (j (0 : Fin 2)).val := by
  obtain ⟨od, cd, ob, sb, sim, ivd, ss, wf⟩ := d
  dsimp only at hoff hcoll hob hsb hsim hivd
  subst hoff hcoll hob hsb hsim hivd
  show GatherDims.start _ j idx 0 + GatherDims.batchCoord _ j 0 + GatherDims.offCoord _ j 0 = _
  rw [GatherDims.start_batching _ j idx 0 (List.mem_singleton.mpr rfl),
    GatherDims.offCoord_eq_zero _ j 0 (fun h => ((GatherDims.mem_sKept _ _).mp h).2 (List.mem_singleton.mpr rfl)),
    Nat.zero_add, Nat.add_zero]
  unfold GatherDims.batchCoord
  rw [dif_pos (List.mem_singleton.mpr rfl)]
  rfl

/-- THE COLUMN. On the collapsed, start-indexed axis 1 the operand index is the start index at (row, position, 0),
    read as a SIGNED integer and clamped into [0, N − 1] (the slice on that axis has size 1): a negative index reads
    column 0, one past the end reads the last column. No batching or offset coordinate is added there. -/
theorem operandIdx_col (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (j : (⟨2, ![A, B]⟩ : Shape).Idx) (idx : IVec ⟨3, ![A, B, 1]⟩ w) :
    ((d.operandIdx j idx) (1 : Fin 2)).val = min (idx (ix3' j)).toInt.toNat (N - 1) := by
  have hsl : d.sliceSizes 1 = 1 := d.slice_collapsed 1 (by rw [hcoll]; exact List.mem_singleton.mpr rfl)
  obtain ⟨od, cd, ob, sb, sim, ivd, ss, wf⟩ := d
  dsimp only at hoff hcoll hob hsb hsim hivd hsl
  subst hoff hcoll hob hsb hsim hivd
  show GatherDims.start _ j idx 1 + GatherDims.batchCoord _ j 1 + GatherDims.offCoord _ j 1 = _
  rw [GatherDims.batchCoord_eq_zero _ j 1 (fun h => Nat.one_ne_zero (congrArg Fin.val (List.mem_singleton.mp h))),
    GatherDims.offCoord_eq_zero _ j 1 (fun h => ((GatherDims.mem_sKept _ _).mp h).1 (List.mem_singleton.mpr rfl))]
  simp only [Nat.add_zero]
  unfold GatherDims.start
  rw [dif_pos (List.mem_singleton.mpr rfl)]
  -- the start-indices index read: j's two batch coordinates, then component 0 on the index vector's axis
  have hsi : GatherDims.siIdx (⟨[], [1], [0], [0], [1], 2, ss, wf⟩ : GatherDims ⟨2, ![A, N]⟩ ⟨3, ![A, B, 1]⟩ ⟨2, ![A, B]⟩) j
      ⟨List.idxOf (1 : Fin 2) [1], List.idxOf_lt_length_iff.2 (List.mem_singleton.mpr rfl)⟩ = ix3' j := by
    funext b; refine Fin.ext ?_
    match b with
    | ⟨0, _⟩ => rfl
    | ⟨1, _⟩ => rfl
    | ⟨2, _⟩ => rfl
  rw [hsi]
  show min (idx (ix3' j)).toInt.toNat (N - ss 1) = _
  rw [hsl]

end Coordinates

section Read
variable {A N B w : Nat} {α : Type}

/-- THE GATHER READ AT A RESULT INDEX: row j 0 of the operand, at the column the start index at (j 0, j 1, 0)
    names, read signed and clamped into [0, N − 1]. -/
theorem gather_apply (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (hN : 0 < N) (x : (⟨2, ![A, N]⟩ : Shape).Idx → α) (idx : IVec ⟨3, ![A, B, 1]⟩ w) (j : (⟨2, ![A, B]⟩ : Shape).Idx) :
    Host.gather d x idx j
      = x (ix2 (n0 := A) (n1 := N) (j 0) ⟨min (idx (ix3' j)).toInt.toNat (N - 1), by omega⟩) := by
  unfold Host.gather
  congr 1
  funext c
  refine Fin.ext ?_
  match c with
  | ⟨0, _⟩ => exact operandIdx_row d hoff hcoll hob hsb hsim hivd j idx
  | ⟨1, _⟩ => exact operandIdx_col d hoff hcoll hob hsb hsim hivd j idx

/-- The same read with the result index given by its coordinates (a, b): the operand at
    (a, clamp idx[a, b, 0]). -/
theorem gather_apply_ix (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (hN : 0 < N) (x : (⟨2, ![A, N]⟩ : Shape).Idx → α) (idx : IVec ⟨3, ![A, B, 1]⟩ w) (a : Fin A) (b : Fin B) :
    Host.gather d x idx (ix2 a b)
      = x (ix2 a ⟨min (idx (ix3 a b (0 : Fin 1))).toInt.toNat (N - 1), by omega⟩) :=
  gather_apply d hoff hcoll hob hsb hsim hivd hN x idx (ix2 a b)

/-- An operand that depends on its ROW only is gathered to its value on the result's row, whatever the start
    indices hold: i is any operand index on row j 0. -/
theorem gather_rowconst (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (y : (⟨2, ![A, N]⟩ : Shape).Idx → α) (hy : ∀ i i' : (⟨2, ![A, N]⟩ : Shape).Idx, (i 0).val = (i' 0).val → y i = y i')
    (idx : IVec ⟨3, ![A, B, 1]⟩ w) (j : (⟨2, ![A, B]⟩ : Shape).Idx) (i : (⟨2, ![A, N]⟩ : Shape).Idx)
    (hi : (i 0).val = (j 0).val) :
    Host.gather d y idx j = y i :=
  hy _ _ ((operandIdx_row d hoff hcoll hob hsb hsim hivd j idx).trans hi.symm)

/-- A function c of the row coordinate alone is gathered to c at the result's row. -/
theorem gather_rowfn (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (c : Fin A → α) (idx : IVec ⟨3, ![A, B, 1]⟩ w) (j : (⟨2, ![A, B]⟩ : Shape).Idx) :
    Host.gather d (fun i : (⟨2, ![A, N]⟩ : Shape).Idx => c ⟨(i 0).val, idx2_lt0 i⟩) idx j = c ⟨(j 0).val, idx2_lt0 j⟩ :=
  congrArg c (Fin.ext (operandIdx_row d hoff hcoll hob hsb hsim hivd j idx))

end Read

/-! ## A gather of an elementwise binary operation (any dimension numbers)

A gather re-indexes its operand, so it commutes with every operation applied element by element. -/

section Elementwise
variable {s si t : Shape} {w : Nat}

/-- A gather of the elementwise f of x and y is f of the two gathers, at every result index. -/
theorem gather_map₂ {α β γ : Type} (d : GatherDims s si t) (f : α → β → γ) (x : s.Idx → α) (y : s.Idx → β)
    (idx : IVec si w) :
    Host.gather d (fun i => f (x i) (y i)) idx = fun j => f (Host.gather d x idx j) (Host.gather d y idx j) := rfl

/-- A gather of a vector difference is the difference of the gathers (every float instance). -/
theorem gather_subf {F : FTy → Type} [FloatOps F] {φ : FTy} (d : GatherDims s si t) (x y : FVec F s φ)
    (idx : IVec si w) :
    Host.gather d (subf x y) idx
      = subf (F := F) (φ := φ) (Host.gather d x idx) (Host.gather d y idx) := rfl

/-- At the ideal instance, read at a result index: the extended reals' difference of the two gathers there. -/
theorem gather_subf_apply {φ : FTy} (d : GatherDims s si t) (x y : FVec Ideal s φ) (idx : IVec si w) (j : t.Idx) :
    Host.gather d (subf x y) idx j = Host.gather d x idx j - Host.gather d y idx j := rfl

end Elementwise

end Idealize.ShloMosaic.TakeAlong
-- ==== Proof.Bridge.lean ====
/-
  GATHER THEN SHIFT against SHIFT THEN GATHER.

  The kernel's program gathers the target logit and the five sampled logits from the raw logits x and then subtracts the
  row maximum rm; the reference subtracts the row maximum from every logit and then gathers. Over the extended reals:

  * a gather along the columns commutes with subtracting a column vector broadcast along the rows, because the gather
    reads row a of the operand for result row a and the broadcast is constant along each row;
  * where the in-range mask is clear both programs put the not-a-number pattern, which denotes ⊥, and ⊥ - r = ⊥;
  * the sampled logits are read by the kernel from the first 128 columns (indices wrapped by 128, mask [0, 127]) and by
    the reference from all 32000 (wrapped by 32000, mask [0, 31999]); for indices in [0, 100) no index wraps, both masks
    are set, both clamps are the identity and the slice's column v is the matrix's column v.
-/
import proofs.«429815_j3599182594545_3_alg».proof.Proof.LossSpec
import proofs.«429815_j3599182594545_3_alg».proof.Proof.LibTakeAlong
import Idealize.ShloMosaic.PureOps.Ideal
import Idealize.ShloMosaic.PureOps.Reduce
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx Idealize.ShloMosaic.TakeAlong

/-! ## Words, folds and layout operations at an index (no program) -/

/-- The not-a-number pattern denotes the junk value ⊥. -/
theorem nanBits_eq_bot : Ideal.ofBits .f32 0x7FC00000#32 = (⊥ : EReal) := by
  simp [Ideal.ofBits, Ideal.ieee]

/-- A word that is non-negative read signed is not below zero. -/
theorem slt_zero_of_nonneg (v : BitVec 32) (h : 0 ≤ v.toInt) : IntOp.cmpi .slt v 0#32 = 0#1 := by
  have h0 : (0#32 : BitVec 32).toInt = 0 := by decide
  simp only [IntOp.cmpi, BitVec.slt, h0]
  rw [decide_eq_false (by omega)]
  rfl

/-- A word that is non-negative read signed is at least zero. -/
theorem sge_zero_of_nonneg (v : BitVec 32) (h : 0 ≤ v.toInt) : IntOp.cmpi .sge v 0#32 = 1#1 := by
  have h0 : (0#32 : BitVec 32).toInt = 0 := by decide
  simp only [IntOp.cmpi, BitVec.sle, h0]
  rw [decide_eq_true h]
  rfl

/-- Signed at-most, from the signed values. -/
theorem sle_of_toInt_le (v b : BitVec 32) (h : v.toInt ≤ b.toInt) : IntOp.cmpi .sle v b = 1#1 := by
  simp only [IntOp.cmpi, BitVec.sle]
  rw [decide_eq_true h]
  rfl

/-- A left fold of and from 1 over words that are all 1 is 1. -/
theorem foldl_andi_ones {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons_self), show IntOp.andi 1#1 1#1 = 1#1 from by decide]
    exact ih fun n hn => h n (List.mem_cons_of_mem _ hn)

/-- An and-reduction from 1 is 1 at a result index all of whose source indices hold 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  exact foldl_andi_ones x _ fun i hi => hx i (by simpa using (List.mem_filter.1 hi).2)

/-- An [a, b] array given a trailing unit axis reads, at (i, k, 0), the operand at (i, k). -/
theorem shapeCast_ab_ab1_apply {α : Type} {a b : Nat} (x : (⟨2, ![a, b]⟩ : Shape).Idx → α)
    (h : (⟨2, ![a, b]⟩ : Shape).ShapeCasts ⟨3, ![a, b, 1]⟩) (j : (⟨3, ![a, b, 1]⟩ : Shape).Idx) :
    shapeCast ⟨3, ![a, b, 1]⟩ x h j = x (ix2 (n0 := a) (n1 := b) (j 0) (j 1)) :=
  shapeCast_apply x h _ _ (by
    have h2 : (j 2).val = 0 := by have := (j 2).isLt; simp at this; omega
    rw [Shape.rowMajor_val_three, Shape.rowMajor_val_two]
    show (j 0).val * b + (j 1).val = ((j 0).val * b + (j 1).val) * 1 + (j 2).val
    rw [h2, Nat.mul_one, Nat.add_zero])

/-- A column [a, 1] broadcast along the rows of an [a, n] rectangle reads, at an index, the column at that index's row. -/
theorem bcast_col_apply {α : Type} {a n : Nat} (h : (⟨2, ![a, 1]⟩ : Shape).BroadcastsInDim ⟨2, ![a, n]⟩ ![0, 1])
    (v : (⟨2, ![a, 1]⟩ : Shape).Idx → α) (i : (⟨2, ![a, n]⟩ : Shape).Idx) :
    broadcastInDim ⟨2, ![a, n]⟩ ![0, 1] h v i = v (ix2 (n0 := a) (n1 := 1) (i 0) (0 : Fin 1)) :=
  broadcastInDim_apply _ h v i _ (fun ax => by
    match ax with
    | ⟨0, _⟩ =>
      show (i 0).val = if a = 1 then 0 else (i 0).val
      split
      · next h1 => have := (i 0).isLt; simp at this; omega
      · rfl
    | ⟨1, _⟩ => rfl)

/-- The take-along gather read at a result index whose start index, read signed, is the column c. -/
theorem gather_at {α : Type} {A N B w : Nat} (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![A, N]⟩ : Shape).Idx → α) (idx : IVec ⟨3, ![A, B, 1]⟩ w) (j : (⟨2, ![A, B]⟩ : Shape).Idx) (c : Fin N)
    (hc : (idx (ix3' j)).toInt.toNat = c.val) :
    Host.gather d x idx j = x (ix2 (n0 := A) (n1 := N) (j 0) c) := by
  rw [gather_apply d hoff hcoll hob hsb hsim hivd (Fin.pos c) x idx j]
  refine congrArg x ?_
  funext a
  match a with
  | ⟨0, _⟩ => rfl
  | ⟨1, _⟩ =>
    refine Fin.ext ?_
    show min (idx (ix3' j)).toInt.toNat (N - 1) = c.val
    rw [hc]
    have := c.isLt
    omega

/-! ## The two programs' gathers -/

open Cert.KernelIdeal
open Cert.KernelIdeal.Facts₀ Cert.KernelIdeal.Facts
open Cert.LossSpec

variable [Cert.KernelIdeal.Facts] [Cert.ReferenceIdeal.Facts]

/-- THE TARGET LOGIT. Gathering one entry per row and then subtracting the column rm is gathering from the matrix with
    rm subtracted along its rows: where the index is in range the gather reads row a of both the matrix and the broadcast
    column, and elsewhere both sides hold ⊥. -/
theorem takeY_sub (x : FVec Ideal S8192x32000 .f32) (y1 : IVec S8192x1 32) (rm : FVec Ideal S8192x1 .f32) :
    subf (Cert.LossSpec.takeY x y1) rm
      = Cert.LossSpec.takeY (subf x (broadcastInDim S8192x32000 ![0, 1]
          Cert.ReferenceIdeal.Facts₀.bcast_S8192x1_S8192x32000_0_1 rm)) y1 := by
  funext j
  show Scalar.select (inRange1 (wrapIdx1 y1) j)
        (Host.gather gather_S8192x32000_S8192x1x1_S8192x1_n_1_0_0_1_2_11 x (wrapIdx1 y1) j)
        (Ideal.ofBits .f32 0x7FC00000#32) - rm j
      = Scalar.select (inRange1 (wrapIdx1 y1) j)
        (Host.gather gather_S8192x32000_S8192x1x1_S8192x1_n_1_0_0_1_2_11
          (subf x (broadcastInDim S8192x32000 ![0, 1] Cert.ReferenceIdeal.Facts₀.bcast_S8192x1_S8192x32000_0_1 rm))
          (wrapIdx1 y1) j)
        (Ideal.ofBits .f32 0x7FC00000#32)
  rcases BitVec.eq_zero_or_eq_one (inRange1 (wrapIdx1 y1) j) with h0 | h1
  · rw [h0, select_zero, select_zero, nanBits_eq_bot]
    exact EReal.bot_sub _
  · rw [h1, select_one, select_one, gather_subf_apply]
    have hrow : Host.gather gather_S8192x32000_S8192x1x1_S8192x1_n_1_0_0_1_2_11
        (broadcastInDim S8192x32000 ![0, 1] Cert.ReferenceIdeal.Facts₀.bcast_S8192x1_S8192x32000_0_1 rm) (wrapIdx1 y1) j = rm j := by
      rw [gather_rowconst _ rfl rfl rfl rfl rfl rfl _ (fun i i' h => by
            rw [bcast_col_apply, bcast_col_apply]
            exact congrArg rm (by funext a; match a with | ⟨0, _⟩ => exact Fin.ext h | ⟨1, _⟩ => rfl))
          (wrapIdx1 y1) j (ix2 (n0 := 8192) (n1 := 32000) (j 0) ⟨0, by decide⟩) rfl, bcast_col_apply]
      exact congrArg rm (by funext a; match a with | ⟨0, _⟩ => rfl | ⟨1, _⟩ => exact Fin.ext (Nat.lt_one_iff.mp (j 1).isLt).symm)
    rw [hrow]

/-- A wrapped index array read at an index: where the index is non-negative nothing is wrapped. -/
theorem wrapIdx5_apply (n : BitVec 32) (ind : IVec S8192x5 32) (i : S8192x5x1.Idx)
    (h : 0 ≤ (ind (ix2 (n0 := 8192) (n1 := 5) (i 0) (i 1))).toInt) :
    wrapIdx5 n ind i = ind (ix2 (n0 := 8192) (n1 := 5) (i 0) (i 1)) := by
  unfold wrapIdx5
  refine (shapeCast_ab_ab1_apply _ _ i).trans ?_
  show Scalar.select (IntOp.cmpi .slt (ind (ix2 (n0 := 8192) (n1 := 5) (i 0) (i 1))) 0#32) _ _ = _
  rw [slt_zero_of_nonneg _ h, select_zero]

/-- The in-range mask is set wherever every index lies in [0, b]. -/
theorem inRange5_eq_one (b : BitVec 32) (W : IVec S8192x5x1 32) (j : S8192x5.Idx)
    (hW : ∀ i : S8192x5x1.Idx, 0 ≤ (W i).toInt ∧ (W i).toInt ≤ b.toInt) : inRange5 b W j = 1#1 := by
  unfold inRange5
  refine reduce_andi_one _ _ _ _ j rfl fun i _ => ?_
  show IntOp.andi (IntOp.cmpi .sge (W i) 0#32) (IntOp.cmpi .sle (W i) b) = 1#1
  rw [sge_zero_of_nonneg _ (hW i).1, sle_of_toInt_le _ _ (hW i).2]
  decide

/-- THE SAMPLED LOGITS. For indices in [0, 100) the kernel's gather from the first 128 columns followed by the
    subtraction of rm is the reference's gather from the whole matrix with rm subtracted along its rows: no index wraps,
    both in-range masks are set, both gathers read column v of row a, the slice's column v is the matrix's, and both
    broadcasts of rm read rm at row a. -/
theorem take128_sub (x : FVec Ideal S8192x32000 .f32) (ind : IVec S8192x5 32) (rm : FVec Ideal S8192x1 .f32)
    (hind : ∀ i : Cert.KernelIdeal.S8192x5.Idx, 0 ≤ (ind i).toInt ∧ (ind i).toInt < 100) :
    subf (Cert.LossSpec.take128 (extractStridedSlice S8192x128 ![0, 0] x slices_S8192x32000_S8192x128_0_0) ind)
        (broadcastInDim S8192x5 ![0, 1] bcast_S8192x1_S8192x5_0_1 rm)
      = Cert.LossSpec.take32000 (subf x (broadcastInDim S8192x32000 ![0, 1]
          Cert.ReferenceIdeal.Facts₀.bcast_S8192x1_S8192x32000_0_1 rm)) ind := by
  funext j
  obtain ⟨a, k, rfl⟩ : ∃ (a : Fin 8192) (k : Fin 5), j = ix2 a k := ⟨j 0, j 1, eq_ix2 j⟩
  -- no index wraps
  have hW : ∀ (n : BitVec 32) (i : S8192x5x1.Idx), wrapIdx5 n ind i = ind (ix2 (n0 := 8192) (n1 := 5) (i 0) (i 1)) :=
    fun n i => wrapIdx5_apply n ind i (hind _).1
  -- both masks are set
  have hm1 : inRange5 127#32 (wrapIdx5 128#32 ind) (ix2 a k) = 1#1 :=
    inRange5_eq_one _ _ _ fun i => by
      rw [hW]
      have := hind (ix2 (n0 := 8192) (n1 := 5) (i 0) (i 1))
      have hb : (127#32 : BitVec 32).toInt = 127 := by decide
      exact ⟨this.1, by omega⟩
  have hm2 : inRange5 31999#32 (wrapIdx5 32000#32 ind) (ix2 a k) = 1#1 :=
    inRange5_eq_one _ _ _ fun i => by
      rw [hW]
      have := hind (ix2 (n0 := 8192) (n1 := 5) (i 0) (i 1))
      have hb : (31999#32 : BitVec 32).toInt = 31999 := by decide
      exact ⟨this.1, by omega⟩
  -- the column both gathers read
  have hv := hind (ix2 a k)
  have hc1 : (ind (ix2 a k)).toInt.toNat < 128 := by omega
  have hc2 : (ind (ix2 a k)).toInt.toNat < 32000 := by omega
  have hg1 : Host.gather gather_S8192x128_S8192x5x1_S8192x5_n_1_0_0_1_2_11
      (extractStridedSlice S8192x128 ![0, 0] x slices_S8192x32000_S8192x128_0_0) (wrapIdx5 128#32 ind) (ix2 a k)
      = x (ix2 a ⟨(ind (ix2 a k)).toInt.toNat, hc2⟩) := by
    rw [gather_at _ rfl rfl rfl rfl rfl rfl _ _ (ix2 a k) ⟨(ind (ix2 a k)).toInt.toNat, hc1⟩ (by rw [hW])]
    exact slice2_axis1_apply 0 x _ a _ _ (Nat.zero_add _).symm
  have hg2 : ∀ z : FVec Ideal S8192x32000 .f32,
      Host.gather Cert.ReferenceIdeal.gather_S8192x32000_S8192x5x1_S8192x5_n_1_0_0_1_2_11 z (wrapIdx5 32000#32 ind) (ix2 a k)
      = z (ix2 a ⟨(ind (ix2 a k)).toInt.toNat, hc2⟩) := fun z =>
    gather_at _ rfl rfl rfl rfl rfl rfl _ _ (ix2 a k) ⟨(ind (ix2 a k)).toInt.toNat, hc2⟩ (by rw [hW])
  show Scalar.select (inRange5 127#32 (wrapIdx5 128#32 ind) (ix2 a k))
        (Host.gather gather_S8192x128_S8192x5x1_S8192x5_n_1_0_0_1_2_11
          (extractStridedSlice S8192x128 ![0, 0] x slices_S8192x32000_S8192x128_0_0) (wrapIdx5 128#32 ind) (ix2 a k))
        (Ideal.ofBits .f32 0x7FC00000#32)
        - broadcastInDim S8192x5 ![0, 1] bcast_S8192x1_S8192x5_0_1 rm (ix2 a k)
      = Scalar.select (inRange5 31999#32 (wrapIdx5 32000#32 ind) (ix2 a k))
        (Host.gather Cert.ReferenceIdeal.gather_S8192x32000_S8192x5x1_S8192x5_n_1_0_0_1_2_11
          (subf x (broadcastInDim S8192x32000 ![0, 1] Cert.ReferenceIdeal.Facts₀.bcast_S8192x1_S8192x32000_0_1 rm))
          (wrapIdx5 32000#32 ind) (ix2 a k))
        (Ideal.ofBits .f32 0x7FC00000#32)
  rw [hm1, hm2, select_one, select_one, hg1, hg2, subf_apply, bcast_col_apply, bcast_col_apply]

/-- THE TWO LOSSES. With the reference's row maximum handed to it, the kernel's program computes the reference's loss, for
    sampled indices in [0, 100): the two shifted logit arrays agree, and the rest of the computation is shared. -/
theorem kernelLoss_eq_refLoss (x : FVec Ideal S8192x32000 .f32) (prob : FVec Ideal S32000x100 .f32) (y : IVec S8192 32)
    (ind : IVec S8192x5 32)
    (hind : ∀ i : Cert.KernelIdeal.S8192x5.Idx, 0 ≤ (ind i).toInt ∧ (ind i).toInt < 100) :
    Cert.LossSpec.kernelLoss (F := Ideal) x prob y ind (Cert.LossSpec.rowMaxRef x) = Cert.LossSpec.refLoss x prob y ind := by
  unfold kernelLoss refLoss shifted
  rw [takeY_sub, take128_sub _ _ _ hind]

end Cert.Bridge

end
-- ==== Proof.PreDecode.lean ====
/-
  The precondition `finite_inputs`, read back for the index array: the printed predicate is the conjunction
  (every |yHat| < +inf) ∧ (every |prob| < +inf) ∧ (every ind ≥ 0, signed) ∧ (every ind < 100, signed), one i1 scalar.
  When that scalar is 1, its last two conjuncts say of every element of `ind` that it lies in [0, 100) read signed,
  hence also read unsigned.
-/
import proofs.«429815_j3599182594545_3_alg».proof.Pre_finite_inputs
import proofs.«429815_j3599182594545_3_alg».proof.Proof.Gen.Pre_finite_inputs
import Idealize.ShloMosaic.Lib.ReduceAll
import Idealize.ShloMosaic.Lib.ValueIdx

namespace Cert.PreDecode

open Idealize.ShloMosaic Cert.Pre_finite_inputs

variable {F : FTy → Type} [FloatOps F] [Cert.Pre_finite_inputs.Facts]

/-- The scalar shape has one index. -/
instance subsingleton_scalar_idx : Subsingleton S_.Idx := ⟨fun a b => funext fun d => d.elim0⟩

/-- The two signed comparisons of the precondition hold at every element of `ind`: the conjunction is split into its
    four conjuncts, the last two are reductions by `and` over all axes, and a broadcast scalar constant reads its
    word at every index. -/
theorem ind_cmp (x : FVec F S8192x32000 .f32) (p : FVec F S32000x100 .f32) (y : IVec S8192 32) (ind : IVec S8192x5 32)
    (h : Cert.Pre_finite_inputs.fn (F := F) x p y ind = fun _ => 1#1) (i : Cert.Pre_finite_inputs.S8192x5.Idx) :
    IntOp.cmpi .sge (ind i) 0#32 = 1#1 ∧ IntOp.cmpi .slt (ind i) 100#32 = 1#1 := by
  have h0 := congrFun h ValueIdx.ix0
  dsimp only [fn, fn_part1, Idealize.ShloMosaic.andi] at h0
  obtain ⟨h12, h15⟩ := IntOp.andi_eq_one.1 h0
  obtain ⟨-, h11⟩ := IntOp.andi_eq_one.1 h12
  exact ⟨Host.reduce_andi_all _ _ _ _ _ h11 i, Host.reduce_andi_all _ _ _ _ _ h15 i⟩

/-- Every element of `ind` is in [0, 100), read signed. -/
theorem ind_range (x : FVec F S8192x32000 .f32) (p : FVec F S32000x100 .f32) (y : IVec S8192 32) (ind : IVec S8192x5 32)
    (h : Cert.Pre_finite_inputs.fn (F := F) x p y ind = fun _ => 1#1) (i : Cert.Pre_finite_inputs.S8192x5.Idx) :
    0 ≤ (ind i).toInt ∧ (ind i).toInt < 100 := by
  obtain ⟨hge, hlt⟩ := ind_cmp x p y ind h i
  have h1 := IntOp.cmpi_sge.1 hge
  have h2 := IntOp.cmpi_slt.1 hlt
  rw [show (0#32 : BitVec 32).toInt = 0 from by decide] at h1
  rw [show (100#32 : BitVec 32).toInt = 100 from by decide] at h2
  exact ⟨h1, h2⟩

/-- No element of `ind` is negative: the signed test "below zero" is false, as a Boolean … -/
theorem ind_slt_zero (x : FVec F S8192x32000 .f32) (p : FVec F S32000x100 .f32) (y : IVec S8192 32) (ind : IVec S8192x5 32)
    (h : Cert.Pre_finite_inputs.fn (F := F) x p y ind = fun _ => 1#1) (i : Cert.Pre_finite_inputs.S8192x5.Idx) :
    (ind i).slt 0#32 = false := by
  have h1 := (ind_range x p y ind h i).1
  rw [Bool.eq_false_iff, ne_eq, BitVec.slt_iff_toInt_lt, show (0#32 : BitVec 32).toInt = 0 from by decide]
  omega

/-- … and as the comparison's one-bit word. -/
theorem ind_cmpi_slt_zero (x : FVec F S8192x32000 .f32) (p : FVec F S32000x100 .f32) (y : IVec S8192 32) (ind : IVec S8192x5 32)
    (h : Cert.Pre_finite_inputs.fn (F := F) x p y ind = fun _ => 1#1) (i : Cert.Pre_finite_inputs.S8192x5.Idx) :
    IntOp.cmpi .slt (ind i) 0#32 = 0#1 := by
  show BitVec.ofBool ((ind i).slt 0#32) = 0#1
  rw [ind_slt_zero x p y ind h i]
  rfl

/-- A nonnegative word reads the same signed and unsigned, so every element of `ind` is below 100 read unsigned as well. -/
theorem ind_toNat (x : FVec F S8192x32000 .f32) (p : FVec F S32000x100 .f32) (y : IVec S8192 32) (ind : IVec S8192x5 32)
    (h : Cert.Pre_finite_inputs.fn (F := F) x p y ind = fun _ => 1#1) (i : Cert.Pre_finite_inputs.S8192x5.Idx) :
    (ind i).toInt.toNat = (ind i).toNat ∧ (ind i).toNat < 100 := by
  obtain ⟨h1, h2⟩ := ind_range x p y ind h i
  have hn : 2 * (ind i).toNat < 2 ^ 32 := BitVec.toInt_pos_iff.1 h1
  have he : (ind i).toInt = ((ind i).toNat : Int) := BitVec.toInt_eq_toNat_of_lt hn
  rw [he] at h2
  rw [he]
  exact ⟨Int.toNat_natCast _, by omega⟩

end Cert.PreDecode
-- ==== Proof.lean ====
/-
  The row-maximum kernel against its reference. Both programs compute the sampled-softmax loss of the logits x shifted
  by their row maxima: the reference subtracts the row maximum from every logit and then gathers the target logit and
  the sampled logits; the kernel program computes the row maxima in a pipelined region (a running maximum over ten
  column blocks per row block), gathers from the raw logits — the sampled ones from the first 128 columns only — and
  subtracts the row maximum from what it gathered. Over the extended reals the two agree when every sampled index lies
  in [0, 100), the range of the sampling table's columns: then both gathers read the same logit, and an out-of-range
  target index reads the bottom element on both sides, from which subtracting anything leaves the bottom. The rest of
  the two programs (the importance weights, the normalisation, the logarithms and the mean) is the same function of
  the gathered values on both sides and is never opened.
-/
import proofs.«429815_j3599182594545_3_alg».proof.Defs
import proofs.«429815_j3599182594545_3_alg».proof.Proof.Gen.Kernel
import proofs.«429815_j3599182594545_3_alg».proof.Proof.Gen.KernelIdeal
import proofs.«429815_j3599182594545_3_alg».proof.Proof.Gen.ReferenceIdeal
import proofs.«429815_j3599182594545_3_alg».proof.Proof.Gen.Pre_finite_inputs
import proofs.«429815_j3599182594545_3_alg».proof.Proof.BitsFrame
import proofs.«429815_j3599182594545_3_alg».proof.Proof.IdealLoss
import proofs.«429815_j3599182594545_3_alg».proof.Proof.RefLoss
import proofs.«429815_j3599182594545_3_alg».proof.Proof.Bridge
import proofs.«429815_j3599182594545_3_alg».proof.Proof.PreDecode

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_r : Cert.frame_ReferenceIdeal := fun m ρ _ =>
  (θ_run Cert.ReferenceIdeal.defs _ _).mono (fun _ h c => (h c).2) (Cert.ReferenceIdeal.Hand.run (F := Ideal) m ρ)

/-- Both programs end with the loss of the reference, as a function of the argument arrays. -/
theorem algebraic : Cert.algebraic_KernelIdeal_ReferenceIdeal := by
  intro m ρ m' ρ' hpre hagree
  refine ⟨fun c => Cert.LossSpec.refLoss (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Hand.run_result (F := Ideal) m ρ)
    rw [Cert.KernelIdeal.Hand.loss_value m c, Cert.KernelIdeal.Hand.rowMaxArr_eq_ref m c]
    exact Cert.Bridge.kernelLoss_eq_refLoss _ _ _ _ fun i =>
      Cert.PreDecode.ind_range (F := Ideal) _ _ _ _ (hpre c) i
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
